-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10x8192 : Shape := ⟨3, ![1, 10, 8192]⟩
abbrev S8192x8192 : Shape := ⟨2, ![8192, 8192]⟩
abbrev S8192x512 : Shape := ⟨2, ![8192, 512]⟩
abbrev S512x512 : Shape := ⟨2, ![512, 512]⟩
abbrev S8193 : Shape := ⟨1, ![8193]⟩
abbrev S262144 : Shape := ⟨1, ![262144]⟩
abbrev S_ : Shape := ⟨0, ![]⟩

class Facts : Prop where
  bcast_S_S1x10x8192 : S_.BroadcastsInDim S1x10x8192 (![] : Fin 0 → Fin S1x10x8192.rank)
  reducesTo_S1x10x8192_S_d0_1_2 : S1x10x8192.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg7 : FVec F S512x512 .f32) (main_arg10 : FVec F S262144 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg7
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S262144 .f32 := Host.absf main_arg10
  let main_cst_8 : FVec F S_ .f32 := constant S_ .f32 0x7F800000#32
  let main_v25 : FVec F S262144 .f32 := broadcastInDim S262144 ![] bcast_S_S262144 main_cst_8
  let main_v26 : IVec S262144 1 := cmpf .olt main_v24 main_v25
  let main_c_9 : IVec S_ 1 := constantI S_ 1 1#1
  let main_v27 : IVec S_ 1 := (fun x v => Host.reduce IntOp.andi x v reducesTo_S262144_S_d0 h_S_) main_v26 main_c_9
  let main_v28 : IVec S_ 1 := andi main_v23 main_v27
  main_v28

def fn {F : FTy → Type} [FloatOps F] (main_arg0 : FVec F S1x10x8192 .f32) (main_arg1 : IVec S8192x8192 32) (main_arg2 : IVec S8192x512 32) (main_arg3 : IVec S8192x512 32) (main_arg4 : FVec F S512x512 .f32) (main_arg5 : FVec F S512x512 .f32) (main_arg6 : FVec F S512x512 .f32) (main_arg7 : FVec F S512x512 .f32) (main_arg8 : IVec S8193 32) (main_arg9 : IVec S262144 32) (main_arg10 : FVec F S262144 .f32) : IVec S_ 1 :=
  let main_v0 : FVec F S1x10x8192 .f32 := Host.absf main_arg0
  let main_cst : FVec F S_ .f32 := constant S_ .f32 0x7F800000#32
  let main_v1 : FVec F S1x10x8192 .f32 := broadcastInDim S1x10x8192 ![] bcast_S_S1x10x8192 main_cst
  let main_v2 : IVec S1x10x8192 1 := cmpf .olt main_v0 main_v1
  let main_c : IVec S_ 1 := constantI S_ 1 1#1
  let main_v3 : IVec S_ 1 := (fun x v => Host.reduce IntOp.andi x v reducesTo_S1x10x8192_S_d0_1_2 h_S_) main_v2 main_c
  let main_v4 : FVec F S512x512 .f32 := Host.absf main_arg4
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg5
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg6
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg7 main_arg10 main_v13 main_v16
-- ==== Kernel.lean ====
abbrev S1x10x8192 : Shape := ⟨3, ![1, 10, 8192]⟩
abbrev S8192x8192 : Shape := ⟨2, ![8192, 8192]⟩
abbrev S8192x512 : Shape := ⟨2, ![8192, 512]⟩
abbrev S512x512 : Shape := ⟨2, ![512, 512]⟩
abbrev S8193 : Shape := ⟨1, ![8193]⟩
abbrev S262144 : Shape := ⟨1, ![262144]⟩
abbrev S10x8192 : Shape := ⟨2, ![10, 8192]⟩
abbrev S512x16x512 : Shape := ⟨3, ![512, 16, 512]⟩
abbrev S512x1x512 : Shape := ⟨3, ![512, 1, 512]⟩
abbrev S128x2048 : Shape := ⟨2, ![128, 2048]⟩
abbrev S_ : Shape := ⟨0, ![]⟩
abbrev S10x2048 : Shape := ⟨2, ![10, 2048]⟩
abbrev S128x128 : Shape := ⟨2, ![128, 128]⟩
abbrev S10x128 : Shape := ⟨2, ![10, 128]⟩
abbrev S8192 : Shape := ⟨1, ![8192]⟩
abbrev S1 : Shape := ⟨1, ![1]⟩
abbrev S8191 : Shape := ⟨1, ![8191]⟩
abbrev S8192x1 : Shape := ⟨2, ![8192, 1]⟩
abbrev S262144x1 : Shape := ⟨2, ![262144, 1]⟩
abbrev S1x1 : Shape := ⟨2, ![1, 1]⟩
abbrev S10x262144 : Shape := ⟨2, ![10, 262144]⟩
abbrev S262144x10 : Shape := ⟨2, ![262144, 10]⟩
abbrev S8192x10 : Shape := ⟨2, ![8192, 10]⟩

abbrev nBuf : Space → Nat
  | .hbm => 128
  | .vmem => 12
  | .smem => 0
  | _ => 0

abbrev bufTy : (tb : Table) → Fin (tcTables nBuf tb) → BufTy
  | .hbm, ⟨0, _⟩ => ⟨S1x10x8192, .f32⟩
  | .hbm, ⟨1, _⟩ => ⟨S8192x8192, .i32⟩
  | .hbm, ⟨2, _⟩ => ⟨S8192x512, .i32⟩
  | .hbm, ⟨3, _⟩ => ⟨S8192x512, .i32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S8193, .i32⟩
  | .hbm, ⟨9, _⟩ => ⟨S262144, .i32⟩
  | .hbm, ⟨10, _⟩ => ⟨S262144, .f32⟩
  | .hbm, ⟨11, _⟩ => ⟨S10x8192, .f32⟩
  | .hbm, ⟨12, _⟩ => ⟨S8192x512, .f32⟩
  | .hbm, ⟨13, _⟩ => ⟨S512x16x512, .f32⟩
  | .hbm, ⟨14, _⟩ => ⟨S8192x512, .f32⟩
  | .hbm, ⟨15, _⟩ => ⟨S512x16x512, .f32⟩
  | .hbm, ⟨16, _⟩ => ⟨S512x1x512, .f32⟩
  | .hbm, ⟨17, _⟩ => ⟨S512x16x512, .f32⟩
  | .hbm, ⟨18, _⟩ => ⟨S512x16x512, .f32⟩
  | .hbm, ⟨19, _⟩ => ⟨S512x1x512, .f32⟩
  | .hbm, ⟨20, _⟩ => ⟨S512x16x512, .f32⟩
  | .hbm, ⟨21, _⟩ => ⟨S512x16x512, .f32⟩
  | .hbm, ⟨22, _⟩ => ⟨S512x1x512, .f32⟩
  | .hbm, ⟨23, _⟩ => ⟨S512x16x512, .f32⟩
  | .hbm, ⟨24, _⟩ => ⟨S512x16x512, .f32⟩
  | .hbm, ⟨25, _⟩ => ⟨S512x1x512, .f32⟩
  | .hbm, ⟨26, _⟩ => ⟨S512x16x512, .f32⟩
  | .hbm, ⟨27, _⟩ => ⟨S512x16x512, .f32⟩
  | .hbm, ⟨28, _⟩ => ⟨S8192x512, .f32⟩
  | .hbm, ⟨29, _⟩ => ⟨S8192x512, .f32⟩
  | .hbm, ⟨30, _⟩ => ⟨S128x2048, .i32⟩
  | .hbm, ⟨31, _⟩ => ⟨S_, .i32⟩
  | .hbm, ⟨32, _⟩ => ⟨S_, .i32⟩
  | .hbm, ⟨33, _⟩ => ⟨S128x2048, .i32⟩
  | .hbm, ⟨34, _⟩ => ⟨S128x2048, .i32⟩
  | .hbm, ⟨35, _⟩ => ⟨S128x2048, .i32⟩
  | .hbm, ⟨36, _⟩ => ⟨S_, .i32⟩
  | .hbm, ⟨37, _⟩ => ⟨S128x2048, .i32⟩
  | .hbm, ⟨38, _⟩ => ⟨S128x2048, .i1⟩
  | .hbm, ⟨39, _⟩ => ⟨S128x2048, .i32⟩
  | .hbm, ⟨40, _⟩ => ⟨S128x2048, .i32⟩
  | .hbm, ⟨41, _⟩ => ⟨S_, .i32⟩
  | .hbm, ⟨42, _⟩ => ⟨S128x2048, .i32⟩
  | .hbm, ⟨43, _⟩ => ⟨S128x2048, .i1⟩
  | .hbm, ⟨44, _⟩ => ⟨S128x2048, .i1⟩
  | .hbm, ⟨45, _⟩ => ⟨S_, .i32⟩
  | .hbm, ⟨46, _⟩ => ⟨S128x2048, .i32⟩
  | .hbm, ⟨47, _⟩ => ⟨S128x2048, .i32⟩
  | .hbm, ⟨48, _⟩ => ⟨S128x2048, .i32⟩
  | .hbm, ⟨49, _⟩ => ⟨S128x2048, .i32⟩
  | .hbm, ⟨50, _⟩ => ⟨S128x2048, .i1⟩
  | .hbm, ⟨51, _⟩ => ⟨S128x2048, .bf16⟩
  | .hbm, ⟨52, _⟩ => ⟨S10x8192, .f32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S1, .i32⟩
  | .hbm, ⟨58, _⟩ => ⟨S8191, .i32⟩
  | .hbm, ⟨59, _⟩ => ⟨S8192, .i32⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S8192, .i32⟩
  | .hbm, ⟨64, _⟩ => ⟨S_, .i32⟩
  | .hbm, ⟨65, _⟩ => ⟨S_, .i32⟩
  | .hbm, ⟨66, _⟩ => ⟨S8192, .i32⟩
  | .hbm, ⟨67, _⟩ => ⟨S_, .i32⟩
  | .hbm, ⟨68, _⟩ => ⟨S262144, .i32⟩
  | .hbm, ⟨69, _⟩ => ⟨S_, .i32⟩
  | .hbm, ⟨70, _⟩ => ⟨S8192, .i32⟩
  | .hbm, ⟨71, _⟩ => ⟨S8192, .i1⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S8192, .i32⟩
  | .hbm, ⟨76, _⟩ => ⟨S8192x1, .i32⟩
  | .hbm, ⟨77, _⟩ => ⟨S_, .i32⟩
  | .hbm, ⟨78, _⟩ => ⟨S8192, .i32⟩
  | .hbm, ⟨79, _⟩ => ⟨S262144, .i32⟩
  | .hbm, ⟨80, _⟩ => ⟨S_, .i32⟩
  | .hbm, ⟨81, _⟩ => ⟨S_, .i32⟩
  | .hbm, ⟨82, _⟩ => ⟨S262144, .i32⟩
  | .hbm, ⟨83, _⟩ => ⟨S_, .i32⟩
  | .hbm, ⟨84, _⟩ => ⟨S262144, .i32⟩
  | .hbm, ⟨85, _⟩ => ⟨S262144, .i32⟩
  | .hbm, ⟨86, _⟩ => ⟨S_, .i32⟩
  | .hbm, ⟨87, _⟩ => ⟨S262144, .i32⟩
  | .hbm, ⟨88, _⟩ => ⟨S262144, .i1⟩
  | .hbm, ⟨89, _⟩ => ⟨S_, .i32⟩
  | .hbm, ⟨90, _⟩ => ⟨S262144, .i32⟩
  | .hbm, ⟨91, _⟩ => ⟨S262144, .i32⟩
  | .hbm, ⟨92, _⟩ => ⟨S262144, .i32⟩
  | .hbm, ⟨93, _⟩ => ⟨S262144x1, .i32⟩
  | .hbm, ⟨94, _⟩ => ⟨S1, .i32⟩
  | .hbm, ⟨95, _⟩ => ⟨S_, .i32⟩
  | .hbm, ⟨96, _⟩ => ⟨S262144x1, .i32⟩
  | .hbm, ⟨97, _⟩ => ⟨S262144x1, .i1⟩
  | .hbm, ⟨98, _⟩ => ⟨S1x1, .i32⟩
  | .hbm, ⟨99, _⟩ => ⟨S262144x1, .i32⟩
  | .hbm, ⟨100, _⟩ => ⟨S262144x1, .i1⟩
  | .hbm, ⟨101, _⟩ => ⟨S262144x1, .i1⟩
  | .hbm, ⟨102, _⟩ => ⟨S_, .i1⟩
  | .hbm, ⟨103, _⟩ => ⟨S262144, .i1⟩
  | .hbm, ⟨104, _⟩ => ⟨S262144, .i32⟩
  | .hbm, ⟨105, _⟩ => ⟨S_, .i32⟩
  | .hbm, ⟨106, _⟩ => ⟨S262144, .i32⟩
  | .hbm, ⟨107, _⟩ => ⟨S262144, .i32⟩
  | .hbm, ⟨108, _⟩ => ⟨S262144x1, .f32⟩
  | .hbm, ⟨109, _⟩ => ⟨S_, .i32⟩
  | .hbm, ⟨110, _⟩ => ⟨S262144, .i32⟩
  | .hbm, ⟨111, _⟩ => ⟨S262144, .i1⟩
  | .hbm, ⟨112, _⟩ => ⟨S_, .i32⟩
  | .hbm, ⟨113, _⟩ => ⟨S262144, .i32⟩
  | .hbm, ⟨114, _⟩ => ⟨S262144, .i32⟩
  | .hbm, ⟨115, _⟩ => ⟨S262144, .i32⟩
  | .hbm, ⟨116, _⟩ => ⟨S262144x1, .i32⟩
  | .hbm, ⟨117, _⟩ => ⟨S10x262144, .f32⟩
  | .hbm, ⟨118, _⟩ => ⟨S262144x10, .f32⟩
  | .hbm, ⟨119, _⟩ => ⟨S262144x10, .f32⟩
  | .hbm, ⟨120, _⟩ => ⟨S262144x10, .f32⟩
  | .hbm, ⟨121, _⟩ => ⟨S_, .f32⟩
  | .hbm, ⟨122, _⟩ => ⟨S8192x10, .f32⟩
  | .hbm, ⟨123, _⟩ => ⟨S262144x1, .i32⟩
  | .hbm, ⟨124, _⟩ => ⟨S8192x10, .f32⟩
  | .hbm, ⟨125, _⟩ => ⟨S10x8192, .f32⟩
  | .hbm, ⟨126, _⟩ => ⟨S10x8192, .f32⟩
  | .hbm, ⟨127, _⟩ => ⟨S1x10x8192, .f32⟩
  | .local _ .vmem, ⟨0, _⟩ => ⟨S10x2048, .f32⟩
  | .local _ .vmem, ⟨1, _⟩ => ⟨S10x2048, .f32⟩
  | .local _ .vmem, ⟨2, _⟩ => ⟨S128x2048, .i32⟩
  | .local _ .vmem, ⟨3, _⟩ => ⟨S128x2048, .i32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x2048, .bf16⟩
  | .local _ .vmem, ⟨9, _⟩ => ⟨S10x128, .f32⟩
  | .local _ .vmem, ⟨10, _⟩ => ⟨S10x128, .f32⟩
  | .local _ .vmem, ⟨11, _⟩ => ⟨S10x128, .f32⟩
  | _, _ => ⟨S1x10x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_call1_v0 : Ref sig .tc := ⟨.hbm, 54, rfl⟩
abbrev main_call1_v1 : Ref sig .tc := ⟨.hbm, 55, rfl⟩
abbrev main_v26 : Ref sig .tc := ⟨.hbm, 56, rfl⟩
abbrev main_call2_v0 : Ref sig .tc := ⟨.hbm, 57, rfl⟩
abbrev main_call2_v1 : Ref sig .tc := ⟨.hbm, 58, rfl⟩
abbrev main_v27 : Ref sig .tc := ⟨.hbm, 59, rfl⟩
abbrev main_c_0 : Ref sig .tc := ⟨.hbm, 60, rfl⟩
abbrev main_v28 : Ref sig .tc := ⟨.hbm, 61, rfl⟩
abbrev main_c_1 : Ref sig .tc := ⟨.hbm, 62, rfl⟩
abbrev main_v29 : Ref sig .tc := ⟨.hbm, 63, rfl⟩
abbrev main_call3_call0_c : Ref sig .tc := ⟨.hbm, 64, rfl⟩
abbrev main_call3_call0_v0 : Ref sig .tc := ⟨.hbm, 65, rfl⟩
abbrev main_v30 : Ref sig .tc := ⟨.hbm, 66, rfl⟩
abbrev main_c_2 : Ref sig .tc := ⟨.hbm, 67, rfl⟩
abbrev main_v31 : Ref sig .tc := ⟨.hbm, 68, rfl⟩
abbrev main_c_3 : Ref sig .tc := ⟨.hbm, 69, rfl⟩
abbrev main_v32 : Ref sig .tc := ⟨.hbm, 70, rfl⟩
abbrev main_v33 : Ref sig .tc := ⟨.hbm, 71, rfl⟩
abbrev main_c_4 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_5 : Ref sig .tc := ⟨.hbm, 77, rfl⟩
abbrev main_v38 : Ref sig .tc := ⟨.hbm, 78, rfl⟩
abbrev main_v39 : Ref sig .tc := ⟨.hbm, 79, rfl⟩
abbrev main_call4_call0_c : Ref sig .tc := ⟨.hbm, 80, rfl⟩
abbrev main_call4_call0_v0 : Ref sig .tc := ⟨.hbm, 81, rfl⟩
abbrev main_v40 : Ref sig .tc := ⟨.hbm, 82, rfl⟩
abbrev main_c_6 : Ref sig .tc := ⟨.hbm, 83, rfl⟩
abbrev main_v41 : Ref sig .tc := ⟨.hbm, 84, rfl⟩
abbrev main_v42 : Ref sig .tc := ⟨.hbm, 85, rfl⟩
abbrev main_call5_c : Ref sig .tc := ⟨.hbm, 86, rfl⟩
abbrev main_call5_v0 : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_c_1 : Ref sig .tc := ⟨.hbm, 94, rfl⟩
abbrev main_call5_c_2 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_c_3 : Ref sig .tc := ⟨.hbm, 102, rfl⟩
abbrev main_call5_v12 : Ref sig .tc := ⟨.hbm, 103, rfl⟩
abbrev main_call5_v13 : Ref sig .tc := ⟨.hbm, 104, rfl⟩
abbrev main_call5_c_4 : Ref sig .tc := ⟨.hbm, 105, rfl⟩
abbrev main_call5_v14 : Ref sig .tc := ⟨.hbm, 106, rfl⟩
abbrev main_v43 : Ref sig .tc := ⟨.hbm, 107, rfl⟩
abbrev main_v44 : Ref sig .tc := ⟨.hbm, 108, rfl⟩
abbrev main_c_7 : Ref sig .tc := ⟨.hbm, 109, rfl⟩
abbrev main_v45 : Ref sig .tc := ⟨.hbm, 110, rfl⟩
abbrev main_v46 : Ref sig .tc := ⟨.hbm, 111, rfl⟩
abbrev main_c_8 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_cst : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S10x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S10x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1x10x8192_S10x8192 : S1x10x8192.ShapeCasts S10x8192
  shapeCasts_S8192x512_S512x16x512 : S8192x512.ShapeCasts S512x16x512
  bcast_S512x512_S512x1x512_0_2 : S512x512.BroadcastsInDim S512x1x512 (![0, 2] : Fin 2 → Fin S512x1x512.rank)
  bcast_S512x1x512_S512x16x512_0_1_2 : S512x1x512.BroadcastsInDim S512x16x512 (![0, 1, 2] : Fin 3 → Fin S512x16x512.rank)
  shapeCasts_S512x16x512_S8192x512 : S512x16x512.ShapeCasts S8192x512
  bcast_S_S128x2048 : S_.BroadcastsInDim S128x2048 (![] : Fin 0 → Fin S128x2048.rank)
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S10x2048_S10x2048_0_0 : ∀ a, (![0, 0] : Fin 2 → Nat) a + S10x2048.size a ≤ S10x2048.size a
  h_S10x2048 : 0 < S10x2048.numel
  shapeCasts_S10x2048_S10x2048 : S10x2048.ShapeCasts S10x2048
  slices_S8193_S8192_1 : S8193.Slices ![1] S8192
  slices_S8193_S8192_0 : S8193.Slices ![0] S8192
  slices_S8192_S1_8191 : S8192.Slices ![8191] S1
  slices_S8192_S8191_0 : S8192.Slices ![0] S8191
  concatenates_S1_S8191_S8192_d0 : Shape.Concatenates [S1, S8191] S8192 0
  bcast_S_S1 : S_.BroadcastsInDim S1 (![] : Fin 0 → Fin S1.rank)
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  bcast_S_S262144 : S_.BroadcastsInDim S262144 (![] : Fin 0 → Fin S262144.rank)
  bcast_S_S8192 : S_.BroadcastsInDim S8192 (![] : Fin 0 → Fin S8192.rank)
  bcast_S8192_S8192x1_0 : S8192.BroadcastsInDim S8192x1 (![0] : Fin 1 → Fin S8192x1.rank)
  reduceWindows_S262144_S262144_w262144s1p262143_0 : S262144.ReduceWindows (![262144] : Fin 1 → Nat) ![1] ![262143] ![0] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  transposes_S10x262144_S262144x10_1_0 : S10x262144.Transposes [1, 0] S262144x10
  bcast_S262144x1_S262144x10_0_1 : S262144x1.BroadcastsInDim S262144x10 (![0, 1] : Fin 2 → Fin S262144x10.rank)
  bcast_S_S8192x10 : S_.BroadcastsInDim S8192x10 (![] : Fin 0 → Fin S8192x10.rank)
  transposes_S8192x10_S10x8192_1_0 : S8192x10.Transposes [1, 0] S10x8192
  shapeCasts_S10x8192_S1x10x8192 : S10x8192.ShapeCasts S1x10x8192
  dot_S128x128_S128x2048_S128x2048_1_0_0_1_n_n_wf : DotDims.WF S128x128 S128x2048 S128x2048 [1] [0] [0] [1] [] []
  dot_S10x2048_S128x2048_S10x128_1_1_0_0_n_n_wf : DotDims.WF S10x2048 S128x2048 S10x128 [1] [1] [0] [0] [] []
  scatter_S8192_S1_S__n_0_0_0_wf : ScatterDims.WF S8192 S1 S_ [] [0] [0] 0
  scatter_S262144_S8192x1_S8192_n_0_0_1_wf : ScatterDims.WF S262144 S8192x1 S8192 [] [0] [0] 1
  gather_S8192_S262144x1_S262144_n_0_n_n_0_1_1_wf : GatherDims.WF S8192 S262144x1 S262144 [] [0] [] [0] [] 1 ![1]
  gather_S10x8192_S262144x1_S10x262144_0_1_n_n_1_1_101_wf : GatherDims.WF S10x8192 S262144x1 S10x262144 [0] [1] [] [1] [] 1 ![10, 1]
  scatter_S8192x10_S262144x1_S262144x10_1_0_0_1_wf : ScatterDims.WF S8192x10 S262144x1 S262144x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x2048.size a ≤ S10x8192.size a
  hwx0_0 : ∀ i : grid0.Coords, EltTy.bits .f32 = 32 ∨ (Rect.block (s := S10x8192) S10x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x8192.size a
  hwx0_1 : ∀ i : grid0.Coords, EltTy.bits .i32 = 32 ∨ (Rect.block (s := S8192x8192) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x512.size a
  hwx0_2 : ∀ i : grid0.Coords, EltTy.bits .f32 = 32 ∨ (Rect.block (s := S8192x512) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S8192x512.size a
  hwx0_3 : ∀ i : grid0.Coords, EltTy.bits .f32 = 32 ∨ (Rect.block (s := S8192x512) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S128x2048.size a
  hwx0_4 : ∀ i : grid0.Coords, EltTy.bits .bf16 = 32 ∨ (Rect.block (s := S128x2048) S128x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10x128.size a ≤ S10x8192.size a
  hwx0_5 : ∀ i : grid0.Coords, EltTy.bits .f32 = 32 ∨ (Rect.block (s := S10x8192) S10x128.size (cc0_transform_5 i) (hinb0_5 i)).WholeWords (EltTy.packing .f32)

variable [Facts₀]

def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf
def dot_S10x2048_S128x2048_S10x128_1_1_0_0_n_n : DotDims S10x2048 S128x2048 S10x128 where
  lhsContracting := [1]
  rhsContracting := [1]
  lhsNonContracting := [0]
  rhsNonContracting := [0]
  lhsBatch := []
  rhsBatch := []
  wf := dot_S10x2048_S128x2048_S10x128_1_1_0_0_n_n_wf
def scatter_S8192_S1_S__n_0_0_0 : ScatterDims S8192 S1 S_ where
  updateWindowDims := []
  insertedWindowDims := [0]
  scatterDimsToOperandDims := [0]
  indexVectorDim := 0
  wf := scatter_S8192_S1_S__n_0_0_0_wf
def scatter_S262144_S8192x1_S8192_n_0_0_1 : ScatterDims S262144 S8192x1 S8192 where
  updateWindowDims := []
  insertedWindowDims := [0]
  scatterDimsToOperandDims := [0]
  indexVectorDim := 1
  wf := scatter_S262144_S8192x1_S8192_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def gather_S10x8192_S262144x1_S10x262144_0_1_n_n_1_1_101 : GatherDims S10x8192 S262144x1 S10x262144 where
  offsetDims := [0]
  collapsedSliceDims := [1]
  operandBatchingDims := []
  startIndicesBatchingDims := []
  startIndexMap := [1]
  indexVectorDim := 1
  sliceSizes := ![10, 1]
  wf := gather_S10x8192_S262144x1_S10x262144_0_1_n_n_1_1_101_wf
def scatter_S8192x10_S262144x1_S262144x10_1_0_0_1 : ScatterDims S8192x10 S262144x1 S262144x10 where
  updateWindowDims := [1]
  insertedWindowDims := [0]
  scatterDimsToOperandDims := [0]
  indexVectorDim := 1
  wf := scatter_S8192x10_S262144x1_S262144x10_1_0_0_1_wf

abbrev win0_0 : Pipeline.Window sig grid0 :=
  Pipeline.Window.ofSpec (Memref.whole main_v0) S10x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x10x8192 : Shape := ⟨3, ![1, 10, 8192]⟩
abbrev S8192x8192 : Shape := ⟨2, ![8192, 8192]⟩
abbrev S8192x512 : Shape := ⟨2, ![8192, 512]⟩
abbrev S512x512 : Shape := ⟨2, ![512, 512]⟩
abbrev S8193 : Shape := ⟨1, ![8193]⟩
abbrev S262144 : Shape := ⟨1, ![262144]⟩
abbrev S512x16x512 : Shape := ⟨3, ![512, 16, 512]⟩
abbrev S512x1x512 : Shape := ⟨3, ![512, 1, 512]⟩
abbrev S8192x512x16 : Shape := ⟨3, ![8192, 512, 16]⟩
abbrev S8192x512x1 : Shape := ⟨3, ![8192, 512, 1]⟩
abbrev S10x8192 : Shape := ⟨2, ![10, 8192]⟩
abbrev S8192 : Shape := ⟨1, ![8192]⟩
abbrev S1 : Shape := ⟨1, ![1]⟩
abbrev S8191 : Shape := ⟨1, ![8191]⟩
abbrev S_ : Shape := ⟨0, ![]⟩
abbrev S8192x1 : Shape := ⟨2, ![8192, 1]⟩
abbrev S262144x1 : Shape := ⟨2, ![262144, 1]⟩
abbrev S1x1 : Shape := ⟨2, ![1, 1]⟩
abbrev S10x262144 : Shape := ⟨2, ![10, 262144]⟩
abbrev S262144x10 : Shape := ⟨2, ![262144, 10]⟩
abbrev S8192x10 : Shape := ⟨2, ![8192, 10]⟩

abbrev nBuf : Space → Nat
  | .hbm => 115
  | .vmem => 0
  | .smem => 0
  | _ => 0

abbrev bufTy : (tb : Table) → Fin (tcTables nBuf tb) → BufTy
  | .hbm, ⟨0, _⟩ => ⟨S1x10x8192, .f32⟩
  | .hbm, ⟨1, _⟩ => ⟨S8192x8192, .i32⟩
  | .hbm, ⟨2, _⟩ => ⟨S8192x512, .i32⟩
  | .hbm, ⟨3, _⟩ => ⟨S8192x512, .i32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S8193, .i32⟩
  | .hbm, ⟨9, _⟩ => ⟨S262144, .i32⟩
  | .hbm, ⟨10, _⟩ => ⟨S262144, .f32⟩
  | .hbm, ⟨11, _⟩ => ⟨S8192x512, .f32⟩
  | .hbm, ⟨12, _⟩ => ⟨S512x16x512, .f32⟩
  | .hbm, ⟨13, _⟩ => ⟨S512x1x512, .f32⟩
  | .hbm, ⟨14, _⟩ => ⟨S512x16x512, .f32⟩
  | .hbm, ⟨15, _⟩ => ⟨S512x16x512, .f32⟩
  | .hbm, ⟨16, _⟩ => ⟨S512x1x512, .f32⟩
  | .hbm, ⟨17, _⟩ => ⟨S512x16x512, .f32⟩
  | .hbm, ⟨18, _⟩ => ⟨S512x16x512, .f32⟩
  | .hbm, ⟨19, _⟩ => ⟨S8192x512, .f32⟩
  | .hbm, ⟨20, _⟩ => ⟨S512x16x512, .f32⟩
  | .hbm, ⟨21, _⟩ => ⟨S512x1x512, .f32⟩
  | .hbm, ⟨22, _⟩ => ⟨S512x16x512, .f32⟩
  | .hbm, ⟨23, _⟩ => ⟨S512x16x512, .f32⟩
  | .hbm, ⟨24, _⟩ => ⟨S512x1x512, .f32⟩
  | .hbm, ⟨25, _⟩ => ⟨S512x16x512, .f32⟩
  | .hbm, ⟨26, _⟩ => ⟨S512x16x512, .f32⟩
  | .hbm, ⟨27, _⟩ => ⟨S8192x512, .f32⟩
  | .hbm, ⟨28, _⟩ => ⟨S8192x512, .f32⟩
  | .hbm, ⟨29, _⟩ => ⟨S8192x8192, .f32⟩
  | .hbm, ⟨30, _⟩ => ⟨S8192x512x16, .f32⟩
  | .hbm, ⟨31, _⟩ => ⟨S8192x512x1, .f32⟩
  | .hbm, ⟨32, _⟩ => ⟨S8192x512x16, .f32⟩
  | .hbm, ⟨33, _⟩ => ⟨S8192x512x16, .f32⟩
  | .hbm, ⟨34, _⟩ => ⟨S8192x512x1, .f32⟩
  | .hbm, ⟨35, _⟩ => ⟨S8192x512x16, .f32⟩
  | .hbm, ⟨36, _⟩ => ⟨S8192x512x16, .f32⟩
  | .hbm, ⟨37, _⟩ => ⟨S8192x8192, .f32⟩
  | .hbm, ⟨38, _⟩ => ⟨S10x8192, .f32⟩
  | .hbm, ⟨39, _⟩ => ⟨S10x8192, .f32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S1, .i32⟩
  | .hbm, ⟨45, _⟩ => ⟨S8191, .i32⟩
  | .hbm, ⟨46, _⟩ => ⟨S8192, .i32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S8192, .i32⟩
  | .hbm, ⟨51, _⟩ => ⟨S_, .i32⟩
  | .hbm, ⟨52, _⟩ => ⟨S_, .i32⟩
  | .hbm, ⟨53, _⟩ => ⟨S8192, .i32⟩
  | .hbm, ⟨54, _⟩ => ⟨S_, .i32⟩
  | .hbm, ⟨55, _⟩ => ⟨S262144, .i32⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .i32⟩
  | .hbm, ⟨63, _⟩ => ⟨S8192x1, .i32⟩
  | .hbm, ⟨64, _⟩ => ⟨S_, .i32⟩
  | .hbm, ⟨65, _⟩ => ⟨S8192, .i32⟩
  | .hbm, ⟨66, _⟩ => ⟨S262144, .i32⟩
  | .hbm, ⟨67, _⟩ => ⟨S_, .i32⟩
  | .hbm, ⟨68, _⟩ => ⟨S_, .i32⟩
  | .hbm, ⟨69, _⟩ => ⟨S262144, .i32⟩
  | .hbm, ⟨70, _⟩ => ⟨S_, .i32⟩
  | .hbm, ⟨71, _⟩ => ⟨S262144, .i32⟩
  | .hbm, ⟨72, _⟩ => ⟨S262144, .i32⟩
  | .hbm, ⟨73, _⟩ => ⟨S_, .i32⟩
  | .hbm, ⟨74, _⟩ => ⟨S262144, .i32⟩
  | .hbm, ⟨75, _⟩ => ⟨S262144, .i1⟩
  | .hbm, ⟨76, _⟩ => ⟨S_, .i32⟩
  | .hbm, ⟨77, _⟩ => ⟨S262144, .i32⟩
  | .hbm, ⟨78, _⟩ => ⟨S262144, .i32⟩
  | .hbm, ⟨79, _⟩ => ⟨S262144, .i32⟩
  | .hbm, ⟨80, _⟩ => ⟨S262144x1, .i32⟩
  | .hbm, ⟨81, _⟩ => ⟨S1, .i32⟩
  | .hbm, ⟨82, _⟩ => ⟨S_, .i32⟩
  | .hbm, ⟨83, _⟩ => ⟨S262144x1, .i32⟩
  | .hbm, ⟨84, _⟩ => ⟨S262144x1, .i1⟩
  | .hbm, ⟨85, _⟩ => ⟨S1x1, .i32⟩
  | .hbm, ⟨86, _⟩ => ⟨S262144x1, .i32⟩
  | .hbm, ⟨87, _⟩ => ⟨S262144x1, .i1⟩
  | .hbm, ⟨88, _⟩ => ⟨S262144x1, .i1⟩
  | .hbm, ⟨89, _⟩ => ⟨S_, .i1⟩
  | .hbm, ⟨90, _⟩ => ⟨S262144, .i1⟩
  | .hbm, ⟨91, _⟩ => ⟨S262144, .i32⟩
  | .hbm, ⟨92, _⟩ => ⟨S_, .i32⟩
  | .hbm, ⟨93, _⟩ => ⟨S262144, .i32⟩
  | .hbm, ⟨94, _⟩ => ⟨S262144, .i32⟩
  | .hbm, ⟨95, _⟩ => ⟨S262144x1, .f32⟩
  | .hbm, ⟨96, _⟩ => ⟨S_, .i32⟩
  | .hbm, ⟨97, _⟩ => ⟨S262144, .i32⟩
  | .hbm, ⟨98, _⟩ => ⟨S262144, .i1⟩
  | .hbm, ⟨99, _⟩ => ⟨S_, .i32⟩
  | .hbm, ⟨100, _⟩ => ⟨S262144, .i32⟩
  | .hbm, ⟨101, _⟩ => ⟨S262144, .i32⟩
  | .hbm, ⟨102, _⟩ => ⟨S262144, .i32⟩
  | .hbm, ⟨103, _⟩ => ⟨S262144x1, .i32⟩
  | .hbm, ⟨104, _⟩ => ⟨S10x262144, .f32⟩
  | .hbm, ⟨105, _⟩ => ⟨S262144x10, .f32⟩
  | .hbm, ⟨106, _⟩ => ⟨S262144x10, .f32⟩
  | .hbm, ⟨107, _⟩ => ⟨S262144x10, .f32⟩
  | .hbm, ⟨108, _⟩ => ⟨S_, .f32⟩
  | .hbm, ⟨109, _⟩ => ⟨S8192x10, .f32⟩
  | .hbm, ⟨110, _⟩ => ⟨S262144x1, .i32⟩
  | .hbm, ⟨111, _⟩ => ⟨S8192x10, .f32⟩
  | .hbm, ⟨112, _⟩ => ⟨S10x8192, .f32⟩
  | .hbm, ⟨113, _⟩ => ⟨S10x8192, .f32⟩
  | .hbm, ⟨114, _⟩ => ⟨S1x10x8192, .f32⟩
  | _, _ => ⟨S1x10x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_v30 : Ref sig .tc := ⟨.hbm, 43, rfl⟩
abbrev main_call1_v0 : Ref sig .tc := ⟨.hbm, 44, rfl⟩
abbrev main_call1_v1 : Ref sig .tc := ⟨.hbm, 45, rfl⟩
abbrev main_v31 : Ref sig .tc := ⟨.hbm, 46, rfl⟩
abbrev main_c : Ref sig .tc := ⟨.hbm, 47, rfl⟩
abbrev main_v32 : Ref sig .tc := ⟨.hbm, 48, rfl⟩
abbrev main_c_0 : Ref sig .tc := ⟨.hbm, 49, rfl⟩
abbrev main_v33 : Ref sig .tc := ⟨.hbm, 50, rfl⟩
abbrev main_call2_call0_c : Ref sig .tc := ⟨.hbm, 51, rfl⟩
abbrev main_call2_call0_v0 : Ref sig .tc := ⟨.hbm, 52, rfl⟩
abbrev main_v34 : Ref sig .tc := ⟨.hbm, 53, rfl⟩
abbrev main_c_1 : Ref sig .tc := ⟨.hbm, 54, rfl⟩
abbrev main_v35 : Ref sig .tc := ⟨.hbm, 55, rfl⟩
abbrev main_c_2 : Ref sig .tc := ⟨.hbm, 56, rfl⟩
abbrev main_v36 : Ref sig .tc := ⟨.hbm, 57, rfl⟩
abbrev main_v37 : Ref sig .tc := ⟨.hbm, 58, rfl⟩
abbrev main_c_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_4 : Ref sig .tc := ⟨.hbm, 64, rfl⟩
abbrev main_v42 : Ref sig .tc := ⟨.hbm, 65, rfl⟩
abbrev main_v43 : Ref sig .tc := ⟨.hbm, 66, rfl⟩
abbrev main_call3_call0_c : Ref sig .tc := ⟨.hbm, 67, rfl⟩
abbrev main_call3_call0_v0 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_c_4 : Ref sig .tc := ⟨.hbm, 92, rfl⟩
abbrev main_call4_v14 : Ref sig .tc := ⟨.hbm, 93, rfl⟩
abbrev main_v47 : Ref sig .tc := ⟨.hbm, 94, rfl⟩
abbrev main_v48 : Ref sig .tc := ⟨.hbm, 95, rfl⟩
abbrev main_c_6 : Ref sig .tc := ⟨.hbm, 96, rfl⟩
abbrev main_v49 : Ref sig .tc := ⟨.hbm, 97, rfl⟩
abbrev main_v50 : Ref sig .tc := ⟨.hbm, 98, rfl⟩
abbrev main_c_7 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩

abbrev nD : Nat := 1
abbrev τ : Topo := Topo.v7x

variable {F : FTy → Type} [FloatOps F]

class Facts₀ : Prop where
  shapeCasts_S8192x512_S512x16x512 : S8192x512.ShapeCasts S512x16x512
  bcast_S512x512_S512x1x512_0_2 : S512x512.BroadcastsInDim S512x1x512 (![0, 2] : Fin 2 → Fin S512x1x512.rank)
  bcast_S512x1x512_S512x16x512_0_1_2 : S512x1x512.BroadcastsInDim S512x16x512 (![0, 1, 2] : Fin 3 → Fin S512x16x512.rank)
  shapeCasts_S512x16x512_S8192x512 : S512x16x512.ShapeCasts S8192x512
  shapeCasts_S8192x8192_S8192x512x16 : S8192x8192.ShapeCasts S8192x512x16
  bcast_S8192x512_S8192x512x1_0_1 : S8192x512.BroadcastsInDim S8192x512x1 (![0, 1] : Fin 2 → Fin S8192x512x1.rank)
  bcast_S8192x512x1_S8192x512x16_0_1_2 : S8192x512x1.BroadcastsInDim S8192x512x16 (![0, 1, 2] : Fin 3 → Fin S8192x512x16.rank)
  shapeCasts_S8192x512x16_S8192x8192 : S8192x512x16.ShapeCasts S8192x8192
  shapeCasts_S1x10x8192_S10x8192 : S1x10x8192.ShapeCasts S10x8192
  slices_S8193_S8192_1 : S8193.Slices ![1] S8192
  slices_S8193_S8192_0 : S8193.Slices ![0] S8192
  slices_S8192_S1_8191 : S8192.Slices ![8191] S1
  slices_S8192_S8191_0 : S8192.Slices ![0] S8191
  concatenates_S1_S8191_S8192_d0 : Shape.Concatenates [S1, S8191] S8192 0
  bcast_S_S1 : S_.BroadcastsInDim S1 (![] : Fin 0 → Fin S1.rank)
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  bcast_S_S262144 : S_.BroadcastsInDim S262144 (![] : Fin 0 → Fin S262144.rank)
  bcast_S_S8192 : S_.BroadcastsInDim S8192 (![] : Fin 0 → Fin S8192.rank)
  bcast_S8192_S8192x1_0 : S8192.BroadcastsInDim S8192x1 (![0] : Fin 1 → Fin S8192x1.rank)
  reduceWindows_S262144_S262144_w262144s1p262143_0 : S262144.ReduceWindows (![262144] : Fin 1 → Nat) ![1] ![262143] ![0] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  transposes_S10x262144_S262144x10_1_0 : S10x262144.Transposes [1, 0] S262144x10
  bcast_S262144x1_S262144x10_0_1 : S262144x1.BroadcastsInDim S262144x10 (![0, 1] : Fin 2 → Fin S262144x10.rank)
  bcast_S_S8192x10 : S_.BroadcastsInDim S8192x10 (![] : Fin 0 → Fin S8192x10.rank)
  transposes_S8192x10_S10x8192_1_0 : S8192x10.Transposes [1, 0] S10x8192
  shapeCasts_S10x8192_S1x10x8192 : S10x8192.ShapeCasts S1x10x8192
  dot_S10x8192_S8192x8192_S10x8192_1_1_0_0_n_n_wf : DotDims.WF S10x8192 S8192x8192 S10x8192 [1] [1] [0] [0] [] []
  scatter_S8192_S1_S__n_0_0_0_wf : ScatterDims.WF S8192 S1 S_ [] [0] [0] 0
  scatter_S262144_S8192x1_S8192_n_0_0_1_wf : ScatterDims.WF S262144 S8192x1 S8192 [] [0] [0] 1
  gather_S8192_S262144x1_S262144_n_0_n_n_0_1_1_wf : GatherDims.WF S8192 S262144x1 S262144 [] [0] [] [0] [] 1 ![1]
  gather_S10x8192_S262144x1_S10x262144_0_1_n_n_1_1_101_wf : GatherDims.WF S10x8192 S262144x1 S10x262144 [0] [1] [] [1] [] 1 ![10, 1]
  scatter_S8192x10_S262144x1_S262144x10_1_0_0_1_wf : ScatterDims.WF S8192x10 S262144x1 S262144x10 [1] [0] [0] 1

variable [Facts₀]

def dot_S10x8192_S8192x8192_S10x8192_1_1_0_0_n_n : DotDims S10x8192 S8192x8192 S10x8192 where
  lhsContracting := [1]
  rhsContracting := [1]
  lhsNonContracting := [0]
  rhsNonContracting := [0]
  lhsBatch := []
  rhsBatch := []
  wf := dot_S10x8192_S8192x8192_S10x8192_1_1_0_0_n_n_wf
def scatter_S8192_S1_S__n_0_0_0 : ScatterDims S8192 S1 S_ where
  updateWindowDims := []
  insertedWindowDims := [0]
  scatterDimsToOperandDims := [0]
  indexVectorDim := 0
  wf := scatter_S8192_S1_S__n_0_0_0_wf
def scatter_S262144_S8192x1_S8192_n_0_0_1 : ScatterDims S262144 S8192x1 S8192 where
  updateWindowDims := []
  insertedWindowDims := [0]
  scatterDimsToOperandDims := [0]
  indexVectorDim := 1
  wf := scatter_S262144_S8192x1_S8192_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def gather_S10x8192_S262144x1_S10x262144_0_1_n_n_1_1_101 : GatherDims S10x8192 S262144x1 S10x262144 where
  offsetDims := [0]
  collapsedSliceDims := [1]
  operandBatchingDims := []
  startIndicesBatchingDims := []
  startIndexMap := [1]
  indexVectorDim := 1
  sliceSizes := ![10, 1]
  wf := gather_S10x8192_S262144x1_S10x262144_0_1_n_n_1_1_101_wf
def scatter_S8192x10_S262144x1_S262144x10_1_0_0_1 : ScatterDims S8192x10 S262144x1 S262144x10 where
  updateWindowDims := [1]
  insertedWindowDims := [0]
  scatterDimsToOperandDims := [0]
  indexVectorDim := 1
  wf := scatter_S8192x10_S262144x1_S262144x10_1_0_0_1_wf

class Facts : Prop extends Facts₀ where

variable [Facts]
-- ==== Proof.DenseLaunchBits.lean ====
/-
  The host program around the one pallas call of the sparse-quantized matmul: forty-one host operations (the two-level
  dequantisation of the scales and zeros, and the one-hot expansion matrix E[g, n] = 1 iff n / 16 = g), the call, then
  seventy-five host operations (the CSR outlier correction and the final sum).

  Stated here: the contents of every buffer when the call is entered (the fold of the operations before it over the
  launch contents); that the program is those operations, the call, and the operations after it; that the operations
  after the call write neither an argument nor an array the call's windows stage (each operation writes its own result
  buffer, and those are numbered after the call's result); each window's block at a grid point; at which grid points
  the accumulator is reset (reduction step 0) and the output block stored (reduction step 3), decided over the 64 x 4
  grid; and how the frame claim (the eleven arguments end as launched) is read off a run that ends with the windows'
  arrays at what the pipeline leaves and every other buffer as the operations after the call leave it.
-/
import proofs.«410663_j33251636806448_3_alg».proof.Proof.Gen.Kernel.Launch
import proofs.«410663_j33251636806448_3_alg».proof.Proof.Gen.Kernel.Skeleton
import proofs.«410663_j33251636806448_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Dense

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the call -/

/-- Core `c`'s buffer contents when the call is entered: the operations before it, folded over the launch contents. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor

set_option maxHeartbeats 8000000 in
/-- The program is the operations before the call, the call, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9]) :=
  Pipeline.hmain_around cfgs 0 defs₀ 𝒱₀ m main [hostOps0, hostOps0_1, hostOps0_2] [hostOps1, hostOps1_1, hostOps1_2, hostOps1_3, hostOps1_4, hostOps1_5, hostOps1_6, hostOps1_7, hostOps1_8, hostOps1_9]
    ⟨hostOps0_sub, hostOps0_1_sub, hostOps0_2_sub⟩ ⟨hostOps0_fresh, hostOps0_1_fresh, hostOps0_2_fresh⟩ (fun c => main_chain c)

/-- A line whose operations write only buffers numbered from `lo` on leaves a lower-numbered buffer as it was. -/
theorem after_low_kept {lo : ℕ} {r : Ref sig .tc} (ops : List (HloOp τ sig (Elt F))) (W : Valuation τ sig (Elt F))
    (hW : ops.Forall fun op => ∀ b : Ref sig .tc, Proc.devRef (τ := τ) .tc b ∈ op.writes → lo ≤ b.idx.val)
    (hr : r.idx.val < lo) : StableHlo.after ops W (Proc.devRef .tc r) = W (Proc.devRef .tc r) :=
  StableHlo.after_of_forall_not_mem ops W fun op hop hb =>
    absurd ((List.forall_iff_forall_mem.mp hW) op hop r hb) (Nat.not_le.mpr hr)

/-- Every operation before the call writes a buffer numbered 11 or more (the arguments are 0 to 10). -/
theorem pre_writes : (List.flatten [hostOps0, hostOps0_1, hostOps0_2] : List (HloOp τ sig (Elt F))).Forall
    fun op => ∀ b : Ref sig .tc, Proc.devRef (τ := τ) .tc b ∈ op.writes → 11 ≤ b.idx.val := by
  simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; rw [Proc.devRef_injective _ h]; decide)

/-- Every operation after the call writes a buffer numbered 53 or more (the call's result is 52). -/
theorem tail_writes : (List.flatten [hostOps1, hostOps1_1, hostOps1_2, hostOps1_3, hostOps1_4, hostOps1_5, hostOps1_6, hostOps1_7, hostOps1_8, hostOps1_9] : List (HloOp τ sig (Elt F))).Forall
    fun op => ∀ b : Ref sig .tc, Proc.devRef (τ := τ) .tc b ∈ op.writes → 53 ≤ b.idx.val := by
  simp only [hostOps1, hostOps1_1, hostOps1_2, hostOps1_3, hostOps1_4, hostOps1_5, hostOps1_6, hostOps1_7, hostOps1_8, hostOps1_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; rw [Proc.devRef_injective _ h]; decide)

/-- The arrays the call's windows stage are numbered below 53. -/
theorem arr_low : ∀ w : Fin 6, (Pipeline.arrRef spec0 w).idx.val < 53 := by decide

theorem tail_sub : ∀ ops ∈ ([hostOps1, hostOps1_1, hostOps1_2, hostOps1_3, hostOps1_4, hostOps1_5, hostOps1_6, hostOps1_7, hostOps1_8, hostOps1_9] : List (List (HloOp τ sig (Elt F)))), ops.Forall fun op => op.bufs ⊆ StableHlo.tcRefs τ sig := by
  intro ops hops
  simp only [List.mem_cons, List.mem_nil_iff, or_false] at hops
  rcases hops with rfl | rfl | rfl | rfl | rfl | rfl | rfl | rfl | rfl | rfl
  exacts [hostOps1_sub, hostOps1_1_sub, hostOps1_2_sub, hostOps1_3_sub, hostOps1_4_sub, hostOps1_5_sub, hostOps1_6_sub, hostOps1_7_sub, hostOps1_8_sub, hostOps1_9_sub]

theorem tail_fresh : ∀ ops ∈ ([hostOps1, hostOps1_1, hostOps1_2, hostOps1_3, hostOps1_4, hostOps1_5, hostOps1_6, hostOps1_7, hostOps1_8, hostOps1_9] : List (List (HloOp τ sig (Elt F)))), ops.Forall fun op => op.fresh = ∅ := by
  intro ops hops
  simp only [List.mem_cons, List.mem_nil_iff, or_false] at hops
  rcases hops with rfl | rfl | rfl | rfl | rfl | rfl | rfl | rfl | rfl | rfl
  exacts [hostOps1_fresh, hostOps1_1_fresh, hostOps1_2_fresh, hostOps1_3_fresh, hostOps1_4_fresh, hostOps1_5_fresh, hostOps1_6_fresh, hostOps1_7_fresh, hostOps1_8_fresh, hostOps1_9_fresh]

/-- The operations after the call touch the windows' arrays and the buffers that bypass the call only. -/
theorem sfx_sub : ∀ ops ∈ ([hostOps1, hostOps1_1, hostOps1_2, hostOps1_3, hostOps1_4, hostOps1_5, hostOps1_6, hostOps1_7, hostOps1_8, hostOps1_9] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)
/-- They allocate nothing. -/
theorem sfx_fresh : ∀ ops ∈ ([hostOps1, hostOps1_1, hostOps1_2, hostOps1_3, hostOps1_4, hostOps1_5, hostOps1_6, hostOps1_7, hostOps1_8, hostOps1_9] : List (List (HloOp τ sig (Elt F)))), ∀ op ∈ ops, op.fresh = ∅ :=
  fun ops hops op hop => (List.forall_iff_forall_mem.mp (tail_fresh ops hops)) op hop
/-- And write no array the windows stage. -/
theorem sfx_keeps : ∀ ops ∈ ([hostOps1, hostOps1_1, hostOps1_2, hostOps1_3, hostOps1_4, hostOps1_5, hostOps1_6, hostOps1_7, hostOps1_8, hostOps1_9] : List (List (HloOp τ sig (Elt F)))), ∀ op ∈ ops,
    ∀ w, Proc.devRef .tc (Pipeline.arrRef spec0 w) ∉ op.writes := by
  intro ops hops op hop w hw
  exact absurd ((List.forall_iff_forall_mem.mp tail_writes) op (List.mem_flatten.mpr ⟨ops, hops, hop⟩) _ hw)
    (Nat.not_le.mpr (arr_low w))

/-- A buffer numbered below 11 (an argument) is entered as launched. -/
theorem entry_low (c : Dev nD) (r : Ref sig .tc) (hr : r.idx.val < 11) : V m c r = m ((c : Thread nD τ).loc r) :=
  after_low_kept _ _ pre_writes hr

/-- A buffer numbered below 53 that is no window's array ends as it was entered. -/
theorem exit_kept (dats : (p : Fin 1) → (c : Dev nD) → Dat τ (Elt F) Unit ℕ (UR sig nD τ) ℕ (cfgs p) c) (c : Dev nD)
    (r : Ref sig .tc) (hr : r.idx.val < 53) (hne : ∀ w, Pipeline.arrRef spec0 w ≠ r) :
    Pipeline.afterTail₀ cfgs dats 0 (V0 m) [hostOps1, hostOps1_1, hostOps1_2, hostOps1_3, hostOps1_4, hostOps1_5, hostOps1_6, hostOps1_7, hostOps1_8, hostOps1_9] c r = V m c r := by
  unfold Pipeline.afterTail₀
  rw [after_low_kept _ _ tail_writes hr, Pipeline.withArrays_of_ne _ c (V0 m c) _ r hne]

/-- An argument that is no window's array ends as launched. -/
theorem exit_low (dats : (p : Fin 1) → (c : Dev nD) → Dat τ (Elt F) Unit ℕ (UR sig nD τ) ℕ (cfgs p) c) (c : Dev nD)
    (r : Ref sig .tc) (hr : r.idx.val < 11) (hne : ∀ w, Pipeline.arrRef spec0 w ≠ r) :
    Pipeline.afterTail₀ cfgs dats 0 (V0 m) [hostOps1, hostOps1_1, hostOps1_2, hostOps1_3, hostOps1_4, hostOps1_5, hostOps1_6, hostOps1_7, hostOps1_8, hostOps1_9] c r = m ((c : Thread nD τ).loc r) :=
  (exit_kept m dats c r (Nat.lt_trans hr (by decide)) hne).trans (entry_low m c r hr)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, whenever the proof
    data's array is the entry contents and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, whenever the proof
    data's array is the entry contents and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, whenever the proof
    data's array is the entry contents and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, whenever the proof
    data's array is the entry contents and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, whenever the proof
    data's array is the entry contents and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- For any proof data whose arrays are the entry contents: a run that ends with the windows' arrays at what the
    pipeline leaves and every other buffer as the operations after the call leave it ends with the eleven arguments
    as launched (the quantised weights, window 1's array, are never written back; the others bypass the call). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8, hostOps1_9]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_arg0 (Pipeline.mem_restRefs_of main_arg0 (by decide) (by decide))).trans (exit_low m dats c main_arg0 (by decide) (by decide)),
      ((h c).1 1).trans (((dats 0 c).arrAt_in 1 rfl _).trans ((hA c 1).trans (entry_low m c main_arg1 (by decide)))),
      ((h c).2 main_arg2 (Pipeline.mem_restRefs_of main_arg2 (by decide) (by decide))).trans (exit_low m dats c main_arg2 (by decide) (by decide)),
      ((h c).2 main_arg3 (Pipeline.mem_restRefs_of main_arg3 (by decide) (by decide))).trans (exit_low m dats c main_arg3 (by decide) (by decide)),
      ((h c).2 main_arg4 (Pipeline.mem_restRefs_of main_arg4 (by decide) (by decide))).trans (exit_low m dats c main_arg4 (by decide) (by decide)),
      ((h c).2 main_arg5 (Pipeline.mem_restRefs_of main_arg5 (by decide) (by decide))).trans (exit_low m dats c main_arg5 (by decide) (by decide)),
      ((h c).2 main_arg6 (Pipeline.mem_restRefs_of main_arg6 (by decide) (by decide))).trans (exit_low m dats c main_arg6 (by decide) (by decide)),
      ((h c).2 main_arg7 (Pipeline.mem_restRefs_of main_arg7 (by decide) (by decide))).trans (exit_low m dats c main_arg7 (by decide) (by decide)),
      ((h c).2 main_arg8 (Pipeline.mem_restRefs_of main_arg8 (by decide) (by decide))).trans (exit_low m dats c main_arg8 (by decide) (by decide)),
      ((h c).2 main_arg9 (Pipeline.mem_restRefs_of main_arg9 (by decide) (by decide))).trans (exit_low m dats c main_arg9 (by decide) (by decide)),
      ((h c).2 main_arg10 (Pipeline.mem_restRefs_of main_arg10 (by decide) (by decide))).trans (exit_low m dats c main_arg10 (by decide) (by decide))⟩) h

/-! ## The reduction step of a grid point -/

/-- The accumulator is reset: the point's reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The output block is stored: the point's reduction coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At reduction step 0 the output window is idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At reduction steps 1 and 2 likewise. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- At reduction step 3 the output window is live. -/
theorem liveAt0_5_C : ∀ t : Fin cfg0.N, ¬cond0_0 (grid0.coords t) → cond0_1 (grid0.coords t) → cfg0.idle 5 (grid0.coords t) = false := by decide +kernel

/-! ## The staging memrefs the body is called with -/

/-- One staging buffer of the output window, through which its contents are stated. -/
abbrev VO0_5 : View sig .tc .vmem S10x128 .f32 := (Memref.whole cc0_stg5_0 : Memref sig .tc .vmem S10x128 .f32).view
abbrev ms0_0 (t : Fin cfg0.N) : Memref sig .tc .vmem S10x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10x128 .f32 := win0_5.stage (cfg0.slots t 5)
abbrev hs0_5 (t : Fin cfg0.N) : (ms0_5 t).IsWhole := hstage0_5 ((cfg0.slots t 5).cast nbuf0_5)
/-- The accumulator: a scratch buffer of the kernel's own, carried from one grid point to the next. -/
abbrev scM0_0 : Memref sig .tc .vmem S10x128 .f32 := Memref.whole cc0_scratch0
abbrev VS0_0 : View sig .tc .vmem S10x128 .f32 := scM0_0.view

/-- What the pipeline hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Dense

end
-- ==== Proof.DenseRunFirstBits.lean ====
/-
  The kernel body at reduction step 0 of an output block: the accumulator, whatever it held, is overwritten with zeros,
  then with zeros plus this step's partial product; nothing is stored into the output window, which is handed back as
  it was found. Found by running the body: the pieces the accumulator ends with.
-/
import proofs.«410663_j33251636806448_3_alg».proof.Proof.DenseLaunchBits

set_option maxRecDepth 16384

noncomputable section

namespace Cert.Kernel.Dense

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the five inputs at their contents, the output's at contents handed back untouched, the
    accumulator at anything — the body at a point of reduction step 0 runs to a state holding the inputs as they
    were and the accumulator with the pieces `LS0` written. -/
noncomputable def kernelRun0_A (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : cond0_0 i) (hc1 : ¬cond0_1 i)
    (x0 : Vec F S10x2048 .f32) (x1 : Vec F S128x2048 .i32) (x2 : Vec F S128x128 .f32) (x3 : Vec F S128x128 .f32) (x4 : Vec F S128x2048 .bf16) :
    Σ' (L5 : List (View.Piece (Elt F) S10x128 .f32)), { LS0 : List (View.Piece (Elt F) S10x128 .f32) //
      ∀ (xi5 : Vec F S10x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__dense_kernel i arg2 harg2 arg3 harg3 arg4 harg4 arg5 harg5 arg6 harg6 arg7 harg7 arg8 harg8) K } := by
  refine ⟨[], ?_, fun xi5 E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Dense

end
-- ==== Proof.DenseRunMiddleBits.lean ====
/-
  The kernel body at reduction steps 1 and 2 of an output block: this step's partial product is added to what the
  step before left in the accumulator; nothing is stored into the output window.
-/
import proofs.«410663_j33251636806448_3_alg».proof.Proof.DenseRunFirstBits

set_option maxRecDepth 16384

noncomputable section

namespace Cert.Kernel.Dense

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the five inputs at their contents, the output's at contents handed back untouched, the
    accumulator at what the point before left (`xs0`) — the body at a point of reduction step 1 or 2 runs to a
    state holding the inputs as they were and the accumulator with the pieces `LS0` written. -/
noncomputable def kernelRun0_B (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : ¬cond0_1 i)
    (x0 : Vec F S10x2048 .f32) (x1 : Vec F S128x2048 .i32) (x2 : Vec F S128x128 .f32) (x3 : Vec F S128x128 .f32) (x4 : Vec F S128x2048 .bf16) (xs0 : Vec F S10x128 .f32) :
    Σ' (L5 : List (View.Piece (Elt F) S10x128 .f32)), { LS0 : List (View.Piece (Elt F) S10x128 .f32) //
      ∀ (xi5 : Vec F S10x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__dense_kernel i arg2 harg2 arg3 harg3 arg4 harg4 arg5 harg5 arg6 harg6 arg7 harg7 arg8 harg8) K } := by
  refine ⟨[], ?_, fun xi5 E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Dense

end
-- ==== Proof.DenseRunLastBits.lean ====
/-
  The kernel body at reduction step 3, the last, of an output block: this step's partial product is added to what the
  step before left in the accumulator, and the accumulator is stored whole into the output window.
-/
import proofs.«410663_j33251636806448_3_alg».proof.Proof.DenseRunMiddleBits

set_option maxRecDepth 16384

noncomputable section

namespace Cert.Kernel.Dense

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the five inputs at their contents, the output's at anything, the accumulator at what
    the point before left (`xs0`) — the body at a point of reduction step 3 runs to a state holding the inputs as
    they were, the output's buffer with the pieces `L5` written and the accumulator with `LS0` written. -/
noncomputable def kernelRun0_C (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) :
    Σ' (L5 : List (View.Piece (Elt F) S10x128 .f32)), { LS0 : List (View.Piece (Elt F) S10x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__dense_kernel i arg2 harg2 arg3 harg3 arg4 harg4 arg5 harg5 arg6 harg6 arg7 harg7 arg8 harg8) K } := by
  refine ⟨?_, ?_, fun E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Dense

end
-- ==== Proof.DenseFrameBits.lean ====
/-
  The pallas call of the sparse-quantized matmul over its 64 x 4 grid, and the frame of the whole program.

  Grid point t = 4 a + j is reduction step j of output block a. What the accumulator and the output window's buffer
  hold after the body at each point is defined by recursion on the point: step 0 overwrites the accumulator, steps 1 to 3
  continue from what the point before left, and step 3 also stores the accumulator into the output window, which is
  written back there and only there. With that as proof data — every input window's buffer at its block, the
  accumulator carried from point to point in the region invariant — the body's run at each step is the body
  obligation, the pipeline's launch theorem gives the run of the whole program, and the frame claim is read off it.
-/
import proofs.«410663_j33251636806448_3_alg».proof.Proof.DenseRunLastBits

set_option maxRecDepth 16384

noncomputable section

namespace Cert.Kernel.Dense

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator's pieces at reduction step 0 cover it. -/
theorem scover0_A_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : cond0_0 i) (hc1 : ¬cond0_1 i)
    (x0 : Vec F S10x2048 .f32) (x1 : Vec F S128x2048 .i32) (x2 : Vec F S128x128 .f32) (x3 : Vec F S128x128 .f32) (x4 : Vec F S128x2048 .bf16) (y : S10x128.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S10x128.size (by sl_kernel_rfl) y

/-- What the body leaves in the accumulator there: its pieces read back. -/
def sout0_A_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : cond0_0 i) (hc1 : ¬cond0_1 i)
    (x0 : Vec F S10x2048 .f32) (x1 : Vec F S128x2048 .i32) (x2 : Vec F S128x128 .f32) (x3 : Vec F S128x128 .f32) (x4 : Vec F S128x2048 .bf16) : Vec F S10x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- The body stores nothing into the output window there: a placeholder nothing consults (the window is neither written back nor read at these points). -/
def out0_A_5 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : cond0_0 i) (hc1 : ¬cond0_1 i)
    (x0 : Vec F S10x2048 .f32) (x1 : Vec F S128x2048 .i32) (x2 : Vec F S128x128 .f32) (x3 : Vec F S128x128 .f32) (x4 : Vec F S128x2048 .bf16) : Vec F S10x128 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- The accumulator's pieces at reduction steps 1 and 2 cover it. -/
theorem scover0_B_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : ¬cond0_1 i)
    (x0 : Vec F S10x2048 .f32) (x1 : Vec F S128x2048 .i32) (x2 : Vec F S128x128 .f32) (x3 : Vec F S128x128 .f32) (x4 : Vec F S128x2048 .bf16) (xs0 : Vec F S10x128 .f32) (y : S10x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S10x128.size (by sl_kernel_rfl) y

/-- What the body leaves in the accumulator there: its pieces read back. -/
def sout0_B_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : ¬cond0_1 i)
    (x0 : Vec F S10x2048 .f32) (x1 : Vec F S128x2048 .i32) (x2 : Vec F S128x128 .f32) (x3 : Vec F S128x128 .f32) (x4 : Vec F S128x2048 .bf16) (xs0 : Vec F S10x128 .f32) : Vec F S10x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- The body stores nothing into the output window there: a placeholder nothing consults (the window is neither written back nor read at these points). -/
def out0_B_5 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : ¬cond0_1 i)
    (x0 : Vec F S10x2048 .f32) (x1 : Vec F S128x2048 .i32) (x2 : Vec F S128x128 .f32) (x3 : Vec F S128x128 .f32) (x4 : Vec F S128x2048 .bf16) (xs0 : Vec F S10x128 .f32) : Vec F S10x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- The accumulator's pieces at reduction step 3 cover it. -/
theorem scover0_C_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) (y : S10x128.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S10x128.size (by sl_kernel_rfl) y

/-- What the body leaves in the accumulator there: its pieces read back. -/
def sout0_C_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) : Vec F S10x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-- What the body leaves in the output window's buffer there: its pieces read back. -/
def out0_C_5 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) : Vec F S10x128 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- At reduction step 3 the output window's pieces cover its block. -/
theorem cover0_C_5 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) (y : S10x128.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S10x128.size (by sl_kernel_rfl) y

/-! ## What the output window's buffer and the accumulator hold after each point -/

/-- After the body at position `n`: the output window's buffer, then the accumulator. The step is `n % 4`; steps 1 to 3
    continue from the accumulator as position `n - 1` left it. -/
def outsAt0 (c : Dev nD) : (n : ℕ) → n < cfg0.N → Vec F S10x128 .f32 × Vec F S10x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards what
    the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the call finds them; after the body at point `t` each input's buffer at its block and the output's
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' buffers hold their blocks; the step (`t % 4`) says which run applies; the
    invariant hands the body the accumulator at what the point before left (at anything at the first point) and takes
    it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outsAt0_C m c t h0 h1]
      unfold out0_C_5 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back the accumulator at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
set_option maxHeartbeats 8000000 in
/-- From any memory with zero counters every weakly fair execution of the program terminates, with every array the
    windows stage at what the pipeline leaves and every other buffer as the operations after the call leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9]) (hsub := sfx_sub) (hfresh := sfx_fresh) (hkeep := sfx_keeps)
    (hmain := hmain m Variants.none) (hA := A_eq m) (hin := hin m) (hout := hout m)

/-- The frame: the eleven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Dense

end
-- ==== Proof.DenseLaunch.lean ====
/-
  The host program around the one pallas call of the sparse-quantized matmul: forty-one host operations (the two-level
  dequantisation of the scales and zeros, and the one-hot expansion matrix E[g, n] = 1 iff n / 16 = g), the call, then
  seventy-five host operations (the CSR outlier correction and the final sum).

  Stated here: the contents of every buffer when the call is entered (the fold of the operations before it over the
  launch contents); that the program is those operations, the call, and the operations after it; that the operations
  after the call write neither an argument nor an array the call's windows stage (each operation writes its own result
  buffer, and those are numbered after the call's result); each window's block at a grid point; at which grid points
  the accumulator is reset (reduction step 0) and the output block stored (reduction step 3), decided over the 64 x 4
  grid; and how the frame claim (the eleven arguments end as launched) is read off a run that ends with the windows'
  arrays at what the pipeline leaves and every other buffer as the operations after the call leave it.
-/
import proofs.«410663_j33251636806448_3_alg».proof.Proof.Gen.KernelIdeal.Launch
import proofs.«410663_j33251636806448_3_alg».proof.Proof.Gen.KernelIdeal.Skeleton
import proofs.«410663_j33251636806448_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the call -/

/-- Core `c`'s buffer contents when the call is entered: the operations before it, folded over the launch contents. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor

set_option maxHeartbeats 8000000 in
/-- The program is the operations before the call, the call, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9]) :=
  Pipeline.hmain_around cfgs 0 defs₀ 𝒱₀ m main [hostOps0, hostOps0_1, hostOps0_2] [hostOps1, hostOps1_1, hostOps1_2, hostOps1_3, hostOps1_4, hostOps1_5, hostOps1_6, hostOps1_7, hostOps1_8, hostOps1_9]
    ⟨hostOps0_sub, hostOps0_1_sub, hostOps0_2_sub⟩ ⟨hostOps0_fresh, hostOps0_1_fresh, hostOps0_2_fresh⟩ (fun c => main_chain c)

/-- A line whose operations write only buffers numbered from `lo` on leaves a lower-numbered buffer as it was. -/
theorem after_low_kept {lo : ℕ} {r : Ref sig .tc} (ops : List (HloOp τ sig (Elt F))) (W : Valuation τ sig (Elt F))
    (hW : ops.Forall fun op => ∀ b : Ref sig .tc, Proc.devRef (τ := τ) .tc b ∈ op.writes → lo ≤ b.idx.val)
    (hr : r.idx.val < lo) : StableHlo.after ops W (Proc.devRef .tc r) = W (Proc.devRef .tc r) :=
  StableHlo.after_of_forall_not_mem ops W fun op hop hb =>
    absurd ((List.forall_iff_forall_mem.mp hW) op hop r hb) (Nat.not_le.mpr hr)

/-- Every operation before the call writes a buffer numbered 11 or more (the arguments are 0 to 10). -/
theorem pre_writes : (List.flatten [hostOps0, hostOps0_1, hostOps0_2] : List (HloOp τ sig (Elt F))).Forall
    fun op => ∀ b : Ref sig .tc, Proc.devRef (τ := τ) .tc b ∈ op.writes → 11 ≤ b.idx.val := by
  simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; rw [Proc.devRef_injective _ h]; decide)

/-- Every operation after the call writes a buffer numbered 53 or more (the call's result is 52). -/
theorem tail_writes : (List.flatten [hostOps1, hostOps1_1, hostOps1_2, hostOps1_3, hostOps1_4, hostOps1_5, hostOps1_6, hostOps1_7, hostOps1_8, hostOps1_9] : List (HloOp τ sig (Elt F))).Forall
    fun op => ∀ b : Ref sig .tc, Proc.devRef (τ := τ) .tc b ∈ op.writes → 53 ≤ b.idx.val := by
  simp only [hostOps1, hostOps1_1, hostOps1_2, hostOps1_3, hostOps1_4, hostOps1_5, hostOps1_6, hostOps1_7, hostOps1_8, hostOps1_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; rw [Proc.devRef_injective _ h]; decide)

/-- The arrays the call's windows stage are numbered below 53. -/
theorem arr_low : ∀ w : Fin 6, (Pipeline.arrRef spec0 w).idx.val < 53 := by decide

theorem tail_sub : ∀ ops ∈ ([hostOps1, hostOps1_1, hostOps1_2, hostOps1_3, hostOps1_4, hostOps1_5, hostOps1_6, hostOps1_7, hostOps1_8, hostOps1_9] : List (List (HloOp τ sig (Elt F)))), ops.Forall fun op => op.bufs ⊆ StableHlo.tcRefs τ sig := by
  intro ops hops
  simp only [List.mem_cons, List.mem_nil_iff, or_false] at hops
  rcases hops with rfl | rfl | rfl | rfl | rfl | rfl | rfl | rfl | rfl | rfl
  exacts [hostOps1_sub, hostOps1_1_sub, hostOps1_2_sub, hostOps1_3_sub, hostOps1_4_sub, hostOps1_5_sub, hostOps1_6_sub, hostOps1_7_sub, hostOps1_8_sub, hostOps1_9_sub]

theorem tail_fresh : ∀ ops ∈ ([hostOps1, hostOps1_1, hostOps1_2, hostOps1_3, hostOps1_4, hostOps1_5, hostOps1_6, hostOps1_7, hostOps1_8, hostOps1_9] : List (List (HloOp τ sig (Elt F)))), ops.Forall fun op => op.fresh = ∅ := by
  intro ops hops
  simp only [List.mem_cons, List.mem_nil_iff, or_false] at hops
  rcases hops with rfl | rfl | rfl | rfl | rfl | rfl | rfl | rfl | rfl | rfl
  exacts [hostOps1_fresh, hostOps1_1_fresh, hostOps1_2_fresh, hostOps1_3_fresh, hostOps1_4_fresh, hostOps1_5_fresh, hostOps1_6_fresh, hostOps1_7_fresh, hostOps1_8_fresh, hostOps1_9_fresh]

/-- The operations after the call touch the windows' arrays and the buffers that bypass the call only. -/
theorem sfx_sub : ∀ ops ∈ ([hostOps1, hostOps1_1, hostOps1_2, hostOps1_3, hostOps1_4, hostOps1_5, hostOps1_6, hostOps1_7, hostOps1_8, hostOps1_9] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)
/-- They allocate nothing. -/
theorem sfx_fresh : ∀ ops ∈ ([hostOps1, hostOps1_1, hostOps1_2, hostOps1_3, hostOps1_4, hostOps1_5, hostOps1_6, hostOps1_7, hostOps1_8, hostOps1_9] : List (List (HloOp τ sig (Elt F)))), ∀ op ∈ ops, op.fresh = ∅ :=
  fun ops hops op hop => (List.forall_iff_forall_mem.mp (tail_fresh ops hops)) op hop
/-- And write no array the windows stage. -/
theorem sfx_keeps : ∀ ops ∈ ([hostOps1, hostOps1_1, hostOps1_2, hostOps1_3, hostOps1_4, hostOps1_5, hostOps1_6, hostOps1_7, hostOps1_8, hostOps1_9] : List (List (HloOp τ sig (Elt F)))), ∀ op ∈ ops,
    ∀ w, Proc.devRef .tc (Pipeline.arrRef spec0 w) ∉ op.writes := by
  intro ops hops op hop w hw
  exact absurd ((List.forall_iff_forall_mem.mp tail_writes) op (List.mem_flatten.mpr ⟨ops, hops, hop⟩) _ hw)
    (Nat.not_le.mpr (arr_low w))

/-- A buffer numbered below 11 (an argument) is entered as launched. -/
theorem entry_low (c : Dev nD) (r : Ref sig .tc) (hr : r.idx.val < 11) : V m c r = m ((c : Thread nD τ).loc r) :=
  after_low_kept _ _ pre_writes hr

/-- A buffer numbered below 53 that is no window's array ends as it was entered. -/
theorem exit_kept (dats : (p : Fin 1) → (c : Dev nD) → Dat τ (Elt F) Unit ℕ (UR sig nD τ) ℕ (cfgs p) c) (c : Dev nD)
    (r : Ref sig .tc) (hr : r.idx.val < 53) (hne : ∀ w, Pipeline.arrRef spec0 w ≠ r) :
    Pipeline.afterTail₀ cfgs dats 0 (V0 m) [hostOps1, hostOps1_1, hostOps1_2, hostOps1_3, hostOps1_4, hostOps1_5, hostOps1_6, hostOps1_7, hostOps1_8, hostOps1_9] c r = V m c r := by
  unfold Pipeline.afterTail₀
  rw [after_low_kept _ _ tail_writes hr, Pipeline.withArrays_of_ne _ c (V0 m c) _ r hne]

/-- An argument that is no window's array ends as launched. -/
theorem exit_low (dats : (p : Fin 1) → (c : Dev nD) → Dat τ (Elt F) Unit ℕ (UR sig nD τ) ℕ (cfgs p) c) (c : Dev nD)
    (r : Ref sig .tc) (hr : r.idx.val < 11) (hne : ∀ w, Pipeline.arrRef spec0 w ≠ r) :
    Pipeline.afterTail₀ cfgs dats 0 (V0 m) [hostOps1, hostOps1_1, hostOps1_2, hostOps1_3, hostOps1_4, hostOps1_5, hostOps1_6, hostOps1_7, hostOps1_8, hostOps1_9] c r = m ((c : Thread nD τ).loc r) :=
  (exit_kept m dats c r (Nat.lt_trans hr (by decide)) hne).trans (entry_low m c r hr)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, whenever the proof
    data's array is the entry contents and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, whenever the proof
    data's array is the entry contents and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, whenever the proof
    data's array is the entry contents and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, whenever the proof
    data's array is the entry contents and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, whenever the proof
    data's array is the entry contents and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- For any proof data whose arrays are the entry contents: a run that ends with the windows' arrays at what the
    pipeline leaves and every other buffer as the operations after the call leave it ends with the eleven arguments
    as launched (the quantised weights, window 1's array, are never written back; the others bypass the call). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8, hostOps1_9]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_arg0 (Pipeline.mem_restRefs_of main_arg0 (by decide) (by decide))).trans (exit_low m dats c main_arg0 (by decide) (by decide)),
      ((h c).1 1).trans (((dats 0 c).arrAt_in 1 rfl _).trans ((hA c 1).trans (entry_low m c main_arg1 (by decide)))),
      ((h c).2 main_arg2 (Pipeline.mem_restRefs_of main_arg2 (by decide) (by decide))).trans (exit_low m dats c main_arg2 (by decide) (by decide)),
      ((h c).2 main_arg3 (Pipeline.mem_restRefs_of main_arg3 (by decide) (by decide))).trans (exit_low m dats c main_arg3 (by decide) (by decide)),
      ((h c).2 main_arg4 (Pipeline.mem_restRefs_of main_arg4 (by decide) (by decide))).trans (exit_low m dats c main_arg4 (by decide) (by decide)),
      ((h c).2 main_arg5 (Pipeline.mem_restRefs_of main_arg5 (by decide) (by decide))).trans (exit_low m dats c main_arg5 (by decide) (by decide)),
      ((h c).2 main_arg6 (Pipeline.mem_restRefs_of main_arg6 (by decide) (by decide))).trans (exit_low m dats c main_arg6 (by decide) (by decide)),
      ((h c).2 main_arg7 (Pipeline.mem_restRefs_of main_arg7 (by decide) (by decide))).trans (exit_low m dats c main_arg7 (by decide) (by decide)),
      ((h c).2 main_arg8 (Pipeline.mem_restRefs_of main_arg8 (by decide) (by decide))).trans (exit_low m dats c main_arg8 (by decide) (by decide)),
      ((h c).2 main_arg9 (Pipeline.mem_restRefs_of main_arg9 (by decide) (by decide))).trans (exit_low m dats c main_arg9 (by decide) (by decide)),
      ((h c).2 main_arg10 (Pipeline.mem_restRefs_of main_arg10 (by decide) (by decide))).trans (exit_low m dats c main_arg10 (by decide) (by decide))⟩) h

/-! ## The reduction step of a grid point -/

/-- The accumulator is reset: the point's reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The output block is stored: the point's reduction coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At reduction step 0 the output window is idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At reduction steps 1 and 2 likewise. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- At reduction step 3 the output window is live. -/
theorem liveAt0_5_C : ∀ t : Fin cfg0.N, ¬cond0_0 (grid0.coords t) → cond0_1 (grid0.coords t) → cfg0.idle 5 (grid0.coords t) = false := by decide +kernel

/-! ## The staging memrefs the body is called with -/

/-- One staging buffer of the output window, through which its contents are stated. -/
abbrev VO0_5 : View sig .tc .vmem S10x128 .f32 := (Memref.whole cc0_stg5_0 : Memref sig .tc .vmem S10x128 .f32).view
abbrev ms0_0 (t : Fin cfg0.N) : Memref sig .tc .vmem S10x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10x128 .f32 := win0_5.stage (cfg0.slots t 5)
abbrev hs0_5 (t : Fin cfg0.N) : (ms0_5 t).IsWhole := hstage0_5 ((cfg0.slots t 5).cast nbuf0_5)
/-- The accumulator: a scratch buffer of the kernel's own, carried from one grid point to the next. -/
abbrev scM0_0 : Memref sig .tc .vmem S10x128 .f32 := Memref.whole cc0_scratch0
abbrev VS0_0 : View sig .tc .vmem S10x128 .f32 := scM0_0.view

/-- What the pipeline hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Dense

end
-- ==== Proof.DenseRunFirst.lean ====
/-
  The kernel body at reduction step 0 of an output block: the accumulator, whatever it held, is overwritten with zeros,
  then with zeros plus this step's partial product; nothing is stored into the output window, which is handed back as
  it was found. Found by running the body: the pieces the accumulator ends with.
-/
import proofs.«410663_j33251636806448_3_alg».proof.Proof.DenseLaunch

set_option maxRecDepth 16384

noncomputable section

namespace Cert.KernelIdeal.Dense

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the five inputs at their contents, the output's at contents handed back untouched, the
    accumulator at anything — the body at a point of reduction step 0 runs to a state holding the inputs as they
    were and the accumulator with the pieces `LS0` written. -/
noncomputable def kernelRun0_A (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : cond0_0 i) (hc1 : ¬cond0_1 i)
    (x0 : Vec F S10x2048 .f32) (x1 : Vec F S128x2048 .i32) (x2 : Vec F S128x128 .f32) (x3 : Vec F S128x128 .f32) (x4 : Vec F S128x2048 .bf16) :
    Σ' (L5 : List (View.Piece (Elt F) S10x128 .f32)), { LS0 : List (View.Piece (Elt F) S10x128 .f32) //
      ∀ (xi5 : Vec F S10x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__dense_kernel i arg2 harg2 arg3 harg3 arg4 harg4 arg5 harg5 arg6 harg6 arg7 harg7 arg8 harg8) K } := by
  refine ⟨[], ?_, fun xi5 E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Dense

end
-- ==== Proof.DenseRunMiddle.lean ====
/-
  The kernel body at reduction steps 1 and 2 of an output block: this step's partial product is added to what the
  step before left in the accumulator; nothing is stored into the output window.
-/
import proofs.«410663_j33251636806448_3_alg».proof.Proof.DenseRunFirst

set_option maxRecDepth 16384

noncomputable section

namespace Cert.KernelIdeal.Dense

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the five inputs at their contents, the output's at contents handed back untouched, the
    accumulator at what the point before left (`xs0`) — the body at a point of reduction step 1 or 2 runs to a
    state holding the inputs as they were and the accumulator with the pieces `LS0` written. -/
noncomputable def kernelRun0_B (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : ¬cond0_1 i)
    (x0 : Vec F S10x2048 .f32) (x1 : Vec F S128x2048 .i32) (x2 : Vec F S128x128 .f32) (x3 : Vec F S128x128 .f32) (x4 : Vec F S128x2048 .bf16) (xs0 : Vec F S10x128 .f32) :
    Σ' (L5 : List (View.Piece (Elt F) S10x128 .f32)), { LS0 : List (View.Piece (Elt F) S10x128 .f32) //
      ∀ (xi5 : Vec F S10x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__dense_kernel i arg2 harg2 arg3 harg3 arg4 harg4 arg5 harg5 arg6 harg6 arg7 harg7 arg8 harg8) K } := by
  refine ⟨[], ?_, fun xi5 E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Dense

end
-- ==== Proof.DenseRunLast.lean ====
/-
  The kernel body at reduction step 3, the last, of an output block: this step's partial product is added to what the
  step before left in the accumulator, and the accumulator is stored whole into the output window.
-/
import proofs.«410663_j33251636806448_3_alg».proof.Proof.DenseRunMiddle

set_option maxRecDepth 16384

noncomputable section

namespace Cert.KernelIdeal.Dense

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the five inputs at their contents, the output's at anything, the accumulator at what
    the point before left (`xs0`) — the body at a point of reduction step 3 runs to a state holding the inputs as
    they were, the output's buffer with the pieces `L5` written and the accumulator with `LS0` written. -/
noncomputable def kernelRun0_C (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) :
    Σ' (L5 : List (View.Piece (Elt F) S10x128 .f32)), { LS0 : List (View.Piece (Elt F) S10x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__dense_kernel i arg2 harg2 arg3 harg3 arg4 harg4 arg5 harg5 arg6 harg6 arg7 harg7 arg8 harg8) K } := by
  refine ⟨?_, ?_, fun E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Dense

end
-- ==== Proof.DenseFrame.lean ====
/-
  The pallas call of the sparse-quantized matmul over its 64 x 4 grid, and the frame of the whole program.

  Grid point t = 4 a + j is reduction step j of output block a. What the accumulator and the output window's buffer
  hold after the body at each point is defined by recursion on the point: step 0 overwrites the accumulator, steps 1 to 3
  continue from what the point before left, and step 3 also stores the accumulator into the output window, which is
  written back there and only there. With that as proof data — every input window's buffer at its block, the
  accumulator carried from point to point in the region invariant — the body's run at each step is the body
  obligation, the pipeline's launch theorem gives the run of the whole program, and the frame claim is read off it.
-/
import proofs.«410663_j33251636806448_3_alg».proof.Proof.DenseRunLast

set_option maxRecDepth 16384

noncomputable section

namespace Cert.KernelIdeal.Dense

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator's pieces at reduction step 0 cover it. -/
theorem scover0_A_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : cond0_0 i) (hc1 : ¬cond0_1 i)
    (x0 : Vec F S10x2048 .f32) (x1 : Vec F S128x2048 .i32) (x2 : Vec F S128x128 .f32) (x3 : Vec F S128x128 .f32) (x4 : Vec F S128x2048 .bf16) (y : S10x128.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S10x128.size (by sl_kernel_rfl) y

/-- What the body leaves in the accumulator there: its pieces read back. -/
def sout0_A_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : cond0_0 i) (hc1 : ¬cond0_1 i)
    (x0 : Vec F S10x2048 .f32) (x1 : Vec F S128x2048 .i32) (x2 : Vec F S128x128 .f32) (x3 : Vec F S128x128 .f32) (x4 : Vec F S128x2048 .bf16) : Vec F S10x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- The body stores nothing into the output window there: a placeholder nothing consults (the window is neither written back nor read at these points). -/
def out0_A_5 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : cond0_0 i) (hc1 : ¬cond0_1 i)
    (x0 : Vec F S10x2048 .f32) (x1 : Vec F S128x2048 .i32) (x2 : Vec F S128x128 .f32) (x3 : Vec F S128x128 .f32) (x4 : Vec F S128x2048 .bf16) : Vec F S10x128 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- The accumulator's pieces at reduction steps 1 and 2 cover it. -/
theorem scover0_B_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : ¬cond0_1 i)
    (x0 : Vec F S10x2048 .f32) (x1 : Vec F S128x2048 .i32) (x2 : Vec F S128x128 .f32) (x3 : Vec F S128x128 .f32) (x4 : Vec F S128x2048 .bf16) (xs0 : Vec F S10x128 .f32) (y : S10x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S10x128.size (by sl_kernel_rfl) y

/-- What the body leaves in the accumulator there: its pieces read back. -/
def sout0_B_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : ¬cond0_1 i)
    (x0 : Vec F S10x2048 .f32) (x1 : Vec F S128x2048 .i32) (x2 : Vec F S128x128 .f32) (x3 : Vec F S128x128 .f32) (x4 : Vec F S128x2048 .bf16) (xs0 : Vec F S10x128 .f32) : Vec F S10x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- The body stores nothing into the output window there: a placeholder nothing consults (the window is neither written back nor read at these points). -/
def out0_B_5 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : ¬cond0_1 i)
    (x0 : Vec F S10x2048 .f32) (x1 : Vec F S128x2048 .i32) (x2 : Vec F S128x128 .f32) (x3 : Vec F S128x128 .f32) (x4 : Vec F S128x2048 .bf16) (xs0 : Vec F S10x128 .f32) : Vec F S10x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- The accumulator's pieces at reduction step 3 cover it. -/
theorem scover0_C_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) (y : S10x128.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S10x128.size (by sl_kernel_rfl) y

/-- What the body leaves in the accumulator there: its pieces read back. -/
def sout0_C_0 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) : Vec F S10x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-- What the body leaves in the output window's buffer there: its pieces read back. -/
def out0_C_5 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) : Vec F S10x128 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- At reduction step 3 the output window's pieces cover its block. -/
theorem cover0_C_5 (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) (y : S10x128.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S10x128.size (by sl_kernel_rfl) y

/-! ## What the output window's buffer and the accumulator hold after each point -/

/-- After the body at position `n`: the output window's buffer, then the accumulator. The step is `n % 4`; steps 1 to 3
    continue from the accumulator as position `n - 1` left it. -/
def outsAt0 (c : Dev nD) : (n : ℕ) → n < cfg0.N → Vec F S10x128 .f32 × Vec F S10x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards what
    the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the call finds them; after the body at point `t` each input's buffer at its block and the output's
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' buffers hold their blocks; the step (`t % 4`) says which run applies; the
    invariant hands the body the accumulator at what the point before left (at anything at the first point) and takes
    it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outsAt0_C m c t h0 h1]
      unfold out0_C_5 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back the accumulator at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
set_option maxHeartbeats 8000000 in
/-- From any memory with zero counters every weakly fair execution of the program terminates, with every array the
    windows stage at what the pipeline leaves and every other buffer as the operations after the call leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9]) (hsub := sfx_sub) (hfresh := sfx_fresh) (hkeep := sfx_keeps)
    (hmain := hmain m Variants.none) (hA := A_eq m) (hin := hin m) (hout := hout m)

/-- The frame: the eleven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Dense

end
-- ==== Proof.DenseSteps.lean ====
/-
  What one grid point leaves behind, as values. At reduction step 0 the accumulator ends at the step's stored value
  computed over the zero splat; at steps 1 to 3 over what the point before left; at step 3 the output window's buffer
  ends at that same value (the accumulator read back after its store).
-/
import proofs.«410663_j33251636806448_3_alg».proof.Proof.DenseFrame
import Idealize.ShloMosaic.Lib.Pipeline.Value

set_option maxRecDepth 16384

noncomputable section

namespace Cert.KernelIdeal.Dense

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Reduction steps 1 and 2: the accumulator ends at the step's stored value over what the point before left. -/
theorem acc_B (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : ¬cond0_1 i)
    (x0 : Vec F S10x2048 .f32) (x1 : Vec F S128x2048 .i32) (x2 : Vec F S128x128 .f32) (x3 : Vec F S128x128 .f32) (x4 : Vec F S128x2048 .bf16) (xs0 : Vec F S10x128 .f32) :
    sout0_B_0 c i arg2 harg2 arg3 harg3 arg4 harg4 arg5 harg5 arg6 harg6 arg7 harg7 arg8 harg8 hc0 hc1 x0 x1 x2 x3 x4 xs0 = k0_pay2 x2 x3 x4 x1 x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz]
  simp only [View.readAt_eq_ld, harg2.read_unread, harg3.read_unread, harg4.read_unread, harg5.read_unread, harg6.read_unread, harg8.read_unread, View.ld_unit_zero (S := S128x128) hz, View.ld_unit_zero (S := S128x2048) hz, View.ld_unit_zero (S := S10x2048) hz, View.ld_unit_zero (S := S10x128) hz]

/-- Reduction step 0: the accumulator is first overwritten with the zero splat, read back, and ends at the step's
    stored value over that splat. -/
theorem acc_A (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : cond0_0 i) (hc1 : ¬cond0_1 i)
    (x0 : Vec F S10x2048 .f32) (x1 : Vec F S128x2048 .i32) (x2 : Vec F S128x128 .f32) (x3 : Vec F S128x128 .f32) (x4 : Vec F S128x2048 .bf16) :
    sout0_A_0 c i arg2 harg2 arg3 harg3 arg4 harg4 arg5 harg5 arg6 harg6 arg7 harg7 arg8 harg8 hc0 hc1 x0 x1 x2 x3 x4 = k0_pay2 x2 x3 x4 x1 x0 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S10x128) hz, View.readCov_unit_zero (S := S10x128) _ hz]
  simp only [View.readAt_eq_ld, harg2.read_unread, harg3.read_unread, harg4.read_unread, harg5.read_unread, harg6.read_unread, harg8.read_unread, View.ld_unit_zero (S := S128x128) hz, View.ld_unit_zero (S := S128x2048) hz, View.ld_unit_zero (S := S10x2048) hz, View.ld_unit_zero (S := S10x128) hz]

/-- Reduction step 3: the accumulator ends as at steps 1 and 2, -/
theorem acc_C (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) :
    sout0_C_0 c i arg2 harg2 arg3 harg3 arg4 harg4 arg5 harg5 arg6 harg6 arg7 harg7 arg8 harg8 hc0 hc1 x0 x1 x2 x3 x4 xs0 = k0_pay2 x2 x3 x4 x1 x0 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg8.read_unread, View.ld_unit_zero (S := S128x128) hz, View.ld_unit_zero (S := S128x2048) hz, View.ld_unit_zero (S := S10x2048) hz, View.ld_unit_zero (S := S10x128) hz]

/-- and the output window's buffer ends at the same value: the accumulator read back after its store. -/
theorem out_C (c : Dev nD) (i : grid0.Coords) (arg2 : Memref sig .tc .vmem S10x2048 .f32) (harg2 : arg2.IsWhole) (arg3 : Memref sig .tc .vmem S128x2048 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x2048 .bf16) (harg6 : arg6.IsWhole) (arg7 : Memref sig .tc .vmem S10x128 .f32) (harg7 : arg7.IsWhole) (arg8 : Memref sig .tc .vmem S10x128 .f32) (harg8 : arg8.IsWhole) (hc0 : ¬cond0_0 i) (hc1 : cond0_1 i)
    (x0 : Vec F S10x2048 .f32) (x1 : Vec F S128x2048 .i32) (x2 : Vec F S128x128 .f32) (x3 : Vec F S128x128 .f32) (x4 : Vec F S128x2048 .bf16) (xs0 : Vec F S10x128 .f32) :
    out0_C_5 c i arg2 harg2 arg3 harg3 arg4 harg4 arg5 harg5 arg6 harg6 arg7 harg7 arg8 harg8 hc0 hc1 x0 x1 x2 x3 x4 xs0 = k0_pay2 x2 x3 x4 x1 x0 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S10x128) _ hz]
  simp only [View.readAt_eq_ld, harg2.read_unread, harg3.read_unread, harg4.read_unread, harg5.read_unread, harg6.read_unread, harg8.read_unread, View.ld_unit_zero (S := S128x128) hz, View.ld_unit_zero (S := S128x2048) hz, View.ld_unit_zero (S := S10x2048) hz, View.ld_unit_zero (S := S10x128) hz]

end Cert.KernelIdeal.Dense

end
-- ==== Proof.DenseBlocks.lean ====
/-
  The blocks the pallas call's windows hand the body at grid point t = 4 a + j (output block a, reduction step j), read
  off the arrays as the call finds them: the activations' columns 2048 j … 2048 j + 2047; rows 128 a … 128 a + 127 of
  the quantised weights at those columns; the same rows of the scales and zeros at column groups 128 j … 128 j + 127;
  the whole expansion matrix. The output window's block is rows 0 … 9, columns 128 a … 128 a + 127.
-/
import proofs.«410663_j33251636806448_3_alg».proof.Proof.DenseLaunch
import Idealize.ShloMosaic.Lib.ValueIdx
import Idealize.ShloMosaic.Lib.Pipeline.Value

set_option maxRecDepth 16384

noncomputable section

namespace Cert.KernelIdeal.Dense

open Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The arrays as the call finds them, and the blocks, at their literal types -/

abbrev Xa (c : Dev nD) : S10x8192.Idx → EReal := V (F := Ideal) m c main_v0
abbrev Wa (c : Dev nD) : S8192x8192.Idx → BitVec 32 := V (F := Ideal) m c main_arg1
abbrev Sa (c : Dev nD) : S8192x512.Idx → EReal := V (F := Ideal) m c main_v17
abbrev Za (c : Dev nD) : S8192x512.Idx → EReal := V (F := Ideal) m c main_v18
abbrev Ea (c : Dev nD) : S128x2048.Idx → EReal := V (F := Ideal) m c main_v23

abbrev xblk (c : Dev nD) (t : Fin cfg0.N) : S10x2048.Idx → EReal := iblk (F := Ideal) m c 0 t
abbrev wblk (c : Dev nD) (t : Fin cfg0.N) : S128x2048.Idx → BitVec 32 := iblk (F := Ideal) m c 1 t
abbrev sblk (c : Dev nD) (t : Fin cfg0.N) : S128x128.Idx → EReal := iblk (F := Ideal) m c 2 t
abbrev zblk (c : Dev nD) (t : Fin cfg0.N) : S128x128.Idx → EReal := iblk (F := Ideal) m c 3 t
abbrev eblk (c : Dev nD) (t : Fin cfg0.N) : S128x2048.Idx → EReal := iblk (F := Ideal) m c 4 t

/-! ## The windows' block indices over the grid -/

theorem idx0 : ∀ t : Fin cfg0.N, win0_0.index t 0 = 0 ∧ win0_0.index t 1 = t.val % 4 :=
  (by decide +kernel : ∀ t : Fin grid0.N, win0_0.index t 0 = 0 ∧ win0_0.index t 1 = t.val % 4)
theorem idx1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = t.val / 4 :=
  (by decide +kernel : ∀ t : Fin grid0.N, win0_5.index t 0 = 0 ∧ win0_5.index t 1 = t.val / 4)

/-- The grid has 256 points. -/
theorem t_lt (t : Fin cfg0.N) : t.val < 256 := lt_of_lt_of_eq t.isLt (show cfg0.N = 256 from N_0)

/-! ## Each block is the array at the block's offset -/

theorem xblk_apply (c : Dev nD) (t : Fin cfg0.N) (b : Fin 10) (n : Fin 2048) :
    xblk m c t (ix2 b n) = Xa m c (ix2 b ⟨2048 * (t.val % 4) + n.val, by omega⟩) := by
  show ((cfg0.win 0).blk t).view.read (Elt Ideal) (V m c (Pipeline.arrRef spec0 0)) (ix2 b n) = _
  rw [View.read_apply]
  show V m c main_v0 _ = V m c main_v0 _
  congr 1
  funext a
  apply Fin.ext
  match a with
  | ⟨0, _⟩ => show win0_0.index t 0 * 10 + 1 * b.val = b.val; rw [(idx0 t).1]; omega
  | ⟨1, _⟩ => show win0_0.index t 1 * 2048 + 1 * n.val = 2048 * (t.val % 4) + n.val; rw [(idx0 t).2]; omega

theorem wblk_apply (c : Dev nD) (t : Fin cfg0.N) (r : Fin 128) (n : Fin 2048) :
    wblk m c t (ix2 r n) = Wa m c (ix2 ⟨128 * (t.val / 4) + r.val, by have := t_lt t; omega⟩ ⟨2048 * (t.val % 4) + n.val, by omega⟩) := by
  show ((cfg0.win 1).blk t).view.read (Elt Ideal) (V m c (Pipeline.arrRef spec0 1)) (ix2 r n) = _
  rw [View.read_apply]
  show V m c main_arg1 _ = V m c main_arg1 _
  congr 1
  funext a
  apply Fin.ext
  match a with
  | ⟨0, _⟩ => show win0_1.index t 0 * 128 + 1 * r.val = 128 * (t.val / 4) + r.val; rw [(idx1 t).1]; omega
  | ⟨1, _⟩ => show win0_1.index t 1 * 2048 + 1 * n.val = 2048 * (t.val % 4) + n.val; rw [(idx1 t).2]; omega

theorem sblk_apply (c : Dev nD) (t : Fin cfg0.N) (r : Fin 128) (g : Fin 128) :
    sblk m c t (ix2 r g) = Sa m c (ix2 ⟨128 * (t.val / 4) + r.val, by have := t_lt t; omega⟩ ⟨128 * (t.val % 4) + g.val, by omega⟩) := by
  show ((cfg0.win 2).blk t).view.read (Elt Ideal) (V m c (Pipeline.arrRef spec0 2)) (ix2 r g) = _
  rw [View.read_apply]
  show V m c main_v17 _ = V m c main_v17 _
  congr 1
  funext a
  apply Fin.ext
  match a with
  | ⟨0, _⟩ => show win0_2.index t 0 * 128 + 1 * r.val = 128 * (t.val / 4) + r.val; rw [(idx2 t).1]; omega
  | ⟨1, _⟩ => show win0_2.index t 1 * 128 + 1 * g.val = 128 * (t.val % 4) + g.val; rw [(idx2 t).2]; omega

theorem zblk_apply (c : Dev nD) (t : Fin cfg0.N) (r : Fin 128) (g : Fin 128) :
    zblk m c t (ix2 r g) = Za m c (ix2 ⟨128 * (t.val / 4) + r.val, by have := t_lt t; omega⟩ ⟨128 * (t.val % 4) + g.val, by omega⟩) := by
  show ((cfg0.win 3).blk t).view.read (Elt Ideal) (V m c (Pipeline.arrRef spec0 3)) (ix2 r g) = _
  rw [View.read_apply]
  show V m c main_v18 _ = V m c main_v18 _
  congr 1
  funext a
  apply Fin.ext
  match a with
  | ⟨0, _⟩ => show win0_3.index t 0 * 128 + 1 * r.val = 128 * (t.val / 4) + r.val; rw [(idx3 t).1]; omega
  | ⟨1, _⟩ => show win0_3.index t 1 * 128 + 1 * g.val = 128 * (t.val % 4) + g.val; rw [(idx3 t).2]; omega

theorem eblk_apply (c : Dev nD) (t : Fin cfg0.N) (g : Fin 128) (n : Fin 2048) :
    eblk m c t (ix2 g n) = Ea m c (ix2 g n) := by
  show ((cfg0.win 4).blk t).view.read (Elt Ideal) (V m c (Pipeline.arrRef spec0 4)) (ix2 g n) = _
  rw [View.read_apply]
  show V m c main_v23 _ = V m c main_v23 _
  congr 1
  funext a
  apply Fin.ext
  match a with
  | ⟨0, _⟩ => show win0_4.index t 0 * 128 + 1 * g.val = g.val; rw [(idx4 t).1]; omega
  | ⟨1, _⟩ => show win0_4.index t 1 * 2048 + 1 * n.val = n.val; rw [(idx4 t).2]; omega

end Cert.KernelIdeal.Dense

end
-- ==== Proof.DenseSpec.lean ====
/-
  One reduction step of the sparse-quantized matmul, entry by entry, over the extended reals.

  The body's stored value at a reduction step is  acc + x · ((w − z E) ∘ (s E))ᵀ  on blocks: x is 10 x 2048, the
  quantised weights w are 128 x 2048 integers, s and z are 128 x 128 (one column per group of 16 weight columns), and
  E is the 128 x 2048 one-hot expansion E[g, n] = 1 iff n / 16 = g. Because E is one-hot, (s E)[r, n] = s[r, n / 16]
  and (z E)[r, n] = z[r, n / 16] (a sum with one non-zero term: 0 · a = 0 and a · 1 = a hold for every extended real),
  so entry (b, r) of the stored value is acc[b, r] plus the sum over the 2048 columns n of
  x[b, n] · ((w[r, n] − z[r, n / 16]) · s[r, n / 16]).
-/
import proofs.«410663_j33251636806448_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Spec

open Cert.KernelIdeal Cert.KernelIdeal.Gen Idealize.ShloMosaic Idealize.ShloMosaic.ValueIdx

/-- The group of 16 weight columns that column n of a 2048-wide block belongs to. -/
def grp128 (n : Fin 2048) : Fin 128 := ⟨n.val / 16, by omega⟩

/-- The zero splat the accumulator is reset to. -/
theorem pay1_apply (y : S10x128.Idx) : k0_pay1 (F := Ideal) y = 0 := by
  unfold k0_pay1
  rw [shapeCast_self]
  exact Ideal.ofBits_zero_f32

/-! ## The product (128 x 128) · (128 x 2048): operand indices by coordinates

At output entry j = (r, n) and contraction position k the left operand is read at (r, k) and the right one at (k, n). -/

/-- The left operand's row is the output's row. -/
theorem lhs_A_0 (j : S128x2048.Idx) (k : dot_S128x128_S128x2048_S128x2048_1_0_0_1_n_n.contr.Idx) :
    (dot_S128x128_S128x2048_S128x2048_1_0_0_1_n_n.lhsIdx j k 0).val = (j 0).val := by
  simp [DotDims.lhsIdx, dot_S128x128_S128x2048_S128x2048_1_0_0_1_n_n]; rfl

/-- The left operand's column is the contraction position. -/
theorem lhs_A_1 (j : S128x2048.Idx) (k : dot_S128x128_S128x2048_S128x2048_1_0_0_1_n_n.contr.Idx) :
    (dot_S128x128_S128x2048_S128x2048_1_0_0_1_n_n.lhsIdx j k 1).val = (k ⟨0, by decide⟩).val :=
  dot_S128x128_S128x2048_S128x2048_1_0_0_1_n_n.lhsIdx_val_of_single rfl j k

/-- The right operand's row is the contraction position. -/
theorem rhs_A_0 (j : S128x2048.Idx) (k : dot_S128x128_S128x2048_S128x2048_1_0_0_1_n_n.contr.Idx) :
    (dot_S128x128_S128x2048_S128x2048_1_0_0_1_n_n.rhsIdx j k 0).val = (k ⟨0, by decide⟩).val :=
  dot_S128x128_S128x2048_S128x2048_1_0_0_1_n_n.rhsIdx_val_of_single rfl j k

/-- The right operand's column is the output's column. -/
theorem rhs_A_1 (j : S128x2048.Idx) (k : dot_S128x128_S128x2048_S128x2048_1_0_0_1_n_n.contr.Idx) :
    (dot_S128x128_S128x2048_S128x2048_1_0_0_1_n_n.rhsIdx j k 1).val = (j 1).val := by
  simp [DotDims.rhsIdx, dot_S128x128_S128x2048_S128x2048_1_0_0_1_n_n]; rfl

/-- Entry (r, n) of a 128 x 128 matrix A times a 128 x 2048 matrix B, accumulated into zeros, is the sum over the 128
    groups g of A[r, g] · B[g, n]. -/
theorem mmA_apply {φ₁ φ₂ : FTy} (A : FVec Ideal S128x128 φ₁) (B : FVec Ideal S128x2048 φ₂) (r : Fin 128) (n : Fin 2048) :
    matmul dot_S128x128_S128x2048_S128x2048_1_0_0_1_n_n none A B (constant (F := Ideal) S128x2048 .f32 0x00000000#32) (ix2 r n)
      = ∑ g : Fin 128, A (ix2 r g) * B (ix2 g n) := by
  show FloatOps.matmul _ none A B _ (ix2 r n) = _
  rw [Ideal.matmul_constant_zero_apply,
    ← Equiv.sum_comp (contrEquiv1 dot_S128x128_S128x2048_S128x2048_1_0_0_1_n_n 128 rfl rfl).symm]
  refine Finset.sum_congr rfl fun g _ => ?_
  have c := contrEquiv1_symm_val dot_S128x128_S128x2048_S128x2048_1_0_0_1_n_n 128 rfl rfl g
  have hl : dot_S128x128_S128x2048_S128x2048_1_0_0_1_n_n.lhsIdx (ix2 r n) ((contrEquiv1 _ 128 rfl rfl).symm g) = ix2 r g := by
    funext ax; apply Fin.ext
    match ax with
    | ⟨0, _⟩ => exact lhs_A_0 _ _
    | ⟨1, _⟩ => exact (lhs_A_1 _ _).trans c
  have hr : dot_S128x128_S128x2048_S128x2048_1_0_0_1_n_n.rhsIdx (ix2 r n) ((contrEquiv1 _ 128 rfl rfl).symm g) = ix2 g n := by
    funext ax; apply Fin.ext
    match ax with
    | ⟨0, _⟩ => exact (rhs_A_0 _ _).trans c
    | ⟨1, _⟩ => exact rhs_A_1 _ _
  rw [hl, hr]

/-! ## The product (10 x 2048) · (128 x 2048)ᵀ: operand indices by coordinates

At output entry j = (b, r) and contraction position k the left operand is read at (b, k) and the right one at (r, k). -/

/-- The left operand's row is the output's row. -/
theorem lhs_B_0 (j : S10x128.Idx) (k : dot_S10x2048_S128x2048_S10x128_1_1_0_0_n_n.contr.Idx) :
    (dot_S10x2048_S128x2048_S10x128_1_1_0_0_n_n.lhsIdx j k 0).val = (j 0).val := by
  simp [DotDims.lhsIdx, dot_S10x2048_S128x2048_S10x128_1_1_0_0_n_n]; rfl

/-- The left operand's column is the contraction position. -/
theorem lhs_B_1 (j : S10x128.Idx) (k : dot_S10x2048_S128x2048_S10x128_1_1_0_0_n_n.contr.Idx) :
    (dot_S10x2048_S128x2048_S10x128_1_1_0_0_n_n.lhsIdx j k 1).val = (k ⟨0, by decide⟩).val :=
  dot_S10x2048_S128x2048_S10x128_1_1_0_0_n_n.lhsIdx_val_of_single rfl j k

/-- The right operand's row is the output's column. -/
theorem rhs_B_0 (j : S10x128.Idx) (k : dot_S10x2048_S128x2048_S10x128_1_1_0_0_n_n.contr.Idx) :
    (dot_S10x2048_S128x2048_S10x128_1_1_0_0_n_n.rhsIdx j k 0).val = (j 1).val := by
  simp [DotDims.rhsIdx, dot_S10x2048_S128x2048_S10x128_1_1_0_0_n_n]; rfl

/-- The right operand's column is the contraction position. -/
theorem rhs_B_1 (j : S10x128.Idx) (k : dot_S10x2048_S128x2048_S10x128_1_1_0_0_n_n.contr.Idx) :
    (dot_S10x2048_S128x2048_S10x128_1_1_0_0_n_n.rhsIdx j k 1).val = (k ⟨0, by decide⟩).val :=
  dot_S10x2048_S128x2048_S10x128_1_1_0_0_n_n.rhsIdx_val_of_single rfl j k

/-- Entry (b, r) of a 10 x 2048 matrix X times the transpose of a 128 x 2048 matrix W, accumulated into zeros, is the
    sum over the 2048 columns n of X[b, n] · W[r, n]. -/
theorem mmB_apply {φ₁ φ₂ : FTy} (X : FVec Ideal S10x2048 φ₁) (W : FVec Ideal S128x2048 φ₂) (b : Fin 10) (r : Fin 128) :
    matmul dot_S10x2048_S128x2048_S10x128_1_1_0_0_n_n none X W (constant (F := Ideal) S10x128 .f32 0x00000000#32) (ix2 b r)
      = ∑ n : Fin 2048, X (ix2 b n) * W (ix2 r n) := by
  show FloatOps.matmul _ none X W _ (ix2 b r) = _
  rw [Ideal.matmul_constant_zero_apply,
    ← Equiv.sum_comp (contrEquiv1 dot_S10x2048_S128x2048_S10x128_1_1_0_0_n_n 2048 rfl rfl).symm]
  refine Finset.sum_congr rfl fun n _ => ?_
  have c := contrEquiv1_symm_val dot_S10x2048_S128x2048_S10x128_1_1_0_0_n_n 2048 rfl rfl n
  have hl : dot_S10x2048_S128x2048_S10x128_1_1_0_0_n_n.lhsIdx (ix2 b r) ((contrEquiv1 _ 2048 rfl rfl).symm n) = ix2 b n := by
    funext ax; apply Fin.ext
    match ax with
    | ⟨0, _⟩ => exact lhs_B_0 _ _
    | ⟨1, _⟩ => exact (lhs_B_1 _ _).trans c
  have hr : dot_S10x2048_S128x2048_S10x128_1_1_0_0_n_n.rhsIdx (ix2 b r) ((contrEquiv1 _ 2048 rfl rfl).symm n) = ix2 r n := by
    funext ax; apply Fin.ext
    match ax with
    | ⟨0, _⟩ => exact rhs_B_0 _ _
    | ⟨1, _⟩ => exact (rhs_B_1 _ _).trans c
  rw [hl, hr]

/-! ## The one-hot expansion picks one group -/

/-- Against column n of the one-hot expansion E, a sum over the 128 groups keeps only the term of the group n / 16:
    every other term is a · 0 = 0 and the remaining one is a · 1 = a, for any extended reals a. -/
theorem onehot_sum (a : Fin 128 → EReal) (E : Vec Ideal S128x2048 .bf16)
    (hE : ∀ (g : Fin 128) (n : Fin 2048), E (ix2 g n) = if g.val = n.val / 16 then (1 : EReal) else 0)
    (n : Fin 2048) : ∑ g : Fin 128, a g * E (ix2 g n) = a (grp128 n) := by
  rw [Finset.sum_eq_single (grp128 n)]
  · rw [hE, if_pos (show (grp128 n).val = n.val / 16 from rfl), mul_one]
  · intro g _ hg
    rw [hE, if_neg (show ¬ g.val = n.val / 16 from fun h => hg (Fin.ext h)), mul_zero]
  · intro h; exact absurd (Finset.mem_univ _) h

/-- Entry (b, r) of the value stored at a reduction step, for a one-hot expansion block E. -/
theorem pay2_apply (s z : Vec Ideal S128x128 .f32) (E : Vec Ideal S128x2048 .bf16) (w : Vec Ideal S128x2048 .i32)
    (x : Vec Ideal S10x2048 .f32) (acc : Vec Ideal S10x128 .f32)
    (hE : ∀ (g : Fin 128) (n : Fin 2048), E (ix2 g n) = if g.val = n.val / 16 then (1 : EReal) else 0)
    (b : Fin 10) (r : Fin 128) :
    k0_pay2 (F := Ideal) s z E w x acc (ix2 b r)
      = acc (ix2 b r) + ∑ n : Fin 2048, x (ix2 b n)
          * ((((BitVec.toInt (w (ix2 r n)) : ℝ) : EReal) - z (ix2 r (grp128 n))) * s (ix2 r (grp128 n))) := by
  unfold k0_pay2
  -- the shape casts keep the shape, so they are the identity
  simp only [shapeCast_self]
  -- the outer product, entry (b, r): acc[b, r] + Σ_n x[b, n] · wd[r, n]
  rw [addf_apply, mmB_apply]
  refine congrArg (acc (ix2 b r) + ·) (Finset.sum_congr rfl fun n _ => ?_)
  -- wd[r, n] = (w[r, n] − (z E)[r, n]) · (s E)[r, n], the two expansions being sums over the groups
  rw [truncf_apply, truncf_apply, mulf_apply, subf_apply, mmA_apply, mmA_apply, sitofp_apply]
  simp only [truncf_apply]
  -- each expansion keeps the one group n / 16
  rw [onehot_sum (fun g => z (ix2 r g)) E hE n, onehot_sum (fun g => s (ix2 r g)) E hE n]
  rfl

end Cert.KernelIdeal.Spec

end
-- ==== Proof.DenseHost.lean ====
/-
  What the host operations before the pallas call leave in the arrays the call's windows stage, at the ideal values:
  the activations reshaped to 10 x 8192; the per-row scale and zero arrays (8192 x 512) by the two-level dequantisation
  (q − zz) · ss, with zz and ss (512 x 512) repeated over the 16 rows of a row group; and the one-hot expansion matrix
  E (128 x 2048): E[g, n] = 1 iff n / 16 = g, computed as the comparison of a row iota with the column iota
  floor-divided by 16 (on these non-negative columns the floor division's sign correction never fires).
-/
import proofs.«410663_j33251636806448_3_alg».proof.Proof.DenseLaunch
import Idealize.ShloMosaic.Lib.ValueIdx
import Idealize.ShloMosaic.Lib.Pipeline.Value
import Idealize.ShloMosaic.Lib.StableHlo.Run
import Idealize.ShloMosaic.Lib.StableHlo.Predicate

set_option maxRecDepth 16384

noncomputable section

namespace Cert.KernelIdeal.Dense

open Cert.KernelIdeal.Gen
open Idealize.ShloMosaic Idealize.ShloMosaic.TcCoe Idealize.ShloMosaic.ValueIdx Idealize.SL.Sem

/-- The two-level dequantisation of a scale (or zero) array: the quantised codes q (8192 x 512) as numbers, minus zz,
    times ss, where zz and ss (512 x 512) are repeated over the 16 rows of each row group. -/
def scaleOf {F : FTy → Type} [FloatOps F] (q : Vec F S8192x512 .i32) (zz ss : FVec F S512x512 .f32) : FVec F S8192x512 .f32 :=
  shapeCast S8192x512
    (mulf (subf (shapeCast S512x16x512 (sitofp .f32 q : FVec F S8192x512 .f32) shapeCasts_S8192x512_S512x16x512)
            (broadcastInDim S512x16x512 ![0, 1, 2] bcast_S512x1x512_S512x16x512_0_1_2 (broadcastInDim S512x1x512 ![0, 2] bcast_S512x512_S512x1x512_0_2 zz)))
      (broadcastInDim S512x16x512 ![0, 1, 2] bcast_S512x1x512_S512x16x512_0_1_2 (broadcastInDim S512x1x512 ![0, 2] bcast_S512x512_S512x1x512_0_2 ss)))
    shapeCasts_S512x16x512_S8192x512

variable (m : (ℓ : Loc nD τ sig) → Buf (Elt Ideal) ℓ)

/-- The activations as the call finds them: the argument reshaped to 10 x 8192. -/
theorem X_eq (c : Dev nD) :
    (V (F := Ideal) m c main_v0 : S10x8192.Idx → EReal)
      = shapeCast S10x8192 (m ((c : Thread nD τ).loc main_arg0) : S1x10x8192.Idx → EReal) shapeCasts_S1x10x8192_S10x8192 := by
  dsimp only [V, V0]
  simp only [hostOps0, hostOps0_1, hostOps0_2, List.flatten_cons, List.flatten_nil, List.append_nil, List.cons_append, List.nil_append]
  after_results_simp
  rfl

/-- The scales as the call finds them. -/
theorem S_eq (c : Dev nD) :
    (V (F := Ideal) m c main_v17 : S8192x512.Idx → EReal)
      = scaleOf (F := Ideal) (m ((c : Thread nD τ).loc main_arg2)) (m ((c : Thread nD τ).loc main_arg5)) (m ((c : Thread nD τ).loc main_arg4)) := by
  dsimp only [V, V0]
  simp only [hostOps0, hostOps0_1, hostOps0_2, List.flatten_cons, List.flatten_nil, List.append_nil, List.cons_append, List.nil_append]
  after_results_simp
  unfold scaleOf
  rfl

/-- The zeros as the call finds them. -/
theorem Z_eq (c : Dev nD) :
    (V (F := Ideal) m c main_v18 : S8192x512.Idx → EReal)
      = scaleOf (F := Ideal) (m ((c : Thread nD τ).loc main_arg3)) (m ((c : Thread nD τ).loc main_arg7)) (m ((c : Thread nD τ).loc main_arg6)) := by
  dsimp only [V, V0]
  simp only [hostOps0, hostOps0_1, hostOps0_2, List.flatten_cons, List.flatten_nil, List.append_nil, List.cons_append, List.nil_append]
  after_results_simp
  unfold scaleOf
  rfl

/-! ## The expansion matrix -/

/-- The sign of a 32-bit word read as a two's-complement integer: 0, -1 or 1. -/
def hostSgnW (x : BitVec 32) : BitVec 32 := if x = 0 then 0 else if x.msb then -1 else 1

/-- On a column number n < 2048 the floor division by 16 is the quotient n / 16: the signed quotient of two small
    non-negative words is the quotient of their values, and the correction (taken when the signs differ and the
    remainder is not zero) is never taken: a positive n has 16's sign, and n = 0 leaves no remainder. -/
theorem hostFloorDiv16_word (n : ℕ) (hn : n < 2048) :
    Scalar.select
        (IntOp.andi (IntOp.cmpi .ne (hostSgnW (BitVec.ofNat 32 n)) (hostSgnW 16#32))
          (IntOp.cmpi .ne (IntOp.remsi .host (BitVec.ofNat 32 n) 16#32) 0#32))
        (IntOp.subi (IntOp.divsi .host (BitVec.ofNat 32 n) 16#32) 1#32)
        (IntOp.divsi .host (BitVec.ofNat 32 n) 16#32)
      = BitVec.ofNat 32 (n / 16) := by
  have hcorner : ¬ IntOp.SDivCorner (BitVec.ofNat 32 n) 16#32 := by
    intro hc; rcases hc with hc | ⟨_, hc⟩ <;> exact absurd hc (by decide)
  have htn : (BitVec.ofNat 32 n).toNat = n := by
    rw [BitVec.toNat_ofNat]; exact Nat.mod_eq_of_lt (by omega)
  have hm : (BitVec.ofNat 32 n).msb = false := BitVec.msb_eq_false_iff_two_mul_lt.mpr (by rw [htn]; omega)
  have h16 : (16#32 : BitVec 32).msb = false := by decide
  have hq : IntOp.divsi .host (BitVec.ofNat 32 n) 16#32 = BitVec.ofNat 32 (n / 16) := by
    apply BitVec.eq_of_toNat_eq
    simp only [IntOp.divsi, if_neg hcorner, BitVec.sdiv_eq, hm, h16, BitVec.udiv_eq, BitVec.toNat_udiv, htn, BitVec.toNat_ofNat,
      Nat.reducePow, Nat.reduceMod]
    omega
  have hr : IntOp.remsi .host (BitVec.ofNat 32 n) 16#32 = BitVec.ofNat 32 (n % 16) := by
    apply BitVec.eq_of_toNat_eq
    simp only [IntOp.remsi, if_neg hcorner, BitVec.srem_eq, hm, h16, BitVec.umod_eq, BitVec.toNat_umod, htn, BitVec.toNat_ofNat,
      Nat.reducePow, Nat.reduceMod]
    omega
  have hcond : IntOp.andi (IntOp.cmpi .ne (hostSgnW (BitVec.ofNat 32 n)) (hostSgnW 16#32))
          (IntOp.cmpi .ne (IntOp.remsi .host (BitVec.ofNat 32 n) 16#32) 0#32) = 0#1 := by
    rcases Nat.eq_zero_or_pos n with rfl | hpos
    · rw [hr]; decide
    · have hne : BitVec.ofNat 32 n ≠ 0 := by
        intro h0; have := congrArg BitVec.toNat h0; rw [htn] at this; simp at this; omega
      have hs : hostSgnW (BitVec.ofNat 32 n) = hostSgnW 16#32 := by
        unfold hostSgnW; rw [if_neg hne, hm]; decide
      rw [hs]
      have : IntOp.cmpi .ne (hostSgnW 16#32) (hostSgnW 16#32) = 0#1 := by decide
      rw [this]; unfold IntOp.andi; simp
  rw [hcond, select_zero, hq]

/-- The column number floor-divided by 16, as the host program computes it (128 x 2048 words): the signed quotient,
    less one where the signs of the column number and of 16 differ and the remainder is not zero. -/
def fdiv16 : IVec S128x2048 32 :=
  select
    (andi
      (cmpi .ne (signi (iotaInDim S128x2048 32 1))
        (broadcastInDim S128x2048 ![] bcast_S_S128x2048 (signi (id (constantI S_ 32 16#32)))))
      (cmpi .ne
        (Host.remsi (iotaInDim S128x2048 32 1) (broadcastInDim S128x2048 ![] bcast_S_S128x2048 (id (constantI S_ 32 16#32))))
        (broadcastInDim S128x2048 ![] bcast_S_S128x2048 (constantI S_ 32 0#32))))
    (subi (Host.divsi (iotaInDim S128x2048 32 1) (broadcastInDim S128x2048 ![] bcast_S_S128x2048 (id (constantI S_ 32 16#32))))
      (broadcastInDim S128x2048 ![] bcast_S_S128x2048 (constantI S_ 32 1#32)))
    (Host.divsi (iotaInDim S128x2048 32 1) (broadcastInDim S128x2048 ![] bcast_S_S128x2048 (id (constantI S_ 32 16#32))))

/-- Entry (g, n) of the floor-divided column numbers is the word of n / 16. -/
theorem fdiv16_apply (g : Fin 128) (n : Fin 2048) : fdiv16 (ix2 g n) = BitVec.ofNat 32 (n.val / 16) :=
  (show fdiv16 (ix2 g n) = Scalar.select
        (IntOp.andi (IntOp.cmpi .ne (hostSgnW (BitVec.ofNat 32 n.val)) (hostSgnW 16#32))
          (IntOp.cmpi .ne (IntOp.remsi .host (BitVec.ofNat 32 n.val) 16#32) 0#32))
        (IntOp.subi (IntOp.divsi .host (BitVec.ofNat 32 n.val) 16#32) 1#32)
        (IntOp.divsi .host (BitVec.ofNat 32 n.val) 16#32) from rfl).trans (hostFloorDiv16_word n.val n.isLt)

/-- A bit read as a number at the ideal values: 1 when set, 0 otherwise. -/
theorem hostBit_toEReal (b : BitVec 1) : (((b.toNat : ℝ)) : EReal) = if b = 1#1 then (1 : EReal) else 0 := by
  rcases BitVec.eq_zero_or_eq_one b with rfl | rfl
  · simp
  · simp

set_option maxHeartbeats 4000000 in
/-- The expansion matrix as the call finds it: the bit "row number = column number floor-divided by 16", as a number. -/
theorem E_eq (c : Dev nD) :
    @Eq (S128x2048.Idx → EReal) (V (F := Ideal) m c main_v23)
      (uitofp (F := Ideal) .bf16 (cmpi .eq (iotaInDim S128x2048 32 0) fdiv16)) := by
  dsimp only [V, V0]
  simp only [hostOps0, hostOps0_1, hostOps0_2, List.flatten_cons, List.flatten_nil, List.append_nil, List.cons_append, List.nil_append]
  after_results_simp
  rfl

/-- The expansion matrix as the call finds it is one-hot: entry (g, n) is 1 when column n lies in group g, else 0. -/
theorem E_apply (c : Dev nD) (g : Fin 128) (n : Fin 2048) :
    (V (F := Ideal) m c main_v23 : S128x2048.Idx → EReal) (ix2 g n) = if g.val = n.val / 16 then (1 : EReal) else 0 := by
  rw [E_eq m c]
  show ((((IntOp.cmpi .eq (BitVec.ofNat 32 g.val) (fdiv16 (ix2 g n))).toNat : ℝ)) : EReal) = _
  rw [fdiv16_apply, hostBit_toEReal]
  have hiff : IntOp.cmpi .eq (BitVec.ofNat 32 g.val) (BitVec.ofNat 32 (n.val / 16)) = 1#1 ↔ g.val = n.val / 16 := by
    rw [StableHlo.Predicate.cmpi_eq_iff]
    constructor
    · intro h
      have := congrArg BitVec.toNat h
      simp only [BitVec.toNat_ofNat] at this
      have hg := g.isLt; have hn := n.isLt
      omega
    · intro h; rw [h]
  by_cases h : g.val = n.val / 16
  · rw [if_pos (hiff.mpr h), if_pos h]
  · rw [if_neg (fun h' => h (hiff.mp h')), if_neg h]

end Cert.KernelIdeal.Dense

end
-- ==== Proof.DenseAccum.lean ====
/-
  The accumulator of the sparse-quantized matmul across the grid, as numbers. At grid point t = 4 a + j the body adds to
  the accumulator the partial product of reduction step j of output block a: entry (b, r) of it is the sum over the 2048
  columns n of the step of x[b, n] · ((w[r, n] − z[r, n / 16]) · s[r, n / 16]) on the point's blocks (the expansion matrix
  is one-hot, so the two expansion products select column group n / 16). The accumulator after point n is therefore
  0 + (the partial products of the steps of n's output block up to n's own), by induction on the point; at step 3 the
  output window's buffer holds the same.
-/
import proofs.«410663_j33251636806448_3_alg».proof.Proof.DenseSteps
import proofs.«410663_j33251636806448_3_alg».proof.Proof.DenseBlocks
import proofs.«410663_j33251636806448_3_alg».proof.Proof.DenseSpec
import proofs.«410663_j33251636806448_3_alg».proof.Proof.DenseHost

set_option maxRecDepth 16384

noncomputable section

namespace Cert.KernelIdeal.Dense

open Cert.KernelIdeal.Gen Cert.KernelIdeal.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Entry (b, r) of the partial product of the reduction step at grid point t, on the point's blocks. -/
def stepSum (c : Dev nD) (t : Fin cfg0.N) (b : Fin 10) (r : Fin 128) : EReal :=
  ∑ n : Fin 2048, xblk m c t (ix2 b n)
    * ((((BitVec.toInt (wblk m c t (ix2 r n)) : ℝ) : EReal) - zblk m c t (ix2 r (grp128 n))) * sblk m c t (ix2 r (grp128 n)))

/-- The same at a position that is a grid point (and 0 elsewhere). -/
def stepAt (c : Dev nD) (n : ℕ) (b : Fin 10) (r : Fin 128) : EReal :=
  if h : n < cfg0.N then stepSum m c ⟨n, h⟩ b r else 0

/-- The accumulator after position n: reset at reduction step 0, else continued from position n - 1. -/
def accAfter (c : Dev nD) : ℕ → Fin 10 → Fin 128 → EReal
  | 0, b, r => 0 + stepAt m c 0 b r
  | n + 1, b, r => (if (n + 1) % 4 = 0 then 0 else accAfter c n b r) + stepAt m c (n + 1) b r

/-- The expansion block the body is handed is one-hot at every point. -/
theorem eblk_onehot (c : Dev nD) (t : Fin cfg0.N) (g : Fin 128) (n : Fin 2048) :
    eblk m c t (ix2 g n) = if g.val = n.val / 16 then (1 : EReal) else 0 :=
  (eblk_apply m c t g n).trans (E_apply m c g n)

/-- The value the body stores at point t over an accumulator `acc`: `acc` plus the point's partial product. -/
theorem stored_apply (c : Dev nD) (t : Fin cfg0.N) (acc : Vec Ideal S10x128 .f32) (b : Fin 10) (r : Fin 128) :
    k0_pay2 (F := Ideal) (iblk m c 2 t) (iblk m c 3 t) (iblk m c 4 t) (iblk m c 1 t) (iblk m c 0 t) acc (ix2 b r)
      = acc (ix2 b r) + stepSum m c t b r :=
  pay2_apply (sblk m c t) (zblk m c t) (eblk m c t) (wblk m c t) (xblk m c t) acc (eblk_onehot m c t) b r

/-- The accumulator after every point, by induction on the point. -/
theorem acc_eq (c : Dev nD) : ∀ (n : ℕ) (h : n < cfg0.N) (b : Fin 10) (r : Fin 128),
    (outsAt0 m c n h).2 (ix2 b r) = accAfter m c n b r
  | 0, h, b, r => by
    rw [outsAt0_A m c ⟨0, h⟩ rfl (show ¬ (0 % 4 = 3) by decide)]
    dsimp only
    refine (congrFun (acc_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩)) (ix2 b r)).trans ?_
    refine (stored_apply m c ⟨0, h⟩ _ b r).trans ?_
    rw [pay1_apply]
    show 0 + stepSum m c ⟨0, h⟩ b r = 0 + stepAt m c 0 b r
    rw [stepAt, dif_pos h]
  | n + 1, h, b, r => by
    have ih := acc_eq c n (Nat.lt_of_succ_lt h) b r
    by_cases h0 : (n + 1) % 4 = 0
    · have h1 : ¬ (n + 1) % 4 = 3 := by omega
      rw [outsAt0_A m c ⟨n + 1, h⟩ h0 h1]
      dsimp only
      refine (congrFun (acc_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩)) (ix2 b r)).trans ?_
      refine (stored_apply m c ⟨n + 1, h⟩ _ b r).trans ?_
      rw [pay1_apply]
      show 0 + stepSum m c ⟨n + 1, h⟩ b r = (if (n + 1) % 4 = 0 then 0 else accAfter m c n b r) + stepAt m c (n + 1) b r
      rw [if_pos h0, stepAt, dif_pos h]
    · by_cases h1 : (n + 1) % 4 = 3
      · rw [outsAt0_C m c ⟨n + 1, h⟩ h0 h1]
        dsimp only
        refine (congrFun (acc_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _) (ix2 b r)).trans ?_
        refine (stored_apply m c ⟨n + 1, h⟩ _ b r).trans ?_
        show (outsAt0 m c n _).2 (ix2 b r) + stepSum m c ⟨n + 1, h⟩ b r = (if (n + 1) % 4 = 0 then 0 else accAfter m c n b r) + stepAt m c (n + 1) b r
        rw [if_neg h0, stepAt, dif_pos h, ih]
      · rw [outsAt0_B m c ⟨n + 1, h⟩ h0 h1]
        dsimp only
        refine (congrFun (acc_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _) (ix2 b r)).trans ?_
        refine (stored_apply m c ⟨n + 1, h⟩ _ b r).trans ?_
        show (outsAt0 m c n _).2 (ix2 b r) + stepSum m c ⟨n + 1, h⟩ b r = (if (n + 1) % 4 = 0 then 0 else accAfter m c n b r) + stepAt m c (n + 1) b r
        rw [if_neg h0, stepAt, dif_pos h, ih]

/-- At reduction step 3 the output window's buffer holds the accumulator's final value. -/
theorem out_eq (c : Dev nD) : ∀ (n : ℕ) (h : n < cfg0.N) (h3 : n % 4 = 3) (b : Fin 10) (r : Fin 128),
    (outsAt0 m c n h).1 (ix2 b r) = accAfter m c n b r
  | 0, h, h3, b, r => by omega
  | n + 1, h, h3, b, r => by
    have h0 : ¬ (n + 1) % 4 = 0 := by omega
    rw [outsAt0_C m c ⟨n + 1, h⟩ h0 h3]
    dsimp only
    refine (congrFun (out_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _) (ix2 b r)).trans ?_
    refine (stored_apply m c ⟨n + 1, h⟩ _ b r).trans ?_
    show (outsAt0 m c n _).2 (ix2 b r) + stepSum m c ⟨n + 1, h⟩ b r = (if (n + 1) % 4 = 0 then 0 else accAfter m c n b r) + stepAt m c (n + 1) b r
    rw [if_neg h0, stepAt, dif_pos h, acc_eq m c n (Nat.lt_of_succ_lt h) b r]

/-- One unfolding of the accumulator's recursion, uniformly in the position. -/
theorem accAfter_eq (c : Dev nD) (n : ℕ) (b : Fin 10) (r : Fin 128) :
    accAfter m c n b r = (if n % 4 = 0 then 0 else accAfter m c (n - 1) b r) + stepAt m c n b r := by
  cases n with
  | zero => show 0 + stepAt m c 0 b r = _; rw [if_pos (by rfl)]
  | succ n => rfl

/-- After reduction step 3 of output block a the accumulator is 0 plus the four steps' partial products, in order. -/
theorem acc_last (c : Dev nD) (a : ℕ) (b : Fin 10) (r : Fin 128) :
    accAfter m c (4 * a + 3) b r
      = (((0 + stepAt m c (4 * a) b r) + stepAt m c (4 * a + 1) b r) + stepAt m c (4 * a + 2) b r) + stepAt m c (4 * a + 3) b r := by
  rw [accAfter_eq m c (4 * a + 3), if_neg (by omega), show 4 * a + 3 - 1 = 4 * a + 2 from rfl,
    accAfter_eq m c (4 * a + 2), if_neg (by omega), show 4 * a + 2 - 1 = 4 * a + 1 from rfl,
    accAfter_eq m c (4 * a + 1), if_neg (by omega), show 4 * a + 1 - 1 = 4 * a from rfl,
    accAfter_eq m c (4 * a), if_pos (by omega)]

end Cert.KernelIdeal.Dense

end
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.DenseResult.lean ====
/-
  The dense product the pallas call leaves in its result array, as one function of the arrays the call finds:
  entry (b, R) is the sum over all 8192 columns N of x[b, N] · ((W[R, N] − z[R, N / 16]) · s[R, N / 16]).

  Output block a (columns 128 a … 128 a + 127 of the 10 x 8192 result) is written back once, at grid point 4 a + 3, from
  the accumulator, which then holds 0 plus the four reduction steps' partial products; step j covers columns
  2048 j … 2048 j + 2047, so the four partial sums are the sum over all 8192 columns cut into four tiles. Every entry
  of the result lies in exactly such a block, so the array ends at that function.
-/
import proofs.«410663_j33251636806448_3_alg».proof.Proof.DenseAccum
import proofs.«410663_j33251636806448_3_alg».proof.Proof.LibTileSum

set_option maxRecDepth 16384

noncomputable section

namespace Cert.KernelIdeal.Dense

open Cert.KernelIdeal.Gen Cert.KernelIdeal.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- One term of the row-by-column sum: column N's activation times the dequantised weight at (R, N). -/
def term (c : Dev nD) (b : Fin 10) (R : Fin 8192) (N : Fin 8192) : EReal :=
  Xa m c (ix2 b N) * ((((BitVec.toInt (Wa m c (ix2 R N)) : ℝ) : EReal) - Za m c (ix2 R ⟨N.val / 16, by omega⟩)) * Sa m c (ix2 R ⟨N.val / 16, by omega⟩))

/-- Entry (b, R) of the dense product. -/
def denseAt (c : Dev nD) (b : Fin 10) (R : Fin 8192) : EReal := ∑ N : Fin 8192, term m c b R N

/-- The dense product as an array. -/
def denseK (c : Dev nD) : S10x8192.Idx → EReal := fun i => denseAt m c ⟨(i 0).val, (i 0).isLt⟩ ⟨(i 1).val, (i 1).isLt⟩

theorem denseK_ix2 (c : Dev nD) (b : Fin 10) (R : Fin 8192) : denseK m c (ix2 b R) = denseAt m c b R := rfl

/-- The partial product of the step at point t, on the arrays: the point's 2048 columns of row 128 (t / 4) + r. -/
theorem stepSum_eq (c : Dev nD) (t : Fin cfg0.N) (b : Fin 10) (r : Fin 128) :
    stepSum m c t b r = ∑ n : Fin 2048, term m c b ⟨128 * (t.val / 4) + r.val, by have := t_lt t; omega⟩ ⟨2048 * (t.val % 4) + n.val, by omega⟩ := by
  unfold stepSum term
  refine Finset.sum_congr rfl fun n _ => ?_
  rw [xblk_apply, wblk_apply, zblk_apply, sblk_apply]
  have hg : (⟨128 * (t.val % 4) + (grp128 n).val, by have := (grp128 n).isLt; omega⟩ : Fin 512)
      = ⟨(2048 * (t.val % 4) + n.val) / 16, by omega⟩ := Fin.ext (by show 128 * (t.val % 4) + n.val / 16 = (2048 * (t.val % 4) + n.val) / 16; omega)
  rw [hg]

/-- The same at a position 4 a + j of output block a < 64. -/
theorem stepAt_eq (c : Dev nD) (a : ℕ) (ha : a < 64) (j : ℕ) (hj : j < 4) (b : Fin 10) (r : Fin 128) :
    stepAt m c (4 * a + j) b r = ∑ n : Fin 2048, term m c b ⟨128 * a + r.val, by omega⟩ ⟨2048 * j + n.val, by omega⟩ := by
  have hN : 4 * a + j < cfg0.N := lt_of_lt_of_eq (by omega) (show cfg0.N = 256 from N_0).symm
  rw [stepAt, dif_pos hN, stepSum_eq]
  refine Finset.sum_congr rfl fun n _ => ?_
  have h1 : (⟨128 * ((⟨4 * a + j, hN⟩ : Fin cfg0.N).val / 4) + r.val, by have := t_lt ⟨4 * a + j, hN⟩; omega⟩ : Fin 8192) = ⟨128 * a + r.val, by omega⟩ :=
    Fin.ext (by show 128 * ((4 * a + j) / 4) + r.val = 128 * a + r.val; omega)
  have h2 : (⟨2048 * ((⟨4 * a + j, hN⟩ : Fin cfg0.N).val % 4) + n.val, by omega⟩ : Fin 8192) = ⟨2048 * j + n.val, by omega⟩ :=
    Fin.ext (by show 2048 * ((4 * a + j) % 4) + n.val = 2048 * j + n.val; omega)
  rw [h1, h2]

/-- The sum over all 8192 columns is the four tiles' sums, in order. -/
theorem denseAt_tiles (c : Dev nD) (b : Fin 10) (R : Fin 8192) :
    denseAt m c b R
      = (((∑ n : Fin 2048, term m c b R ⟨2048 * 0 + n.val, by omega⟩) + ∑ n : Fin 2048, term m c b R ⟨2048 * 1 + n.val, by omega⟩)
          + ∑ n : Fin 2048, term m c b R ⟨2048 * 2 + n.val, by omega⟩) + ∑ n : Fin 2048, term m c b R ⟨2048 * 3 + n.val, by omega⟩ := by
  unfold denseAt
  rw [show (∑ N : Fin 8192, term m c b R N) = ∑ k : Fin (4 * 2048), term m c b R ⟨k.val, k.isLt⟩ from rfl,
    Cert.Lib.TileSum.sum_tiles 4 2048, Fin.sum_univ_four]
  have e : ∀ (j : ℕ) (hj : j < 4), (∑ e : Fin 2048, term m c b R ⟨(⟨j * 2048 + e.val, by omega⟩ : Fin (4 * 2048)).val, by omega⟩)
      = ∑ n : Fin 2048, term m c b R ⟨2048 * j + n.val, by omega⟩ := fun j hj =>
    Finset.sum_congr rfl fun n _ => congrArg (term m c b R) (Fin.ext (by show j * 2048 + n.val = 2048 * j + n.val; omega))
  exact congrArg₂ (· + ·) (congrArg₂ (· + ·) (congrArg₂ (· + ·) (e 0 (by omega)) (e 1 (by omega))) (e 2 (by omega))) (e 3 (by omega))

/-- After reduction step 3 of output block a the accumulator holds the dense product's entries of that block. -/
theorem acc_dense (c : Dev nD) (a : ℕ) (ha : a < 64) (b : Fin 10) (r : Fin 128) :
    accAfter m c (4 * a + 3) b r = denseAt m c b ⟨128 * a + r.val, by omega⟩ := by
  rw [acc_last, denseAt_tiles, zero_add]
  rw [show 4 * a = 4 * a + 0 from rfl, stepAt_eq m c a ha 0 (by omega), stepAt_eq m c a ha 1 (by omega),
    stepAt_eq m c a ha 2 (by omega), stepAt_eq m c a ha 3 (by omega)]

/-! ## The result array -/

theorem xs5 : ∀ t : Fin cfg0.N, win0_5.xsize (grid0.coords t) 0 = 10 ∧ win0_5.xsize (grid0.coords t) 1 = 128 :=
  (by decide +kernel : ∀ t : Fin grid0.N, win0_5.xsize (grid0.coords t) 0 = 10 ∧ win0_5.xsize (grid0.coords t) 1 = 128)

/-- What the write-back at grid point t = 4 a + 3 writes is block a of the dense product. -/
theorem flushed_eq (c : Dev nD) (t : Fin cfg0.N) (hf : (cfg0.win 5).flush t = true) :
    (dats m 0 c).flushed 5 t = ((cfg0.win 5).blk t).view.read (Elt Ideal) (denseK m c) := by
  have h3 : t.val % 4 = 3 := (flush0_5 t).mp hf
  have hN := t_lt t
  funext y
  obtain ⟨b, r, rfl⟩ : ∃ (b : Fin 10) (r : Fin 128), y = ix2 b r := ⟨y 0, y 1, eq_ix2 y⟩
  rw [View.read_apply]
  show (dats m 0 c).after 5 t ((cfg0.win 5).xinj (grid0.coords t) (ix2 b r)) = denseK m c _
  rw [after0_5]
  have hx : (cfg0.win 5).xinj (grid0.coords t) (ix2 b r) = (ix2 b r : S10x128.Idx) := funext fun a => Fin.ext rfl
  have he : (((cfg0.win 5).blk t).view.emb (ix2 b r) : S10x8192.Idx) = ix2 b ⟨128 * (t.val / 4) + r.val, by omega⟩ := by
    funext a
    apply Fin.ext
    match a with
    | ⟨0, _⟩ => show win0_5.index t 0 * 10 + 1 * b.val = b.val; rw [(idx5 t).1]; omega
    | ⟨1, _⟩ => show win0_5.index t 1 * 128 + 1 * r.val = 128 * (t.val / 4) + r.val; rw [(idx5 t).2]; omega
  rw [hx, he, denseK_ix2, out_eq m c t.val t.isLt h3 b r]
  obtain ⟨a, ha⟩ : ∃ a, t.val = 4 * a + 3 := ⟨t.val / 4, by omega⟩
  have ha64 : a < 64 := by omega
  have key := acc_dense m c a ha64 b r
  rw [← ha] at key
  exact key.trans (congrArg (denseAt m c b) (Fin.ext (by show 128 * a + r.val = 128 * (t.val / 4) + r.val; omega)))

/-- The result array ends at the dense product: column R lies in block R / 128, written back at point 4 (R / 128) + 3. -/
theorem final (c : Dev nD) : (dats m 0 c).arrAt 5 cfg0.N = denseK m c :=
  (dats m 0 c).arrAt_eq_of_cover 5 (denseK m c) (flushed_eq m c) fun i => by
    have h0 : (i 0 : Nat) < 10 := (i 0).isLt
    have h1 : (i 1 : Nat) < 8192 := (i 1).isLt
    have hN : 4 * ((i 1 : Nat) / 128) + 3 < cfg0.N := lt_of_lt_of_eq (by omega) (show cfg0.N = 256 from N_0).symm
    refine ⟨⟨4 * ((i 1 : Nat) / 128) + 3, hN⟩, (flush0_5 _).mpr (by show (4 * ((i 1 : Nat) / 128) + 3) % 4 = 3; omega), ?_⟩
    show i ∈ ((View.whole main_v24).slice (win0_5.rect ⟨4 * ((i 1 : Nat) / 128) + 3, hN⟩)).set
    rw [View.set_slice_whole, Rect.mem_set_unit]
    intro a
    match a with
    | ⟨0, _⟩ =>
      show win0_5.index ⟨_, hN⟩ 0 * win0_5.size 0 ≤ (i 0 : Nat) ∧ (i 0 : Nat) < win0_5.index ⟨_, hN⟩ 0 * win0_5.size 0 + win0_5.xsize (grid0.coords ⟨_, hN⟩) 0
      rw [(idx5 _).1, (xs5 _).1]; omega
    | ⟨1, _⟩ =>
      show win0_5.index ⟨_, hN⟩ 1 * win0_5.size 1 ≤ (i 1 : Nat) ∧ (i 1 : Nat) < win0_5.index ⟨_, hN⟩ 1 * win0_5.size 1 + win0_5.xsize (grid0.coords ⟨_, hN⟩) 1
      rw [(idx5 _).2, (xs5 _).2]
      show (4 * ((i 1 : Nat) / 128) + 3) / 4 * 128 ≤ (i 1 : Nat) ∧ (i 1 : Nat) < (4 * ((i 1 : Nat) / 128) + 3) / 4 * 128 + 128
      omega

end Cert.KernelIdeal.Dense

end
-- ==== Proof.DenseOut.lean ====
/-
  The result of the idealized kernel program, named. After the pallas call the program computes the CSR outlier
  correction from the activations, the row offsets, the column ids and the outlier values, adds it to the call's
  result array, and reshapes the sum to 1 x 10 x 8192. The call's result array holds the dense product, the operations
  after the call leave it alone until the final addition, so the program's result is the reshape of (dense product +
  outlier correction), the correction being what those operations compute from the buffers as the call leaves them.
-/
import proofs.«410663_j33251636806448_3_alg».proof.Proof.DenseResult
import Idealize.ShloMosaic.Lib.StableHlo.Run

set_option maxRecDepth 65536

noncomputable section

namespace Cert.KernelIdeal.Dense

open Cert.KernelIdeal.Gen Cert.KernelIdeal.Spec
open Idealize.ShloMosaic Idealize.ShloMosaic.TcCoe Idealize.ShloMosaic.ValueIdx Idealize.SL.Sem
open Idealize.ShloMosaic.Pipeline (Dat)

/-- Running a line of host operations in two parts. -/
theorem after_append {F : FTy → Type} [FloatOps F] (l1 l2 : List (HloOp τ sig (Elt F))) (W : Valuation τ sig (Elt F)) :
    StableHlo.after (l1 ++ l2) W = StableHlo.after l2 (StableHlo.after l1 W) := by
  induction l1 generalizing W with
  | nil => rfl
  | cons op l ih => simp only [List.cons_append, StableHlo.after_cons, ih]

variable (m : (ℓ : Loc nD τ sig) → Buf (Elt Ideal) ℓ) (ρ : Dev nD → PrngReg)

/-- The buffers as the call leaves them: the windows' arrays at what the pipeline wrote back, the others as entered. -/
abbrev Wx (c : Dev nD) : Valuation τ sig (Elt Ideal) :=
  Pipeline.withArrays spec0 c (V0 m c) fun w => (dats m 0 c).arrAt w cfg0.N

/-- The operations after the call. -/
abbrev tailAll : List (HloOp τ sig (Elt Ideal)) := List.flatten [hostOps1, hostOps1_1, hostOps1_2, hostOps1_3, hostOps1_4, hostOps1_5, hostOps1_6, hostOps1_7, hostOps1_8, hostOps1_9]
/-- All of them but the final addition and reshape, -/
abbrev tailPre : List (HloOp τ sig (Elt Ideal)) := List.flatten [hostOps1, hostOps1_1, hostOps1_2, hostOps1_3, hostOps1_4, hostOps1_5, hostOps1_6, hostOps1_7, hostOps1_8] ++ List.take 18 hostOps1_9
/-- and those two. -/
abbrev tailEnd : List (HloOp τ sig (Elt Ideal)) := List.drop 18 hostOps1_9

theorem tail_split : (tailAll : List (HloOp τ sig (Elt Ideal))) = tailPre ++ tailEnd := by
  simp only [tailAll, tailPre, tailEnd, List.flatten_cons, List.flatten_nil, List.append_nil, List.append_assoc, List.take_append_drop]

theorem tailEnd_eq : (tailEnd : List (HloOp τ sig (Elt Ideal)))
    = [StableHlo.binary main_v24 main_v58 main_v59 (addf (F := Ideal) : FVec Ideal S10x8192 .f32 → FVec Ideal S10x8192 .f32 → FVec Ideal S10x8192 .f32),
       StableHlo.reshape main_v59 main_v60 rfl Facts₀.shapeCasts_S10x8192_S1x10x8192] := rfl

/-- The outlier correction as the program computes it from the buffers the call leaves. -/
def tailK (c : Dev nD) : S10x8192.Idx → EReal := StableHlo.after tailAll (Wx m c) (Proc.devRef .tc main_v58)

/-- The program's result. -/
def resultK (c : Dev nD) : S1x10x8192.Idx → EReal :=
  shapeCast S1x10x8192 (addf (F := Ideal) (denseK m c : FVec Ideal S10x8192 .f32) (tailK m c : FVec Ideal S10x8192 .f32) : FVec Ideal S10x8192 .f32) shapeCasts_S10x8192_S1x10x8192

/-- The operations before the final addition write only buffers numbered 53 or more. -/
theorem tailPre_writes : (tailPre : List (HloOp τ sig (Elt Ideal))).Forall
    fun op => ∀ b : Ref sig .tc, Proc.devRef (τ := τ) .tc b ∈ op.writes → 53 ≤ b.idx.val :=
  List.forall_iff_forall_mem.mpr fun op hop =>
    (List.forall_iff_forall_mem.mp (tail_writes (F := Ideal))) op (by
      have : op ∈ (tailPre ++ tailEnd : List (HloOp τ sig (Elt Ideal))) := List.mem_append_left _ hop
      rwa [← tail_split] at this)

/-- The call's result array reaches the final addition as the call left it: at the dense product. -/
theorem dense_kept (c : Dev nD) :
    (StableHlo.after tailPre (Wx m c) (Proc.devRef .tc main_v24) : S10x8192.Idx → EReal) = denseK m c := by
  rw [after_low_kept _ _ tailPre_writes (by decide)]
  exact (Pipeline.withArrays_arr spec0 launch0.win.arr_inj c _ _ 5).trans (final m c)

/-- What the program leaves in its result buffer. -/
theorem out_value (c : Dev nD) :
    (Pipeline.afterTail₀ cfgs (dats m) 0 (V0 m) [hostOps1, hostOps1_1, hostOps1_2, hostOps1_3, hostOps1_4, hostOps1_5, hostOps1_6, hostOps1_7, hostOps1_8, hostOps1_9] c main_v60 : S1x10x8192.Idx → EReal) = resultK m c := by
  unfold Pipeline.afterTail₀ resultK tailK
  show (StableHlo.after tailAll (Wx m c) (Proc.devRef .tc main_v60) : S1x10x8192.Idx → EReal) = _
  rw [tail_split, after_append, tailEnd_eq]
  have h24 := dense_kept m c
  generalize StableHlo.after tailPre (Wx m c) = W2 at h24 ⊢
  after_results
  rw [h24]
  rfl

/-- From any memory with zero counters every weakly fair execution of the program terminates with the result buffer at
    `resultK` and the eleven arguments as launched. -/
theorem run_value : θ_run defs (onTc (τ := τ) (main (F := Ideal))) ⟨m, fun _ => 0, ρ⟩ (fun r => ∀ c : Dev nD,
      r.2.mem ((c.tc : Thread nD τ).loc main_v60) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_v60 (Pipeline.mem_restRefs_of main_v60 (by decide) (by decide))).trans (out_value m c),
      ((h c).2 main_arg0 (Pipeline.mem_restRefs_of main_arg0 (by decide) (by decide))).trans (exit_low m (dats m) c main_arg0 (by decide) (by decide)),
      ((h c).1 1).trans (((dats m 0 c).arrAt_in 1 rfl _).trans ((A_eq m c 1).trans (entry_low m c main_arg1 (by decide)))),
      ((h c).2 main_arg2 (Pipeline.mem_restRefs_of main_arg2 (by decide) (by decide))).trans (exit_low m (dats m) c main_arg2 (by decide) (by decide)),
      ((h c).2 main_arg3 (Pipeline.mem_restRefs_of main_arg3 (by decide) (by decide))).trans (exit_low m (dats m) c main_arg3 (by decide) (by decide)),
      ((h c).2 main_arg4 (Pipeline.mem_restRefs_of main_arg4 (by decide) (by decide))).trans (exit_low m (dats m) c main_arg4 (by decide) (by decide)),
      ((h c).2 main_arg5 (Pipeline.mem_restRefs_of main_arg5 (by decide) (by decide))).trans (exit_low m (dats m) c main_arg5 (by decide) (by decide)),
      ((h c).2 main_arg6 (Pipeline.mem_restRefs_of main_arg6 (by decide) (by decide))).trans (exit_low m (dats m) c main_arg6 (by decide) (by decide)),
      ((h c).2 main_arg7 (Pipeline.mem_restRefs_of main_arg7 (by decide) (by decide))).trans (exit_low m (dats m) c main_arg7 (by decide) (by decide)),
      ((h c).2 main_arg8 (Pipeline.mem_restRefs_of main_arg8 (by decide) (by decide))).trans (exit_low m (dats m) c main_arg8 (by decide) (by decide)),
      ((h c).2 main_arg9 (Pipeline.mem_restRefs_of main_arg9 (by decide) (by decide))).trans (exit_low m (dats m) c main_arg9 (by decide) (by decide)),
      ((h c).2 main_arg10 (Pipeline.mem_restRefs_of main_arg10 (by decide) (by decide))).trans (exit_low m (dats m) c main_arg10 (by decide) (by decide))⟩) (run_main m ρ)

end Cert.KernelIdeal.Dense

end
-- ==== Proof.RefRun.lean ====
/-
  The reference program (plain jnp: two-level dequantisation, the dequantised 8192 x 8192 weights, one dot_general,
  the CSR outlier correction by gather / scatter-add, the sum) as ONE straight line of host operations, the bodies
  of the functions jax outlined (diff, roll, the two cumulative sums, take, where) listed at their call sites over the
  calls' own buffers; and its run: every weakly fair execution terminates with every buffer at the fold of those
  operations over the launch contents.
-/
import proofs.«410663_j33251636806448_3_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's host operations, in order, the outlined functions' bodies at their call sites: the scales and
    zeros dequantised (second level), the weight codes dequantised with them, the product with the activations; the
    row index of every outlier from the row pointers (row lengths, a mark at each row's first position, the running
    sum), the outliers' columns gathered from the activations, scaled by their values and added into their rows; the sum. -/
abbrev ops : List (HloOp τ sig (Elt F)) :=
  [ unary main_arg2 main_v0 (sitofp .f32 : (⟨S8192x512, .i32⟩ : BufTy).Contents (Elt F) → (⟨S8192x512, .f32⟩ : BufTy).Contents (Elt F)),
    reshape main_v0 main_v1 rfl shapeCasts_S8192x512_S512x16x512,
    unary main_arg5 main_v2 (broadcastInDim S512x1x512 ![0, 2] bcast_S512x512_S512x1x512_0_2 : (⟨S512x512, .f32⟩ : BufTy).Contents (Elt F) → (⟨S512x1x512, .f32⟩ : BufTy).Contents (Elt F)),
    unary main_v2 main_v3 (broadcastInDim S512x16x512 ![0, 1, 2] bcast_S512x1x512_S512x16x512_0_1_2 : (⟨S512x1x512, .f32⟩ : BufTy).Contents (Elt F) → (⟨S512x16x512, .f32⟩ : BufTy).Contents (Elt F)),
    binary main_v1 main_v3 main_v4 (subf : (⟨S512x16x512, .f32⟩ : BufTy).Contents (Elt F) → (⟨S512x16x512, .f32⟩ : BufTy).Contents (Elt F) → (⟨S512x16x512, .f32⟩ : BufTy).Contents (Elt F)),
    unary main_arg4 main_v5 (broadcastInDim S512x1x512 ![0, 2] bcast_S512x512_S512x1x512_0_2 : (⟨S512x512, .f32⟩ : BufTy).Contents (Elt F) → (⟨S512x1x512, .f32⟩ : BufTy).Contents (Elt F)),
    unary main_v5 main_v6 (broadcastInDim S512x16x512 ![0, 1, 2] bcast_S512x1x512_S512x16x512_0_1_2 : (⟨S512x1x512, .f32⟩ : BufTy).Contents (Elt F) → (⟨S512x16x512, .f32⟩ : BufTy).Contents (Elt F)),
    binary main_v4 main_v6 main_v7 (mulf : (⟨S512x16x512, .f32⟩ : BufTy).Contents (Elt F) → (⟨S512x16x512, .f32⟩ : BufTy).Contents (Elt F) → (⟨S512x16x512, .f32⟩ : BufTy).Contents (Elt F)),
    unary main_arg3 main_v8 (sitofp .f32 : (⟨S8192x512, .i32⟩ : BufTy).Contents (Elt F) → (⟨S8192x512, .f32⟩ : BufTy).Contents (Elt F)),
    reshape main_v8 main_v9 rfl shapeCasts_S8192x512_S512x16x512,
    unary main_arg7 main_v10 (broadcastInDim S512x1x512 ![0, 2] bcast_S512x512_S512x1x512_0_2 : (⟨S512x512, .f32⟩ : BufTy).Contents (Elt F) → (⟨S512x1x512, .f32⟩ : BufTy).Contents (Elt F)),
    unary main_v10 main_v11 (broadcastInDim S512x16x512 ![0, 1, 2] bcast_S512x1x512_S512x16x512_0_1_2 : (⟨S512x1x512, .f32⟩ : BufTy).Contents (Elt F) → (⟨S512x16x512, .f32⟩ : BufTy).Contents (Elt F)),
    binary main_v9 main_v11 main_v12 (subf : (⟨S512x16x512, .f32⟩ : BufTy).Contents (Elt F) → (⟨S512x16x512, .f32⟩ : BufTy).Contents (Elt F) → (⟨S512x16x512, .f32⟩ : BufTy).Contents (Elt F)),
    unary main_arg6 main_v13 (broadcastInDim S512x1x512 ![0, 2] bcast_S512x512_S512x1x512_0_2 : (⟨S512x512, .f32⟩ : BufTy).Contents (Elt F) → (⟨S512x1x512, .f32⟩ : BufTy).Contents (Elt F)),
    unary main_v13 main_v14 (broadcastInDim S512x16x512 ![0, 1, 2] bcast_S512x1x512_S512x16x512_0_1_2 : (⟨S512x1x512, .f32⟩ : BufTy).Contents (Elt F) → (⟨S512x16x512, .f32⟩ : BufTy).Contents (Elt F)),
    binary main_v12 main_v14 main_v15 (mulf : (⟨S512x16x512, .f32⟩ : BufTy).Contents (Elt F) → (⟨S512x16x512, .f32⟩ : BufTy).Contents (Elt F) → (⟨S512x16x512, .f32⟩ : BufTy).Contents (Elt F)),
    reshape main_v7 main_v16 rfl shapeCasts_S512x16x512_S8192x512,
    reshape main_v15 main_v17 rfl shapeCasts_S512x16x512_S8192x512,
    unary main_arg1 main_v18 (sitofp .f32 : (⟨S8192x8192, .i32⟩ : BufTy).Contents (Elt F) → (⟨S8192x8192, .f32⟩ : BufTy).Contents (Elt F)),
    reshape main_v18 main_v19 rfl shapeCasts_S8192x8192_S8192x512x16,
    unary main_v17 main_v20 (broadcastInDim S8192x512x1 ![0, 1] bcast_S8192x512_S8192x512x1_0_1 : (⟨S8192x512, .f32⟩ : BufTy).Contents (Elt F) → (⟨S8192x512x1, .f32⟩ : BufTy).Contents (Elt F)),
    unary main_v20 main_v21 (broadcastInDim S8192x512x16 ![0, 1, 2] bcast_S8192x512x1_S8192x512x16_0_1_2 : (⟨S8192x512x1, .f32⟩ : BufTy).Contents (Elt F) → (⟨S8192x512x16, .f32⟩ : BufTy).Contents (Elt F)),
    binary main_v19 main_v21 main_v22 (subf : (⟨S8192x512x16, .f32⟩ : BufTy).Contents (Elt F) → (⟨S8192x512x16, .f32⟩ : BufTy).Contents (Elt F) → (⟨S8192x512x16, .f32⟩ : BufTy).Contents (Elt F)),
    unary main_v16 main_v23 (broadcastInDim S8192x512x1 ![0, 1] bcast_S8192x512_S8192x512x1_0_1 : (⟨S8192x512, .f32⟩ : BufTy).Contents (Elt F) → (⟨S8192x512x1, .f32⟩ : BufTy).Contents (Elt F)),
    unary main_v23 main_v24 (broadcastInDim S8192x512x16 ![0, 1, 2] bcast_S8192x512x1_S8192x512x16_0_1_2 : (⟨S8192x512x1, .f32⟩ : BufTy).Contents (Elt F) → (⟨S8192x512x16, .f32⟩ : BufTy).Contents (Elt F)),
    binary main_v22 main_v24 main_v25 (mulf : (⟨S8192x512x16, .f32⟩ : BufTy).Contents (Elt F) → (⟨S8192x512x16, .f32⟩ : BufTy).Contents (Elt F) → (⟨S8192x512x16, .f32⟩ : BufTy).Contents (Elt F)),
    reshape main_v25 main_v26 rfl shapeCasts_S8192x512x16_S8192x8192,
    reshape main_arg0 main_v27 rfl shapeCasts_S1x10x8192_S10x8192,
    binary main_v27 main_v26 main_v28 ((fun l r => Host.dotGeneral dot_S10x8192_S8192x8192_S10x8192_1_1_0_0_n_n none l r) : (⟨S10x8192, .f32⟩ : BufTy).Contents (Elt F) → (⟨S8192x8192, .f32⟩ : BufTy).Contents (Elt F) → (⟨S10x8192, .f32⟩ : BufTy).Contents (Elt F)),
    nullary main_v29 (iotaInDim S8192 32 0),
    -- @diff at its call: the two shifted slices of the row pointers and their difference (the row lengths)
    TRef.unary (.of main_arg8 : TRef sig ⟨S8193, .i32⟩) (.of main_call0_v0 : TRef sig ⟨S8192, .i32⟩) (extractStridedSlice S8192 ![1] · slices_S8193_S8192_1),
    TRef.unary (.of main_arg8 : TRef sig ⟨S8193, .i32⟩) (.of main_call0_v1 : TRef sig ⟨S8192, .i32⟩) (extractStridedSlice S8192 ![0] · slices_S8193_S8192_0),
    TRef.binary (.of main_call0_v0 : TRef sig ⟨S8192, .i32⟩) (.of main_call0_v1 : TRef sig ⟨S8192, .i32⟩) (.of main_v30 : TRef sig ⟨S8192, .i32⟩) subi,
    -- @_roll_static at its call: the last entry in front of the first 8191
    TRef.unary (.of main_v30 : TRef sig ⟨S8192, .i32⟩) (.of main_call1_v0 : TRef sig ⟨S1, .i32⟩) (extractStridedSlice S1 ![8191] · slices_S8192_S1_8191),
    TRef.unary (.of main_v30 : TRef sig ⟨S8192, .i32⟩) (.of main_call1_v1 : TRef sig ⟨S8191, .i32⟩) (extractStridedSlice S8191 ![0] · slices_S8192_S8191_0),
    TRef.binary (.of main_call1_v0 : TRef sig ⟨S1, .i32⟩) (.of main_call1_v1 : TRef sig ⟨S8191, .i32⟩) (.of main_v31 : TRef sig ⟨S8192, .i32⟩) (fun a b => concatenate S8192 0 [⟨S1, a⟩, ⟨S8191, b⟩] concatenates_S1_S8191_S8192_d0),
    nullary main_c (constantI S_ 32 0#32),
    unary main_c main_v32 (broadcastInDim S1 ![] bcast_S_S1 : (⟨S_, .i32⟩ : BufTy).Contents (Elt F) → (⟨S1, .i32⟩ : BufTy).Contents (Elt F)),
    nullary main_c_0 (constantI S_ 32 0#32),
    ternary main_v31 main_v32 main_c_0 main_v33 ((fun x i u => Host.scatter scatter_S8192_S1_S__n_0_0_0 (fun _ b => b) x i u) : (⟨S8192, .i32⟩ : BufTy).Contents (Elt F) → (⟨S1, .i32⟩ : BufTy).Contents (Elt F) → (⟨S_, .i32⟩ : BufTy).Contents (Elt F) → (⟨S8192, .i32⟩ : BufTy).Contents (Elt F)),
    -- @cumsum (through @cumsum_0) at its call: the running sum over 8192 entries
    TRef.nullary (.of main_call2_call0_c : TRef sig ⟨S_, .i32⟩) (constantI S_ 32 0#32),
    TRef.unary (.of main_call2_call0_c : TRef sig ⟨S_, .i32⟩) (.of main_call2_call0_v0 : TRef sig ⟨S_, .i32⟩) (broadcastInDim S_ ![] bcast_S_S_),
    TRef.binary (.of main_v33 : TRef sig ⟨S8192, .i32⟩) (.of main_call2_call0_v0 : TRef sig ⟨S_, .i32⟩) (.of main_v34 : TRef sig ⟨S8192, .i32⟩) (fun x v => Host.reduceWindow IntOp.addi ![8192] ![1] ![8191] ![0] x v reduceWindows_S8192_S8192_w8192s1p8191_0 h_S_),
    nullary main_c_1 (constantI S_ 32 0#32),
    unary main_c_1 main_v35 (broadcastInDim S262144 ![] bcast_S_S262144 : (⟨S_, .i32⟩ : BufTy).Contents (Elt F) → (⟨S262144, .i32⟩ : BufTy).Contents (Elt F)),
    nullary main_c_2 (constantI S_ 32 0#32),
    unary main_c_2 main_v36 (broadcastInDim S8192 ![] bcast_S_S8192 : (⟨S_, .i32⟩ : BufTy).Contents (Elt F) → (⟨S8192, .i32⟩ : BufTy).Contents (Elt F)),
    binary main_v34 main_v36 main_v37 (cmpi .slt : (⟨S8192, .i32⟩ : BufTy).Contents (Elt F) → (⟨S8192, .i32⟩ : BufTy).Contents (Elt F) → (⟨S8192, .i1⟩ : BufTy).Contents (Elt F)),
    nullary main_c_3 (constantI S_ 32 262144#32),
    unary main_c_3 main_v38 (broadcastInDim S8192 ![] bcast_S_S8192 : (⟨S_, .i32⟩ : BufTy).Contents (Elt F) → (⟨S8192, .i32⟩ : BufTy).Contents (Elt F)),
    binary main_v34 main_v38 main_v39 (addi : (⟨S8192, .i32⟩ : BufTy).Contents (Elt F) → (⟨S8192, .i32⟩ : BufTy).Contents (Elt F) → (⟨S8192, .i32⟩ : BufTy).Contents (Elt F)),
    ternary main_v37 main_v39 main_v34 main_v40 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v40 main_v41 (broadcastInDim S8192x1 ![0] bcast_S8192_S8192x1_0 : (⟨S8192, .i32⟩ : BufTy).Contents (Elt F) → (⟨S8192x1, .i32⟩ : BufTy).Contents (Elt F)),
    nullary main_c_4 (constantI S_ 32 1#32),
    unary main_c_4 main_v42 (broadcastInDim S8192 ![] bcast_S_S8192 : (⟨S_, .i32⟩ : BufTy).Contents (Elt F) → (⟨S8192, .i32⟩ : BufTy).Contents (Elt F)),
    ternary main_v35 main_v41 main_v42 main_v43 ((fun x i u => Host.scatter scatter_S262144_S8192x1_S8192_n_0_0_1 IntOp.addi x i u) : (⟨S262144, .i32⟩ : BufTy).Contents (Elt F) → (⟨S8192x1, .i32⟩ : BufTy).Contents (Elt F) → (⟨S8192, .i32⟩ : BufTy).Contents (Elt F) → (⟨S262144, .i32⟩ : BufTy).Contents (Elt F)),
    -- @cumsum_1 (through @cumsum_2) at its call: the running sum over 262144 entries
    TRef.nullary (.of main_call3_call0_c : TRef sig ⟨S_, .i32⟩) (constantI S_ 32 0#32),
    TRef.unary (.of main_call3_call0_c : TRef sig ⟨S_, .i32⟩) (.of main_call3_call0_v0 : TRef sig ⟨S_, .i32⟩) (broadcastInDim S_ ![] bcast_S_S_),
    TRef.binary (.of main_v43 : TRef sig ⟨S262144, .i32⟩) (.of main_call3_call0_v0 : TRef sig ⟨S_, .i32⟩) (.of main_v44 : TRef sig ⟨S262144, .i32⟩) (fun x v => Host.reduceWindow IntOp.addi ![262144] ![1] ![262143] ![0] x v reduceWindows_S262144_S262144_w262144s1p262143_0 h_S_),
    nullary main_c_5 (constantI S_ 32 1#32),
    unary main_c_5 main_v45 (broadcastInDim S262144 ![] bcast_S_S262144 : (⟨S_, .i32⟩ : BufTy).Contents (Elt F) → (⟨S262144, .i32⟩ : BufTy).Contents (Elt F)),
    binary main_v44 main_v45 main_v46 (subi : (⟨S262144, .i32⟩ : BufTy).Contents (Elt F) → (⟨S262144, .i32⟩ : BufTy).Contents (Elt F) → (⟨S262144, .i32⟩ : BufTy).Contents (Elt F)),
    -- @_take at its call (with @_where inside): the index wrapped when negative, the in-range test, the gather, the fill where out of range
    TRef.nullary (.of main_call4_c : TRef sig ⟨S_, .i32⟩) (constantI S_ 32 0#32),
    TRef.unary (.of main_call4_c : TRef sig ⟨S_, .i32⟩) (.of main_call4_v0 : TRef sig ⟨S262144, .i32⟩) (broadcastInDim S262144 ![] bcast_S_S262144),
    TRef.binary (.of main_v46 : TRef sig ⟨S262144, .i32⟩) (.of main_call4_v0 : TRef sig ⟨S262144, .i32⟩) (.of main_call4_v1 : TRef sig ⟨S262144, .i1⟩) (cmpi .slt),
    TRef.nullary (.of main_call4_c_0 : TRef sig ⟨S_, .i32⟩) (constantI S_ 32 8192#32),
    TRef.unary (.of main_call4_c_0 : TRef sig ⟨S_, .i32⟩) (.of main_call4_v2 : TRef sig ⟨S262144, .i32⟩) (broadcastInDim S262144 ![] bcast_S_S262144),
    TRef.binary (.of main_v46 : TRef sig ⟨S262144, .i32⟩) (.of main_call4_v2 : TRef sig ⟨S262144, .i32⟩) (.of main_call4_v3 : TRef sig ⟨S262144, .i32⟩) addi,
    TRef.ternary (.of main_call4_v1 : TRef sig ⟨S262144, .i1⟩) (.of main_call4_v3 : TRef sig ⟨S262144, .i32⟩) (.of main_v46 : TRef sig ⟨S262144, .i32⟩) (.of main_call4_v4 : TRef sig ⟨S262144, .i32⟩) select,
    TRef.unary main_call4_call0.v0 (.of main_call4_v5 : TRef sig ⟨S262144x1, .i32⟩) (broadcastInDim S262144x1 ![0] bcast_S262144_S262144x1_0),
    TRef.nullary (.of main_call4_c_1 : TRef sig ⟨S1, .i32⟩) (constantI S1 32 8191#32),
    TRef.nullary (.of main_call4_c_2 : TRef sig ⟨S_, .i32⟩) (constantI S_ 32 0#32),
    TRef.unary (.of main_call4_c_2 : TRef sig ⟨S_, .i32⟩) (.of main_call4_v6 : TRef sig ⟨S262144x1, .i32⟩) (broadcastInDim S262144x1 ![] bcast_S_S262144x1),
    TRef.binary (.of main_call4_v5 : TRef sig ⟨S262144x1, .i32⟩) (.of main_call4_v6 : TRef sig ⟨S262144x1, .i32⟩) (.of main_call4_v7 : TRef sig ⟨S262144x1, .i1⟩) (cmpi .sge),
    TRef.unary (.of main_call4_c_1 : TRef sig ⟨S1, .i32⟩) (.of main_call4_v8 : TRef sig ⟨S1x1, .i32⟩) (broadcastInDim S1x1 ![1] bcast_S1_S1x1_1),
    TRef.unary (.of main_call4_v8 : TRef sig ⟨S1x1, .i32⟩) (.of main_call4_v9 : TRef sig ⟨S262144x1, .i32⟩) (broadcastInDim S262144x1 ![0, 1] bcast_S1x1_S262144x1_0_1),
    TRef.binary (.of main_call4_v5 : TRef sig ⟨S262144x1, .i32⟩) (.of main_call4_v9 : TRef sig ⟨S262144x1, .i32⟩) (.of main_call4_v10 : TRef sig ⟨S262144x1, .i1⟩) (cmpi .sle),
    TRef.binary (.of main_call4_v7 : TRef sig ⟨S262144x1, .i1⟩) (.of main_call4_v10 : TRef sig ⟨S262144x1, .i1⟩) (.of main_call4_v11 : TRef sig ⟨S262144x1, .i1⟩) andi,
    TRef.nullary (.of main_call4_c_3 : TRef sig ⟨S_, .i1⟩) (constantI S_ 1 1#1),
    TRef.binary (.of main_call4_v11 : TRef sig ⟨S262144x1, .i1⟩) (.of main_call4_c_3 : TRef sig ⟨S_, .i1⟩) (.of main_call4_v12 : TRef sig ⟨S262144, .i1⟩) (fun x v => Host.reduce IntOp.andi x v reducesTo_S262144x1_S262144_d1 h_S_),
    TRef.binary (.of main_v29 : TRef sig ⟨S8192, .i32⟩) (.of main_call4_v5 : TRef sig ⟨S262144x1, .i32⟩) (.of main_call4_v13 : TRef sig ⟨S262144, .i32⟩) (fun x i => Host.gather gather_S8192_S262144x1_S262144_n_0_n_n_0_1_1 x i),
    TRef.nullary (.of main_call4_c_4 : TRef sig ⟨S_, .i32⟩) (constantI S_ 32 2147483648#32),
    TRef.unary (.of main_call4_c_4 : TRef sig ⟨S_, .i32⟩) (.of main_call4_v14 : TRef sig ⟨S262144, .i32⟩) (broadcastInDim S262144 ![] bcast_S_S262144),
    TRef.ternary (.of main_call4_v12 : TRef sig ⟨S262144, .i1⟩) (.of main_call4_v13 : TRef sig ⟨S262144, .i32⟩) (.of main_call4_v14 : TRef sig ⟨S262144, .i32⟩) (.of main_v47 : TRef sig ⟨S262144, .i32⟩) select,
    unary main_arg10 main_v48 (broadcastInDim S262144x1 ![0] bcast_S262144_S262144x1_0 : (⟨S262144, .f32⟩ : BufTy).Contents (Elt F) → (⟨S262144x1, .f32⟩ : BufTy).Contents (Elt F)),
    nullary main_c_6 (constantI S_ 32 0#32),
    unary main_c_6 main_v49 (broadcastInDim S262144 ![] bcast_S_S262144 : (⟨S_, .i32⟩ : BufTy).Contents (Elt F) → (⟨S262144, .i32⟩ : BufTy).Contents (Elt F)),
    binary main_arg9 main_v49 main_v50 (cmpi .slt : (⟨S262144, .i32⟩ : BufTy).Contents (Elt F) → (⟨S262144, .i32⟩ : BufTy).Contents (Elt F) → (⟨S262144, .i1⟩ : BufTy).Contents (Elt F)),
    nullary main_c_7 (constantI S_ 32 8192#32),
    unary main_c_7 main_v51 (broadcastInDim S262144 ![] bcast_S_S262144 : (⟨S_, .i32⟩ : BufTy).Contents (Elt F) → (⟨S262144, .i32⟩ : BufTy).Contents (Elt F)),
    binary main_arg9 main_v51 main_v52 (addi : (⟨S262144, .i32⟩ : BufTy).Contents (Elt F) → (⟨S262144, .i32⟩ : BufTy).Contents (Elt F) → (⟨S262144, .i32⟩ : BufTy).Contents (Elt F)),
    ternary main_v50 main_v52 main_arg9 main_v53 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v53 main_v54 (broadcastInDim S262144x1 ![0] bcast_S262144_S262144x1_0 : (⟨S262144, .i32⟩ : BufTy).Contents (Elt F) → (⟨S262144x1, .i32⟩ : BufTy).Contents (Elt F)),
    binary main_v27 main_v54 main_v55 ((fun x i => Host.gather gather_S10x8192_S262144x1_S10x262144_0_1_n_n_1_1_101 x i) : (⟨S10x8192, .f32⟩ : BufTy).Contents (Elt F) → (⟨S262144x1, .i32⟩ : BufTy).Contents (Elt F) → (⟨S10x262144, .f32⟩ : BufTy).Contents (Elt F)),
    unary main_v55 main_v56 ((transpose S262144x10 [1, 0] · transposes_S10x262144_S262144x10_1_0) : (⟨S10x262144, .f32⟩ : BufTy).Contents (Elt F) → (⟨S262144x10, .f32⟩ : BufTy).Contents (Elt F)),
    unary main_v48 main_v57 (broadcastInDim S262144x10 ![0, 1] bcast_S262144x1_S262144x10_0_1 : (⟨S262144x1, .f32⟩ : BufTy).Contents (Elt F) → (⟨S262144x10, .f32⟩ : BufTy).Contents (Elt F)),
    binary main_v57 main_v56 main_v58 (mulf : (⟨S262144x10, .f32⟩ : BufTy).Contents (Elt F) → (⟨S262144x10, .f32⟩ : BufTy).Contents (Elt F) → (⟨S262144x10, .f32⟩ : BufTy).Contents (Elt F)),
    nullary main_cst (constant S_ .f32 0x00000000#32),
    unary main_cst main_v59 (broadcastInDim S8192x10 ![] bcast_S_S8192x10 : (⟨S_, .f32⟩ : BufTy).Contents (Elt F) → (⟨S8192x10, .f32⟩ : BufTy).Contents (Elt F)),
    unary main_v47 main_v60 (broadcastInDim S262144x1 ![0] bcast_S262144_S262144x1_0 : (⟨S262144, .i32⟩ : BufTy).Contents (Elt F) → (⟨S262144x1, .i32⟩ : BufTy).Contents (Elt F)),
    ternary main_v59 main_v60 main_v58 main_v61 ((fun x i u => Host.scatterAdd scatter_S8192x10_S262144x1_S262144x10_1_0_0_1 x i u) : (⟨S8192x10, .f32⟩ : BufTy).Contents (Elt F) → (⟨S262144x1, .i32⟩ : BufTy).Contents (Elt F) → (⟨S262144x10, .f32⟩ : BufTy).Contents (Elt F) → (⟨S8192x10, .f32⟩ : BufTy).Contents (Elt F)),
    unary main_v61 main_v62 ((transpose S10x8192 [1, 0] · transposes_S8192x10_S10x8192_1_0) : (⟨S8192x10, .f32⟩ : BufTy).Contents (Elt F) → (⟨S10x8192, .f32⟩ : BufTy).Contents (Elt F)),
    binary main_v28 main_v62 main_v63 (addf : (⟨S10x8192, .f32⟩ : BufTy).Contents (Elt F) → (⟨S10x8192, .f32⟩ : BufTy).Contents (Elt F) → (⟨S10x8192, .f32⟩ : BufTy).Contents (Elt F)),
    reshape main_v63 main_v64 rfl shapeCasts_S10x8192_S1x10x8192 ]

/-- The program is that straight line: the two windows run in order and each outlined function's body unfolded at its
    call, over the call's record of buffers, are the same chain of steps as the list's, statement by statement
    (both sides reduce to it by unfolding definitions; the equation is reflexivity, checked as such). -/
theorem main_eq (c : Dev nD) : main (F := F) c = seq ops := by
  chain_rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., unary_bufs_sub .., binary_bufs_sub .., unary_bufs_sub ..,
    unary_bufs_sub .., binary_bufs_sub .., unary_bufs_sub .., reshape_bufs_sub .., unary_bufs_sub .., unary_bufs_sub ..,
    binary_bufs_sub .., unary_bufs_sub .., unary_bufs_sub .., binary_bufs_sub .., reshape_bufs_sub .., reshape_bufs_sub ..,
    unary_bufs_sub .., reshape_bufs_sub .., unary_bufs_sub .., unary_bufs_sub .., binary_bufs_sub .., unary_bufs_sub ..,
    unary_bufs_sub .., binary_bufs_sub .., reshape_bufs_sub .., reshape_bufs_sub .., binary_bufs_sub .., nullary_bufs_sub ..,
    unary_bufs_sub .., unary_bufs_sub .., binary_bufs_sub .., unary_bufs_sub .., unary_bufs_sub .., binary_bufs_sub ..,
    nullary_bufs_sub .., unary_bufs_sub .., nullary_bufs_sub .., ternary_bufs_sub .., nullary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    binary_bufs_sub .., reshape_bufs_sub ..⟩

/-- From any memory with zero counters every weakly fair execution terminates, with every TensorCore buffer at the fold of
    the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- A buffer numbered below every buffer a line of operations writes keeps its contents through the line. -/
theorem after_low_kept {lo : ℕ} {r : Ref sig .tc} (l : List (HloOp τ sig (Elt F))) (W : Valuation τ sig (Elt F))
    (hW : l.Forall fun op => ∀ b : Ref sig .tc, Proc.devRef (τ := τ) .tc b ∈ op.writes → lo ≤ b.idx.val)
    (hr : r.idx.val < lo) : after l W (Proc.devRef .tc r) = W (Proc.devRef .tc r) :=
  after_of_forall_not_mem l W fun op hop hb =>
    absurd ((List.forall_iff_forall_mem.mp hW) op hop r hb) (Nat.not_le.mpr hr)

/-- Every operation writes its own result buffer, and the results are numbered 11 to 114. -/
theorem ops_writes : (ops : List (HloOp τ sig (Elt F))).Forall
    fun op => ∀ b : Ref sig .tc, Proc.devRef (τ := τ) .tc b ∈ op.writes → 11 ≤ b.idx.val := by
  simp only [List.Forall, nullary_writes, unary_writes, binary_writes, ternary_writes, reshape_writes, Finset.mem_singleton]
  repeat' apply And.intro
  all_goals (intro b h; rw [Proc.devRef_injective _ h]; decide)

/-- No operation writes an argument (the arguments are the buffers numbered 0 to 10): each keeps its contents. -/
theorem arg_kept (V : Valuation τ sig (Elt F)) (r : Ref sig .tc) (hr : r.idx.val < 11) :
    after ops V (Proc.devRef .tc r) = V (Proc.devRef .tc r) :=
  after_low_kept ops V ops_writes hr

end Cert.ReferenceIdeal.Hand

end
-- ==== Proof.RefValue.lean ====
/-
  What the reference computes, read off its straight line at the ideal values: the result is the reshape of the sum of
  the dense product and the outlier correction; entry (b, r) of the dense product is the sum over the 8192 columns n of
  x[b, n] · ((W[r, n] − z[r, n / 16]) · s[r, n / 16]), with s and z the two-level dequantisations of the scale and zero
  codes (the weights are dequantised through a reshape to 8192 x 512 x 16 against s and z broadcast along the last axis:
  column n is position n % 16 of group n / 16).
-/
import proofs.«410663_j33251636806448_3_alg».proof.Proof.RefRun
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen Idealize.ShloMosaic Idealize.ShloMosaic.TcCoe Idealize.ShloMosaic.ValueIdx Idealize.SL.Sem Idealize.ShloMosaic.StableHlo

/-- The group of 16 weight columns that column n belongs to. -/
def grp512 (n : Fin 8192) : Fin 512 := ⟨n.val / 16, by omega⟩

/-- The two-level dequantisation of a scale (or zero) array: the quantised codes q (8192 x 512) as numbers, minus zz,
    times ss, where zz and ss (512 x 512) are repeated over the 16 rows of each row group. -/
def scaleOf {F : FTy → Type} [FloatOps F] (q : Vec F S8192x512 .i32) (zz ss : FVec F S512x512 .f32) : FVec F S8192x512 .f32 :=
  shapeCast S8192x512
    (mulf (subf (shapeCast S512x16x512 (sitofp .f32 q : FVec F S8192x512 .f32) shapeCasts_S8192x512_S512x16x512)
            (broadcastInDim S512x16x512 ![0, 1, 2] bcast_S512x1x512_S512x16x512_0_1_2 (broadcastInDim S512x1x512 ![0, 2] bcast_S512x512_S512x1x512_0_2 zz)))
      (broadcastInDim S512x16x512 ![0, 1, 2] bcast_S512x1x512_S512x16x512_0_1_2 (broadcastInDim S512x1x512 ![0, 2] bcast_S512x512_S512x1x512_0_2 ss)))
    shapeCasts_S512x16x512_S8192x512

/-! ## The dequantised weights and the product, entry by entry -/

/-- The position of column n inside its group of 16. -/
def pos16 (n : Fin 8192) : Fin 16 := ⟨n.val % 16, by omega⟩

/-- The dequantised weights: the codes W as numbers, reshaped to 8192 x 512 x 16, minus the zeros Z and times the scales
    S (each repeated along the last axis), reshaped back to 8192 x 8192. -/
def deq (W : Vec Ideal S8192x8192 .i32) (Z S : FVec Ideal S8192x512 .f32) : FVec Ideal S8192x8192 .f32 :=
  shapeCast S8192x8192
    (mulf (subf (shapeCast S8192x512x16 (sitofp .f32 W : FVec Ideal S8192x8192 .f32) shapeCasts_S8192x8192_S8192x512x16)
            (broadcastInDim S8192x512x16 ![0, 1, 2] bcast_S8192x512x1_S8192x512x16_0_1_2 (broadcastInDim S8192x512x1 ![0, 1] bcast_S8192x512_S8192x512x1_0_1 Z)))
      (broadcastInDim S8192x512x16 ![0, 1, 2] bcast_S8192x512x1_S8192x512x16_0_1_2 (broadcastInDim S8192x512x1 ![0, 1] bcast_S8192x512_S8192x512x1_0_1 S)))
    shapeCasts_S8192x512x16_S8192x8192

/-- A per-group array (8192 x 512) repeated along the 16 positions of each group reads, at (r, g, l), its entry (r, g). -/
theorem rep16_apply (Z : FVec Ideal S8192x512 .f32) (r : Fin 8192) (g : Fin 512) (l : Fin 16) :
    broadcastInDim S8192x512x16 ![0, 1, 2] bcast_S8192x512x1_S8192x512x16_0_1_2 (broadcastInDim S8192x512x1 ![0, 1] bcast_S8192x512_S8192x512x1_0_1 Z) (ix3 r g l)
      = Z (ix2 r g) := by
  refine (broadcastInDim_apply _ _ _ (ix3 r g l) (ix3 r g (0 : Fin 1)) (fun a => match a with
    | ⟨0, _⟩ => rfl | ⟨1, _⟩ => rfl | ⟨2, _⟩ => rfl)).trans ?_
  exact broadcastInDim_apply _ _ _ (ix3 r g (0 : Fin 1)) (ix2 r g) (fun a => match a with
    | ⟨0, _⟩ => rfl | ⟨1, _⟩ => rfl)

/-- Entry (r, n) of the dequantised weights: the code as a number, minus the zero of the column's group, times the scale
    of the column's group. Row-major, (r, n) of 8192 x 8192 and (r, n / 16, n % 16) of 8192 x 512 x 16 are the same
    position, 8192 r + n = 16 (512 r + n / 16) + n % 16. -/
theorem deq_apply (W : Vec Ideal S8192x8192 .i32) (Z S : FVec Ideal S8192x512 .f32) (r n : Fin 8192) :
    deq W Z S (ix2 r n) = (((BitVec.toInt (W (ix2 r n)) : ℝ) : EReal) - Z (ix2 r (grp512 n))) * S (ix2 r (grp512 n)) := by
  unfold deq
  refine (shapeCast_apply _ _ (ix2 r n) (ix3 r (grp512 n) (pos16 n)) ?_).trans ?_
  · rw [Shape.rowMajor_val_three, Shape.rowMajor_val_two]
    show (r.val * 512 + n.val / 16) * 16 + n.val % 16 = r.val * 8192 + n.val
    omega
  rw [mulf_apply, subf_apply, rep16_apply, rep16_apply]
  congr 2
  refine (shapeCast_apply _ _ (ix3 r (grp512 n) (pos16 n)) (ix2 r n) ?_).trans ?_
  · rw [Shape.rowMajor_val_three, Shape.rowMajor_val_two]
    show r.val * 8192 + n.val = (r.val * 512 + n.val / 16) * 16 + n.val % 16
    omega
  rfl

/-- The product's operand indices, axis by axis: at result index j and contraction index k the left operand is read at
    (j 0, k) and the right operand at (j 1, k). -/
theorem lhs_dot_0 (j : S10x8192.Idx) (k : dot_S10x8192_S8192x8192_S10x8192_1_1_0_0_n_n.contr.Idx) :
    (dot_S10x8192_S8192x8192_S10x8192_1_1_0_0_n_n.lhsIdx j k 0 : ℕ) = j 0 := by
  simp [DotDims.lhsIdx, dot_S10x8192_S8192x8192_S10x8192_1_1_0_0_n_n]; rfl
theorem lhs_dot_1 (j : S10x8192.Idx) (k : dot_S10x8192_S8192x8192_S10x8192_1_1_0_0_n_n.contr.Idx) :
    (dot_S10x8192_S8192x8192_S10x8192_1_1_0_0_n_n.lhsIdx j k 1 : ℕ) = k ⟨0, by decide⟩ := by
  simp [DotDims.lhsIdx, dot_S10x8192_S8192x8192_S10x8192_1_1_0_0_n_n]; rfl
theorem rhs_dot_0 (j : S10x8192.Idx) (k : dot_S10x8192_S8192x8192_S10x8192_1_1_0_0_n_n.contr.Idx) :
    (dot_S10x8192_S8192x8192_S10x8192_1_1_0_0_n_n.rhsIdx j k 0 : ℕ) = j 1 := by
  simp [DotDims.rhsIdx, dot_S10x8192_S8192x8192_S10x8192_1_1_0_0_n_n]; rfl
theorem rhs_dot_1 (j : S10x8192.Idx) (k : dot_S10x8192_S8192x8192_S10x8192_1_1_0_0_n_n.contr.Idx) :
    (dot_S10x8192_S8192x8192_S10x8192_1_1_0_0_n_n.rhsIdx j k 1 : ℕ) = k ⟨0, by decide⟩ := by
  simp [DotDims.rhsIdx, dot_S10x8192_S8192x8192_S10x8192_1_1_0_0_n_n]; rfl

/-- The product of X (10 x 8192) with Wd (8192 x 8192) contracted along the columns of both, read at (b, r): the sum
    over the columns n of X[b, n] · Wd[r, n]. -/
theorem dot_apply (X : FVec Ideal S10x8192 .f32) (Wd : FVec Ideal S8192x8192 .f32) (b : Fin 10) (r : Fin 8192) :
    Host.dotGeneral (F := Ideal) dot_S10x8192_S8192x8192_S10x8192_1_1_0_0_n_n none X Wd (ix2 b r)
      = ∑ n : Fin 8192, X (ix2 b n) * Wd (ix2 r n) := by
  show FloatOps.dotGeneral _ none _ X Wd (ix2 b r) = _
  rw [Ideal.dotGeneral_apply, ← Equiv.sum_comp (contrEquiv1 dot_S10x8192_S8192x8192_S10x8192_1_1_0_0_n_n 8192 rfl rfl).symm]
  refine Finset.sum_congr rfl fun c _ => ?_
  have hk := contrEquiv1_symm_val dot_S10x8192_S8192x8192_S10x8192_1_1_0_0_n_n 8192 rfl rfl c
  have hl : dot_S10x8192_S8192x8192_S10x8192_1_1_0_0_n_n.lhsIdx (ix2 b r)
      ((contrEquiv1 dot_S10x8192_S8192x8192_S10x8192_1_1_0_0_n_n 8192 rfl rfl).symm c) = ix2 b c := by
    funext ax; apply Fin.ext
    match ax with
    | ⟨0, _⟩ => exact lhs_dot_0 _ _
    | ⟨1, _⟩ => exact (lhs_dot_1 _ _).trans hk
  have hr : dot_S10x8192_S8192x8192_S10x8192_1_1_0_0_n_n.rhsIdx (ix2 b r)
      ((contrEquiv1 dot_S10x8192_S8192x8192_S10x8192_1_1_0_0_n_n 8192 rfl rfl).symm c) = ix2 r c := by
    funext ax; apply Fin.ext
    match ax with
    | ⟨0, _⟩ => exact rhs_dot_0 _ _
    | ⟨1, _⟩ => exact (rhs_dot_1 _ _).trans hk
  rw [hl, hr]

/-! ## The straight line read at the result and at the dense product -/

variable (V : Valuation τ sig (Elt Ideal))

/-- The activations reshaped to 10 x 8192. -/
def xR : S10x8192.Idx → EReal := shapeCast S10x8192 (V (main_arg0 : DevRef τ sig) : S1x10x8192.Idx → EReal) shapeCasts_S1x10x8192_S10x8192
/-- The scales and the zeros. -/
def sR : S8192x512.Idx → EReal := scaleOf (F := Ideal) (V (main_arg2 : DevRef τ sig)) (V (main_arg5 : DevRef τ sig)) (V (main_arg4 : DevRef τ sig))
def zR : S8192x512.Idx → EReal := scaleOf (F := Ideal) (V (main_arg3 : DevRef τ sig)) (V (main_arg7 : DevRef τ sig)) (V (main_arg6 : DevRef τ sig))

attribute [local irreducible] Host.reduce Host.gather Host.scatter Host.scatterAdd Host.reduceWindow concatenate in
/-- The result is the reshape of the dense product plus the outlier correction: the last two operations of the line,
    read at their result buffers (the gathers, scatters, window sums and the concatenation stay folded: the equation
    never looks inside them). -/
theorem out_eq :
    (after ops V (main_v64 : DevRef τ sig) : S1x10x8192.Idx → EReal)
      = (shapeCast S1x10x8192 (addf (F := Ideal) (after ops V (main_v28 : DevRef τ sig) : FVec Ideal S10x8192 .f32) (after ops V (main_v62 : DevRef τ sig) : FVec Ideal S10x8192 .f32) : FVec Ideal S10x8192 .f32) shapeCasts_S10x8192_S1x10x8192 : S1x10x8192.Idx → EReal) := by
  simp only [after_cons, after_nil]
  rfl

attribute [local irreducible] Host.reduce Host.gather Host.scatter Host.scatterAdd Host.reduceWindow concatenate in
/-- The dense product is the product of the reshaped activations with the weights dequantised against the zeros and
    the scales. -/
theorem v28_eq :
    (after ops V (main_v28 : DevRef τ sig) : S10x8192.Idx → EReal)
      = Host.dotGeneral (F := Ideal) (φ₁ := .f32) (φ₂ := .f32) dot_S10x8192_S8192x8192_S10x8192_1_1_0_0_n_n none (xR V)
          (deq (V (main_arg1 : DevRef τ sig)) (zR V) (sR V)) := by
  simp only [after_cons, after_nil]
  rfl

/-- Entry (b, r) of the dense product. -/
theorem dense_apply (b : Fin 10) (r : Fin 8192) :
    (after ops V (main_v28 : DevRef τ sig) : S10x8192.Idx → EReal) (ix2 b r)
      = ∑ n : Fin 8192, xR V (ix2 b n)
          * ((((BitVec.toInt ((V (main_arg1 : DevRef τ sig) : S8192x8192.Idx → BitVec 32) (ix2 r n)) : ℝ) : EReal) - zR V (ix2 r (grp512 n))) * sR V (ix2 r (grp512 n))) := by
  rw [v28_eq, dot_apply]
  refine Finset.sum_congr (M := EReal) rfl fun n _ => ?_
  rw [deq_apply]

end Cert.ReferenceIdeal.Hand

end
-- ==== Proof.AgreeTail.lean ====
/-
  The CSR outlier corrections of the two idealized programs are one term. Both programs compute the correction by the
  same host operations — row indices from the row offsets (difference, roll, a scatter of the leading zero, a
  cumulative sum, a scatter-add of ones, a second cumulative sum, a take from the row iota), the products of the outlier
  values with the activations gathered at the column ids, a scatter-add of those products by row index into zeros, and
  a transpose — from the activations, row offsets, column ids and values. Opened operation by operation, with the four
  input arrays identified, the two corrections are syntactically the same composition.
-/
import proofs.«410663_j33251636806448_3_alg».proof.Proof.DenseFrame
import proofs.«410663_j33251636806448_3_alg».proof.Proof.RefRun
import Idealize.ShloMosaic.Lib.StableHlo.Run
import Idealize.ShloMosaic.PureOps.Ideal

set_option maxRecDepth 65536

noncomputable section

namespace Cert.Agree

open Idealize.ShloMosaic Idealize.ShloMosaic.TcCoe Idealize.SL.Sem Idealize.ShloMosaic.StableHlo

set_option maxHeartbeats 16000000 in
/-- The outlier corrections of the two programs, computed from buffers holding the same activations (reshaped in the
    kernel program's buffer, as launched in the reference's), row offsets, column ids and outlier values, are equal:
    both sides opened operation by operation are one term. -/
theorem tail_agree_gen (WK : Valuation Cert.KernelIdeal.τ Cert.KernelIdeal.sig (Elt Ideal)) (VR : Valuation Cert.ReferenceIdeal.τ Cert.ReferenceIdeal.sig (Elt Ideal))
    (hx : (WK (Proc.devRef .tc Cert.KernelIdeal.main_v0) : Cert.KernelIdeal.S10x8192.Idx → EReal)
        = shapeCast Cert.KernelIdeal.S10x8192 (VR (Proc.devRef .tc Cert.ReferenceIdeal.main_arg0) : Cert.KernelIdeal.S1x10x8192.Idx → EReal) Cert.KernelIdeal.Gen.shapeCasts_S1x10x8192_S10x8192)
    (h8 : (WK (Proc.devRef .tc Cert.KernelIdeal.main_arg8) : Cert.KernelIdeal.S8193.Idx → BitVec 32) = VR (Proc.devRef .tc Cert.ReferenceIdeal.main_arg8))
    (h9 : (WK (Proc.devRef .tc Cert.KernelIdeal.main_arg9) : Cert.KernelIdeal.S262144.Idx → BitVec 32) = VR (Proc.devRef .tc Cert.ReferenceIdeal.main_arg9))
    (h10 : (WK (Proc.devRef .tc Cert.KernelIdeal.main_arg10) : Cert.KernelIdeal.S262144.Idx → EReal) = VR (Proc.devRef .tc Cert.ReferenceIdeal.main_arg10)) :
    (StableHlo.after (List.flatten [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9]) WK (Proc.devRef .tc Cert.KernelIdeal.main_v58) : Cert.KernelIdeal.S10x8192.Idx → EReal)
      = (StableHlo.after Cert.ReferenceIdeal.Hand.ops VR (Proc.devRef .tc Cert.ReferenceIdeal.main_v62) : Cert.KernelIdeal.S10x8192.Idx → EReal) := by
  simp only [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.ReferenceIdeal.Hand.ops, List.flatten_cons, List.flatten_nil, List.append_nil, List.cons_append, List.nil_append]
  after_results_simp
  repeat (first
    | rw [StableHlo.nullary_result] | rw [StableHlo.unary_result] | rw [StableHlo.binary_result] | rw [StableHlo.ternary_result] | rw [StableHlo.quaternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.quaternary_result_ne]; rotate_left; decide)
    | (rw [StableHlo.reshape_result_ne]; rotate_left; decide))
  rw [hx, h8, h9, h10]
  rfl

end Cert.Agree

end
-- ==== Proof.Agree.lean ====
/-
  The two idealized programs compute one function of arguments that agree.

  Dense part: the kernel's result array holds, at (b, R), the sum over the 8192 columns N of
  x[b, N] · ((W[R, N] − z[R, N / 16]) · s[R, N / 16]) with x, W, s, z the arrays its pallas call finds; the reference's
  dot_general of the activations with the dequantised weights is the same sum over the reference's own x, W, s, z; and
  those arrays are the same functions of the arguments in both programs (the reshape of the activations; the two-level
  dequantisations of the scale and zero codes; the weight codes themselves).

  Outlier correction: one term in both programs, once the buffers it starts from are identified.

  The two results are the reshape of (dense part + correction).
-/
import proofs.«410663_j33251636806448_3_alg».proof.Proof.DenseOut
import proofs.«410663_j33251636806448_3_alg».proof.Proof.RefValue
import proofs.«410663_j33251636806448_3_alg».proof.Proof.AgreeTail

set_option maxRecDepth 65536

noncomputable section

namespace Cert.Agree

open Idealize.ShloMosaic Idealize.ShloMosaic.TcCoe Idealize.ShloMosaic.ValueIdx Idealize.SL.Sem Idealize.ShloMosaic.StableHlo

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories hold the same eleven arguments on core `c`. -/
def Args (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-- The reshaped activations of the two programs agree. -/
theorem x_agree (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Hand.xR (launchContents m' c) = Cert.KernelIdeal.Dense.Xa m c :=
  (congrArg (fun a : Cert.KernelIdeal.S1x10x8192.Idx → EReal => shapeCast Cert.KernelIdeal.S10x8192 a Cert.KernelIdeal.Gen.shapeCasts_S1x10x8192_S10x8192) h0).trans
    (Cert.KernelIdeal.Dense.X_eq m c).symm

/-- The two-level dequantisation is one function in both programs. -/
theorem scale_agree (q : Cert.KernelIdeal.S8192x512.Idx → BitVec 32) (zz ss : Cert.KernelIdeal.S512x512.Idx → EReal) :
    Cert.ReferenceIdeal.Hand.scaleOf (F := Ideal) q zz ss = Cert.KernelIdeal.Dense.scaleOf (F := Ideal) q zz ss := rfl

theorem s_agree (c : Dev Cert.KernelIdeal.nD) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.sR (launchContents m' c) = Cert.KernelIdeal.Dense.Sa m c := by
  refine Eq.trans ?_ (Cert.KernelIdeal.Dense.S_eq m c).symm
  show Cert.ReferenceIdeal.Hand.scaleOf (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg4)) = _
  rw [h2, h5, h4]
  exact scale_agree _ _ _

theorem z_agree (c : Dev Cert.KernelIdeal.nD) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.zR (launchContents m' c) = Cert.KernelIdeal.Dense.Za m c := by
  refine Eq.trans ?_ (Cert.KernelIdeal.Dense.Z_eq m c).symm
  show Cert.ReferenceIdeal.Hand.scaleOf (F := Ideal) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg6)) = _
  rw [h3, h7, h6]
  exact scale_agree _ _ _

theorem w_agree (c : Dev Cert.KernelIdeal.nD) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ((launchContents m' c) (Cert.ReferenceIdeal.main_arg1 : DevRef Cert.ReferenceIdeal.τ Cert.ReferenceIdeal.sig) : Cert.KernelIdeal.S8192x8192.Idx → BitVec 32) = Cert.KernelIdeal.Dense.Wa m c :=
  h1.trans (Cert.KernelIdeal.Dense.entry_low m c Cert.KernelIdeal.main_arg1 (by decide)).symm

/-- The reference's dot_general is the dense product the kernel's pallas call leaves. -/
theorem dense_agree (c : Dev Cert.KernelIdeal.nD) (h : Args m m' c) :
    (after Cert.ReferenceIdeal.Hand.ops (launchContents m' c) (Cert.ReferenceIdeal.main_v28 : DevRef Cert.ReferenceIdeal.τ Cert.ReferenceIdeal.sig) : Cert.KernelIdeal.S10x8192.Idx → EReal)
      = Cert.KernelIdeal.Dense.denseK m c := by
  obtain ⟨h0, h1, h2, h3, h4, h5, h6, h7, h8, h9, h10⟩ := h
  funext i
  obtain ⟨b, R, rfl⟩ : ∃ (b : Fin 10) (R : Fin 8192), i = ix2 b R := ⟨i 0, i 1, eq_ix2 i⟩
  rw [Cert.KernelIdeal.Dense.denseK_ix2]
  refine (Cert.ReferenceIdeal.Hand.dense_apply (launchContents m' c) b R).trans ?_
  rw [x_agree m m' c h0, w_agree m m' c h1, s_agree m m' c h2 h5 h4, z_agree m m' c h3 h7 h6]
  rfl

/-- The reference's outlier correction is the kernel program's. -/
theorem tail_agree (c : Dev Cert.KernelIdeal.nD) (h : Args m m' c) :
    (after Cert.ReferenceIdeal.Hand.ops (launchContents m' c) (Cert.ReferenceIdeal.main_v62 : DevRef Cert.ReferenceIdeal.τ Cert.ReferenceIdeal.sig) : Cert.KernelIdeal.S10x8192.Idx → EReal)
      = Cert.KernelIdeal.Dense.tailK m c := by
  obtain ⟨h0, h1, h2, h3, h4, h5, h6, h7, h8, h9, h10⟩ := h
  refine (tail_agree_gen (Cert.KernelIdeal.Dense.Wx m c) (launchContents m' c) ?_ ?_ ?_ ?_).symm
  · refine (Pipeline.withArrays_arr Cert.KernelIdeal.spec0 Cert.KernelIdeal.Gen.launch0.win.arr_inj c _ _ 0).trans ?_
    refine ((Cert.KernelIdeal.Dense.dats m 0 c).arrAt_in 0 rfl _).trans ?_
    refine (Cert.KernelIdeal.Dense.A_eq m c 0).trans ?_
    refine (Cert.KernelIdeal.Dense.X_eq m c).trans ?_
    exact congrArg (fun a : Cert.KernelIdeal.S1x10x8192.Idx → EReal => shapeCast Cert.KernelIdeal.S10x8192 a Cert.KernelIdeal.Gen.shapeCasts_S1x10x8192_S10x8192) h0.symm
  · refine (Pipeline.withArrays_of_ne Cert.KernelIdeal.spec0 c (Cert.KernelIdeal.Dense.V0 m c) _ Cert.KernelIdeal.main_arg8 (by decide)).trans ?_
    exact (Cert.KernelIdeal.Dense.entry_low m c Cert.KernelIdeal.main_arg8 (by decide)).trans h8.symm
  · refine (Pipeline.withArrays_of_ne Cert.KernelIdeal.spec0 c (Cert.KernelIdeal.Dense.V0 m c) _ Cert.KernelIdeal.main_arg9 (by decide)).trans ?_
    exact (Cert.KernelIdeal.Dense.entry_low m c Cert.KernelIdeal.main_arg9 (by decide)).trans h9.symm
  · refine (Pipeline.withArrays_of_ne Cert.KernelIdeal.spec0 c (Cert.KernelIdeal.Dense.V0 m c) _ Cert.KernelIdeal.main_arg10 (by decide)).trans ?_
    exact (Cert.KernelIdeal.Dense.entry_low m c Cert.KernelIdeal.main_arg10 (by decide)).trans h10.symm

/-- The reference's result is the kernel program's. -/
theorem result_agree (c : Dev Cert.KernelIdeal.nD) (h : Args m m' c) :
    (after Cert.ReferenceIdeal.Hand.ops (launchContents m' c) (Cert.ReferenceIdeal.main_v64 : DevRef Cert.ReferenceIdeal.τ Cert.ReferenceIdeal.sig) : Cert.KernelIdeal.S1x10x8192.Idx → EReal)
      = Cert.KernelIdeal.Dense.resultK m c := by
  rw [Cert.ReferenceIdeal.Hand.out_eq]
  unfold Cert.KernelIdeal.Dense.resultK
  rw [dense_agree m m' c h, tail_agree m m' c h]

end Cert.Agree

end
-- ==== Proof.lean ====
/-
  A sparse-quantized matmul: y = x · dequant(W)ᵀ + (CSR outlier correction), with 3-bit weight codes W[8192, 8192] and
  per-16-column scales s and zeros z that are themselves dequantised in two levels, dequant(W)[m, n] =
  (W[m, n] − z[m, n / 16]) · s[m, n / 16]. The kernel streams W through a 64 x 4 grid of 128 x 2048 tiles, expands s and z
  to tile width by a product with a one-hot 128 x 2048 matrix, accumulates the four partial products of an output block
  in a scratch buffer and stores it at the last reduction step; the reference dequantises all of W and takes one
  dot_general. Both add the same outlier correction.

  Frames. Each kernel program is forty-one host operations, the pallas call, seventy-five host operations; the call's
  body is run once per reduction step kind (first, middle, last), what the accumulator holds is carried in the region
  invariant, and the pipeline's launch theorem gives the run of the whole program — at the word-level instance and at
  the ideal one alike. The reference is one straight line of host operations.

  Values, over the extended reals. Because the expansion matrix is one-hot, the expansion products select column group
  n / 16 exactly (a sum with one non-zero term); the four partial products are the sum over the 8192 columns cut into
  four tiles of 2048, and sums of extended reals may be regrouped freely; so the call's result array is the
  reference's dot_general entry by entry. The outlier corrections are one term. No cancellation or distributive law is
  used, so the precondition (finite inputs) is not needed for the values.
-/
import proofs.«410663_j33251636806448_3_alg».proof.Defs
import proofs.«410663_j33251636806448_3_alg».proof.Proof.Gen.Kernel
import proofs.«410663_j33251636806448_3_alg».proof.Proof.Gen.KernelIdeal
import proofs.«410663_j33251636806448_3_alg».proof.Proof.Gen.ReferenceIdeal
import proofs.«410663_j33251636806448_3_alg».proof.Proof.Gen.Pre_finite_inputs
import proofs.«410663_j33251636806448_3_alg».proof.Proof.DenseFrameBits
import proofs.«410663_j33251636806448_3_alg».proof.Proof.Agree
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and leaves its arguments as launched. -/
theorem frame_k : Cert.frame_Kernel := fun m ρ _ => Cert.Kernel.Dense.frame m ρ

/-- So does its idealization. -/
theorem frame_ki : Cert.frame_KernelIdeal := fun m ρ _ => Cert.KernelIdeal.Dense.frame m ρ

/-- The reference runs, and none of its operations writes an argument. -/
theorem frame_ri : Cert.frame_ReferenceIdeal := fun m ρ _ =>
  (θ_run Cert.ReferenceIdeal.defs _ _).mono (fun _ h c => ⟨
      (h c Cert.ReferenceIdeal.main_arg0).trans (Cert.ReferenceIdeal.Hand.arg_kept _ Cert.ReferenceIdeal.main_arg0 (by decide)),
      (h c Cert.ReferenceIdeal.main_arg1).trans (Cert.ReferenceIdeal.Hand.arg_kept _ Cert.ReferenceIdeal.main_arg1 (by decide)),
      (h c Cert.ReferenceIdeal.main_arg2).trans (Cert.ReferenceIdeal.Hand.arg_kept _ Cert.ReferenceIdeal.main_arg2 (by decide)),
      (h c Cert.ReferenceIdeal.main_arg3).trans (Cert.ReferenceIdeal.Hand.arg_kept _ Cert.ReferenceIdeal.main_arg3 (by decide)),
      (h c Cert.ReferenceIdeal.main_arg4).trans (Cert.ReferenceIdeal.Hand.arg_kept _ Cert.ReferenceIdeal.main_arg4 (by decide)),
      (h c Cert.ReferenceIdeal.main_arg5).trans (Cert.ReferenceIdeal.Hand.arg_kept _ Cert.ReferenceIdeal.main_arg5 (by decide)),
      (h c Cert.ReferenceIdeal.main_arg6).trans (Cert.ReferenceIdeal.Hand.arg_kept _ Cert.ReferenceIdeal.main_arg6 (by decide)),
      (h c Cert.ReferenceIdeal.main_arg7).trans (Cert.ReferenceIdeal.Hand.arg_kept _ Cert.ReferenceIdeal.main_arg7 (by decide)),
      (h c Cert.ReferenceIdeal.main_arg8).trans (Cert.ReferenceIdeal.Hand.arg_kept _ Cert.ReferenceIdeal.main_arg8 (by decide)),
      (h c Cert.ReferenceIdeal.main_arg9).trans (Cert.ReferenceIdeal.Hand.arg_kept _ Cert.ReferenceIdeal.main_arg9 (by decide)),
      (h c Cert.ReferenceIdeal.main_arg10).trans (Cert.ReferenceIdeal.Hand.arg_kept _ Cert.ReferenceIdeal.main_arg10 (by decide))⟩)
    (Cert.ReferenceIdeal.Hand.run (F := Ideal) m ρ)

/-- At the ideal instance both programs end with the same result: the reshape of the dense product plus the outlier
    correction, as the kernel program names it. -/
theorem algebraic : Cert.algebraic_KernelIdeal_ReferenceIdeal := by
  intro m ρ m' ρ' _ hagree
  refine ⟨fun c => Cert.KernelIdeal.Dense.resultK m c, Cert.KernelIdeal.Dense.run_value m ρ, ?_⟩
  refine (θ_run Cert.ReferenceIdeal.defs _ _).mono (fun _ h c => ⟨
      (h c Cert.ReferenceIdeal.main_v64).trans (Cert.Agree.result_agree m m' c (hagree c)),
      (h c Cert.ReferenceIdeal.main_arg0).trans (Cert.ReferenceIdeal.Hand.arg_kept _ Cert.ReferenceIdeal.main_arg0 (by decide)),
      (h c Cert.ReferenceIdeal.main_arg1).trans (Cert.ReferenceIdeal.Hand.arg_kept _ Cert.ReferenceIdeal.main_arg1 (by decide)),
      (h c Cert.ReferenceIdeal.main_arg2).trans (Cert.ReferenceIdeal.Hand.arg_kept _ Cert.ReferenceIdeal.main_arg2 (by decide)),
      (h c Cert.ReferenceIdeal.main_arg3).trans (Cert.ReferenceIdeal.Hand.arg_kept _ Cert.ReferenceIdeal.main_arg3 (by decide)),
      (h c Cert.ReferenceIdeal.main_arg4).trans (Cert.ReferenceIdeal.Hand.arg_kept _ Cert.ReferenceIdeal.main_arg4 (by decide)),
      (h c Cert.ReferenceIdeal.main_arg5).trans (Cert.ReferenceIdeal.Hand.arg_kept _ Cert.ReferenceIdeal.main_arg5 (by decide)),
      (h c Cert.ReferenceIdeal.main_arg6).trans (Cert.ReferenceIdeal.Hand.arg_kept _ Cert.ReferenceIdeal.main_arg6 (by decide)),
      (h c Cert.ReferenceIdeal.main_arg7).trans (Cert.ReferenceIdeal.Hand.arg_kept _ Cert.ReferenceIdeal.main_arg7 (by decide)),
      (h c Cert.ReferenceIdeal.main_arg8).trans (Cert.ReferenceIdeal.Hand.arg_kept _ Cert.ReferenceIdeal.main_arg8 (by decide)),
      (h c Cert.ReferenceIdeal.main_arg9).trans (Cert.ReferenceIdeal.Hand.arg_kept _ Cert.ReferenceIdeal.main_arg9 (by decide)),
      (h c Cert.ReferenceIdeal.main_arg10).trans (Cert.ReferenceIdeal.Hand.arg_kept _ Cert.ReferenceIdeal.main_arg10 (by decide))⟩)
    (Cert.ReferenceIdeal.Hand.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
